-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v83)) (v1 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_v90) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S_ : Shape := ⟨0, ![]⟩

class Facts : Prop where
  bcast_S_S100000x1 : S_.BroadcastsInDim S100000x1 (![] : Fin 0 → Fin S100000x1.rank)
  reducesTo_S100000x1_S_d0_1 : S100000x1.ReducesTo [0, 1] S_
  h_S_ : 0 < S_.numel
  bcast_S_S1x32 : S_.BroadcastsInDim S1x32 (![] : Fin 0 → Fin S1x32.rank)
  reducesTo_S1x32_S_d0_1 : S1x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part4 {F : FTy → Type} [FloatOps F] (main_arg16 : FVec F S2 .f32) (main_v63 : IVec S_ 1) (main_v67 : IVec S_ 1) : IVec S_ 1 :=
  let main_v68 : IVec S_ 1 := andi main_v63 main_v67
  let main_v69 : FVec F S2 .f32 := Host.absf main_arg16
  let main_cst_26 : FVec F S_ .f32 := constant S_ .f32 0x7F800000#32
  let main_v70 : FVec F S2 .f32 := broadcastInDim S2 ![] bcast_S_S2 main_cst_26
  let main_v71 : IVec S2 1 := cmpf .olt main_v69 main_v70
  let main_c_27 : IVec S_ 1 := constantI S_ 1 1#1
  let main_v72 : IVec S_ 1 := (fun x v => Host.reduce IntOp.andi x v reducesTo_S2_S_d0 h_S_) main_v71 main_c_27
  let main_v73 : IVec S_ 1 := andi main_v68 main_v72
  main_v73

def fn_part3 {F : FTy → Type} [FloatOps F] (main_arg13 : FVec F S32x32 .f32) (main_arg14 : FVec F S32 .f32) (main_arg15 : FVec F S32x2 .f32) (main_arg16 : FVec F S2 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x2 .f32 := Host.absf main_arg15
  let main_cst_24 : FVec F S_ .f32 := constant S_ .f32 0x7F800000#32
  let main_v65 : FVec F S32x2 .f32 := broadcastInDim S32x2 ![] bcast_S_S32x2 main_cst_24
  let main_v66 : IVec S32x2 1 := cmpf .olt main_v64 main_v65
  let main_c_25 : IVec S_ 1 := constantI S_ 1 1#1
  let main_v67 : IVec S_ 1 := (fun x v => Host.reduce IntOp.andi x v reducesTo_S32x2_S_d0_1 h_S_) main_v66 main_c_25
  fn_part4 (F := F) main_arg16 main_v63 main_v67

def fn_part2 {F : FTy → Type} [FloatOps F] (main_arg9 : FVec F S32x32 .f32) (main_arg10 : FVec F S32 .f32) (main_arg11 : FVec F S32x1 .f32) (main_arg12 : FVec F S1 .f32) (main_arg13 : FVec F S32x32 .f32) (main_arg14 : FVec F S32 .f32) (main_arg15 : FVec F S32x2 .f32) (main_arg16 : FVec F S2 .f32) (main_v33 : IVec S_ 1) : IVec S_ 1 :=
  let main_v34 : FVec F S32x32 .f32 := Host.absf main_arg9
  let main_cst_12 : FVec F S_ .f32 := constant S_ .f32 0x7F800000#32
  let main_v35 : FVec F S32x32 .f32 := broadcastInDim S32x32 ![] bcast_S_S32x32 main_cst_12
  let main_v36 : IVec S32x32 1 := cmpf .olt main_v34 main_v35
  let main_c_13 : IVec S_ 1 := constantI S_ 1 1#1
  let main_v37 : IVec S_ 1 := (fun x v => Host.reduce IntOp.andi x v reducesTo_S32x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x1 .f32 := Host.absf main_arg11
  let main_cst_16 : FVec F S_ .f32 := constant S_ .f32 0x7F800000#32
  let main_v45 : FVec F S32x1 .f32 := broadcastInDim S32x1 ![] bcast_S_S32x1 main_cst_16
  let main_v46 : IVec S32x1 1 := cmpf .olt main_v44 main_v45
  let main_c_17 : IVec S_ 1 := constantI S_ 1 1#1
  let main_v47 : IVec S_ 1 := (fun x v => Host.reduce IntOp.andi x v reducesTo_S32x1_S_d0_1 h_S_) main_v46 main_c_17
  let main_v48 : IVec S_ 1 := andi main_v43 main_v47
  let main_v49 : FVec F S1 .f32 := Host.absf main_arg12
  let main_cst_18 : FVec F S_ .f32 := constant S_ .f32 0x7F800000#32
  let main_v50 : FVec F S1 .f32 := broadcastInDim S1 ![] bcast_S_S1 main_cst_18
  fn_part3 (F := F) main_arg13 main_arg14 main_arg15 main_arg16 main_v48 main_v49 main_v50

def fn_part1 {F : FTy → Type} [FloatOps F] (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S1 .f32) (main_arg13 : FVec F S32x32 .f32) (main_arg14 : FVec F S32 .f32) (main_arg15 : FVec F S32x2 .f32) (main_arg16 : FVec F S2 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x32 .f32 := Host.absf main_arg7
  let main_cst_8 : FVec F S_ .f32 := constant S_ .f32 0x7F800000#32
  let main_v25 : FVec F S32x32 .f32 := broadcastInDim S32x32 ![] bcast_S_S32x32 main_cst_8
  let main_v26 : IVec S32x32 1 := cmpf .olt main_v24 main_v25
  let main_c_9 : IVec S_ 1 := constantI S_ 1 1#1
  let main_v27 : IVec S_ 1 := (fun x v => Host.reduce IntOp.andi x v reducesTo_S32x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x1 .f32) (main_arg1 : IVec S2x3200000 32) (main_arg2 : IVec S100000 32) (main_arg3 : FVec F S1x32 .f32) (main_arg4 : FVec F S32 .f32) (main_arg5 : FVec F S32x32 .f32) (main_arg6 : FVec F S32 .f32) (main_arg7 : FVec F S32x32 .f32) (main_arg8 : FVec F S32 .f32) (main_arg9 : FVec F S32x32 .f32) (main_arg10 : FVec F S32 .f32) (main_arg11 : FVec F S32x1 .f32) (main_arg12 : FVec F S1 .f32) (main_arg13 : FVec F S32x32 .f32) (main_arg14 : FVec F S32 .f32) (main_arg15 : FVec F S32x2 .f32) (main_arg16 : FVec F S2 .f32) : IVec S_ 1 :=
  let main_v0 : FVec F S100000x1 .f32 := Host.absf main_arg0
  let main_cst : FVec F S_ .f32 := constant S_ .f32 0x7F800000#32
  let main_v1 : FVec F S100000x1 .f32 := broadcastInDim S100000x1 ![] bcast_S_S100000x1 main_cst
  let main_v2 : IVec S100000x1 1 := cmpf .olt main_v0 main_v1
  let main_c : IVec S_ 1 := constantI S_ 1 1#1
  let main_v3 : IVec S_ 1 := (fun x v => Host.reduce IntOp.andi x v reducesTo_S100000x1_S_d0_1 h_S_) main_v2 main_c
  let main_v4 : FVec F S1x32 .f32 := Host.absf main_arg3
  let main_cst_0 : FVec F S_ .f32 := constant S_ .f32 0x7F800000#32
  let main_v5 : FVec F S1x32 .f32 := broadcastInDim S1x32 ![] bcast_S_S1x32 main_cst_0
  let main_v6 : IVec S1x32 1 := cmpf .olt main_v4 main_v5
  let main_c_1 : IVec S_ 1 := constantI S_ 1 1#1
  let main_v7 : IVec S_ 1 := (fun x v => Host.reduce IntOp.andi x v reducesTo_S1x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S1x1 : Shape := ⟨2, ![1, 1]⟩
abbrev S1x2 : Shape := ⟨2, ![1, 2]⟩
abbrev S100000x32 : Shape := ⟨2, ![100000, 32]⟩
abbrev S10000x1 : Shape := ⟨2, ![10000, 1]⟩
abbrev S10000x32 : Shape := ⟨2, ![10000, 32]⟩
abbrev S3300000x32 : Shape := ⟨2, ![3300000, 32]⟩
abbrev S128x32 : Shape := ⟨2, ![128, 32]⟩
abbrev S128x1 : Shape := ⟨2, ![128, 1]⟩
abbrev S10000x128 : Shape := ⟨2, ![10000, 128]⟩
abbrev S128 : Shape := ⟨1, ![128]⟩
abbrev S1x128 : Shape := ⟨2, ![1, 128]⟩
abbrev S128x2 : Shape := ⟨2, ![128, 2]⟩

abbrev nBuf : Space → Nat
  | .hbm => 130
  | .vmem => 42
  | .smem => 0
  | _ => 0

abbrev hbmTy0_0 (i : Nat) : BufTy := match i % 128 with
  | 0 => ⟨S100000x1, .f32⟩
  | 1 => ⟨S2x3200000, .i32⟩
  | 2 => ⟨S100000, .i32⟩
  | 3 => ⟨S1x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x1, .f32⟩
  | 12 => ⟨S1, .f32⟩
  | 13 => ⟨S32x32, .f32⟩
  | 14 => ⟨S32, .f32⟩
  | 15 => ⟨S32x2, .f32⟩
  | 16 => ⟨S2, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S3300000, .f32⟩
  | 60 => ⟨S1x32, .f32⟩
  | 61 => ⟨S1x32, .f32⟩
  | 62 => ⟨S1x32, .f32⟩
  | 63 => ⟨S1x32, .f32⟩
  | 64 => ⟨S1x1, .f32⟩
  | 65 => ⟨S1x32, .f32⟩
  | 66 => ⟨S1x2, .f32⟩
  | 67 => ⟨S100000x32, .f32⟩
  | 68 => ⟨S_, .i32⟩
  | 69 => ⟨S3300000, .i32⟩
  | 70 => ⟨S3300000, .i1⟩
  | 71 => ⟨S_, .i32⟩
  | 72 => ⟨S3300000, .i32⟩
  | 73 => ⟨S3300000, .i32⟩
  | 74 => ⟨S3300000, .i32⟩
  | 75 => ⟨S3300000x1, .i32⟩
  | 76 => ⟨S3300000x32, .f32⟩
  | 77 => ⟨S3300000x1, .f32⟩
  | 78 => ⟨S3300000x32, .f32⟩
  | 79 => ⟨S3300000x32, .f32⟩
  | 80 => ⟨S_, .f32⟩
  | 81 => ⟨S100000x32, .f32⟩
  | 82 => ⟨S3300000x1, .i32⟩
  | 83 => ⟨S100000x32, .f32⟩
  | 84 => ⟨S100000x32, .f32⟩
  | 85 => ⟨S_, .i32⟩
  | 86 => ⟨S3300000, .i32⟩
  | 87 => ⟨S3300000, .i1⟩
  | 88 => ⟨S_, .i32⟩
  | 89 => ⟨S3300000, .i32⟩
  | 90 => ⟨S3300000, .i32⟩
  | 91 => ⟨S3300000, .i32⟩
  | 92 => ⟨S3300000x1, .i32⟩
  | 93 => ⟨S3300000x32, .f32⟩
  | 94 => ⟨S3300000x1, .f32⟩
  | 95 => ⟨S3300000x32, .f32⟩
  | 96 => ⟨S3300000x32, .f32⟩
  | 97 => ⟨S_, .f32⟩
  | 98 => ⟨S100000x32, .f32⟩
  | 99 => ⟨S3300000x1, .i32⟩
  | 100 => ⟨S100000x32, .f32⟩
  | 101 => ⟨S100000x32, .f32⟩
  | 102 => ⟨S_, .i32⟩
  | 103 => ⟨S3300000, .i32⟩
  | 104 => ⟨S3300000, .i1⟩
  | 105 => ⟨S_, .i32⟩
  | 106 => ⟨S3300000, .i32⟩
  | 107 => ⟨S3300000, .i32⟩
  | 108 => ⟨S3300000, .i32⟩
  | 109 => ⟨S3300000x1, .i32⟩
  | 110 => ⟨S3300000x32, .f32⟩
  | 111 => ⟨S3300000x1, .f32⟩
  | 112 => ⟨S3300000x32, .f32⟩
  | 113 => ⟨S3300000x32, .f32⟩
  | 114 => ⟨S_, .f32⟩
  | 115 => ⟨S100000x32, .f32⟩
  | 116 => ⟨S3300000x1, .i32⟩
  | 117 => ⟨S100000x32, .f32⟩
  | 118 => ⟨S100000x32, .f32⟩
  | 119 => ⟨S100000x1, .f32⟩
  | 120 => ⟨S100000, .f32⟩
  | 121 => ⟨S100000x1, .i32⟩
  | 122 => ⟨S128x32, .f32⟩
  | 123 => ⟨S128x1, .f32⟩
  | 124 => ⟨S_, .f32⟩
  | 125 => ⟨S128x1, .f32⟩
  | 126 => ⟨S128x1, .f32⟩
  | 127 => ⟨S128x32, .f32⟩
  | _ => ⟨S100000x1, .f32⟩

abbrev hbmTy0_1 (i : Nat) : BufTy := match i % 128 with
  | 0 => ⟨S128x32, .f32⟩
  | 1 => ⟨S128x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | .local _ .vmem, ⟨0, _⟩ => ⟨S10000x1, .f32⟩
  | .local _ .vmem, ⟨1, _⟩ => ⟨S10000x1, .f32⟩
  | .local _ .vmem, ⟨2, _⟩ => ⟨S1x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S32x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S1x32, .f32⟩
  | .local _ .vmem, ⟨14, _⟩ => ⟨S32x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S10000x32, .f32⟩
  | .local _ .vmem, ⟨19, _⟩ => ⟨S1x32, .f32⟩
  | .local _ .vmem, ⟨20, _⟩ => ⟨S10000x32, .f32⟩
  | .local _ .vmem, ⟨21, _⟩ => ⟨S10000x32, .f32⟩
  | .local _ .vmem, ⟨22, _⟩ => ⟨S10000x32, .f32⟩
  | .local _ .vmem, ⟨23, _⟩ => ⟨S10000x32, .f32⟩
  | .local _ .vmem, ⟨24, _⟩ => ⟨S32x32, .f32⟩
  | .local _ .vmem, ⟨25, _⟩ => ⟨S1x32, .f32⟩
  | .local _ .vmem, ⟨26, _⟩ => ⟨S32x1, .f32⟩
  | .local _ .vmem, ⟨27, _⟩ => ⟨S1x1, .f32⟩
  | .local _ .vmem, ⟨28, _⟩ => ⟨S10000x1, .f32⟩
  | .local _ .vmem, ⟨29, _⟩ => ⟨S10000x1, .f32⟩
  | .local _ .vmem, ⟨30, _⟩ => ⟨S10000x32, .f32⟩
  | .local _ .vmem, ⟨31, _⟩ => ⟨S10000x32, .f32⟩
  | .local _ .vmem, ⟨32, _⟩ => ⟨S10000x1, .i32⟩
  | .local _ .vmem, ⟨33, _⟩ => ⟨S10000x1, .i32⟩
  | .local _ .vmem, ⟨34, _⟩ => ⟨S128x32, .f32⟩
  | .local _ .vmem, ⟨35, _⟩ => ⟨S128x1, .f32⟩
  | .local _ .vmem, ⟨36, _⟩ => ⟨S128x32, .f32⟩
  | .local _ .vmem, ⟨37, _⟩ => ⟨S32x32, .f32⟩
  | .local _ .vmem, ⟨38, _⟩ => ⟨S1x32, .f32⟩
  | .local _ .vmem, ⟨39, _⟩ => ⟨S32x2, .f32⟩
  | .local _ .vmem, ⟨40, _⟩ => ⟨S1x2, .f32⟩
  | .local _ .vmem, ⟨41, _⟩ => ⟨S128x2, .f32⟩
  | _, _ => ⟨S100000x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_c_7 : Ref sig .tc := ⟨.hbm, 68, rfl⟩
abbrev main_v40 : Ref sig .tc := ⟨.hbm, 69, rfl⟩
abbrev main_v41 : Ref sig .tc := ⟨.hbm, 70, rfl⟩
abbrev main_c_8 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_cst_9 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_c_10 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_cst_12 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_13 : Ref sig .tc := ⟨.hbm, 102, rfl⟩
abbrev main_v68 : Ref sig .tc := ⟨.hbm, 103, rfl⟩
abbrev main_v69 : Ref sig .tc := ⟨.hbm, 104, rfl⟩
abbrev main_c_14 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_15 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85_0 : Ref sig .tc := ⟨.hbm, 122, rfl⟩
abbrev main_v85_1 : Ref sig .tc := ⟨.hbm, 123, rfl⟩
abbrev main_cst_16 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg3_0 : Ref sig .tc := ⟨.vmem, 26, rfl⟩
abbrev cc4_stg4_0 : Ref sig .tc := ⟨.vmem, 27, rfl⟩
abbrev cc4_stg5_0 : Ref sig .tc := ⟨.vmem, 28, rfl⟩
abbrev cc4_stg5_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg3_0 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc6_stg4_0 : Ref sig .tc := ⟨.vmem, 40, rfl⟩
abbrev cc6_stg5_0 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc4_sem4_0 : DmaSem sig := 27
abbrev cc4_sem5_0 : DmaSem sig := 28
abbrev cc4_sem5_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem3_0 : DmaSem sig := 35
abbrev cc6_sem0_0 : DmaSem sig := 36
abbrev cc6_sem1_0 : DmaSem sig := 37
abbrev cc6_sem2_0 : DmaSem sig := 38
abbrev cc6_sem3_0 : DmaSem sig := 39
abbrev cc6_sem4_0 : DmaSem sig := 40
abbrev cc6_sem5_0 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S32x32 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x32 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S32x1 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S10000x1 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S10000x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S10000x1 .i32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x1 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S128x32 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S32x2 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x2 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S128x2 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S32_S1x32 : S32.ShapeCasts S1x32
  shapeCasts_S1_S1x1 : S1.ShapeCasts S1x1
  shapeCasts_S2_S1x2 : S2.ShapeCasts S1x2
  inb_S10000x1_S10000x1_0_0 : ∀ a, (![0, 0] : Fin 2 → Nat) a + S10000x1.size a ≤ S10000x1.size a
  h_S10000x1 : 0 < S10000x1.numel
  bitsLt_bf16_f32 : FTy.bits .bf16 < FTy.bits .f32
  inb_S1x32_S1x32_0_0 : ∀ a, (![0, 0] : Fin 2 → Nat) a + S1x32.size a ≤ S1x32.size a
  h_S1x32 : 0 < S1x32.numel
  inb_S10000x32_S10000x32_0_0 : ∀ a, (![0, 0] : Fin 2 → Nat) a + S10000x32.size a ≤ S10000x32.size a
  h_S10000x32 : 0 < S10000x32.numel
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  shapeCasts_S10000x32_S10000x32 : S10000x32.ShapeCasts S10000x32
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  shapeCasts_S100000x1_S100000 : S100000x1.ShapeCasts S100000
  shapeCasts_S100000_S100000x1 : S100000.ShapeCasts S100000x1
  inb_S128x32_S128x32_0_0 : ∀ a, (![0, 0] : Fin 2 → Nat) a + S128x32.size a ≤ S128x32.size a
  h_S128x32 : 0 < S128x32.numel
  inb_S128x1_S128x1_0_0 : ∀ a, (![0, 0] : Fin 2 → Nat) a + S128x1.size a ≤ S128x1.size a
  h_S128x1 : 0 < S128x1.numel
  shapeCasts_S10000x1_S10000x1 : S10000x1.ShapeCasts S10000x1
  iota_S10000x128_d1_w32 : S10000x128.Iotas .tc 32 [1]
  broadcasts_S10000x1_S10000x128 : S10000x1.Broadcasts S10000x128
  natLt_1_32 : 1 < 32
  shapeCasts_S128x32_S128x32 : S128x32.ShapeCasts S128x32
  reduces_S10000x128_S128 : S10000x128.Reduces [0] S128
  shapeCasts_S128_S1x128 : S128.ShapeCasts S1x128
  shapeCasts_S128x1_S128x1 : S128x1.ShapeCasts S128x1
  transposes_S1x128_p1_0_S128x1 : S1x128.Transposes [1, 0] S128x1
  bcast_S_S128x1 : S_.BroadcastsInDim S128x1 (![] : Fin 0 → Fin S128x1.rank)
  bcast_S128x1_S128x32_0_1 : S128x1.BroadcastsInDim S128x32 (![0, 1] : Fin 2 → Fin S128x32.rank)
  broadcasts_S1x32_S128x32 : S1x32.Broadcasts S128x32
  inb_S32x2_S32x2_0_0 : ∀ a, (![0, 0] : Fin 2 → Nat) a + S32x2.size a ≤ S32x2.size a
  h_S32x2 : 0 < S32x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S10000x1_S1x32_S10000x32_1_0_0_1_n_n_wf : DotDims.WF S10000x1 S1x32 S10000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S10000x32_S32x32_S10000x32_1_0_0_1_n_n_wf : DotDims.WF S10000x32 S32x32 S10000x32 [1] [0] [0] [1] [] []
  dot_S10000x32_S32x1_S10000x1_1_0_0_1_n_n_wf : DotDims.WF S10000x32 S32x1 S10000x1 [1] [0] [0] [1] [] []
  dot_S10000x128_S10000x32_S128x32_0_0_1_1_n_n_wf : DotDims.WF S10000x128 S10000x32 S128x32 [0] [0] [1] [1] [] []
  dot_S128x32_S32x32_S128x32_1_0_0_1_n_n_wf : DotDims.WF S128x32 S32x32 S128x32 [1] [0] [0] [1] [] []
  dot_S128x32_S32x2_S128x2_1_0_0_1_n_n_wf : DotDims.WF S128x32 S32x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S100000x1.size a
  hwx0_0 : ∀ i : grid0.Coords, EltTy.bits .f32 = 32 ∨ (Rect.block (s := S100000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x32.size a ≤ S1x32.size a
  hwx0_1 : ∀ i : grid0.Coords, EltTy.bits .f32 = 32 ∨ (Rect.block (s := S1x32) S1x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x32.size a ≤ S100000x32.size a
  hwx1_3 : ∀ i : grid1.Coords, EltTy.bits .f32 = 32 ∨ (Rect.block (s := S100000x32) S10000x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x32.size a ≤ S1x32.size a
  hwx2_1 : ∀ i : grid2.Coords, EltTy.bits .f32 = 32 ∨ (Rect.block (s := S1x32) S1x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x32.size a ≤ S100000x32.size a
  hwx2_3 : ∀ i : grid2.Coords, EltTy.bits .f32 = 32 ∨ (Rect.block (s := S100000x32) S10000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x32.size a ≤ S100000x32.size a
  hwx4_0 : ∀ i : grid4.Coords, EltTy.bits .f32 = 32 ∨ (Rect.block (s := S100000x32) S10000x32.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S32x32.size a ≤ S32x32.size a
  hwx4_1 : ∀ i : grid4.Coords, EltTy.bits .f32 = 32 ∨ (Rect.block (s := S32x32) S32x32.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x32.size a ≤ S1x32.size a
  hwx4_2 : ∀ i : grid4.Coords, EltTy.bits .f32 = 32 ∨ (Rect.block (s := S1x32) S1x32.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S32x1.size a ≤ S32x1.size a
  hwx4_3 : ∀ i : grid4.Coords, EltTy.bits .f32 = 32 ∨ (Rect.block (s := S32x1) S32x1.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x1.size a ≤ S1x1.size a
  hwx4_4 : ∀ i : grid4.Coords, EltTy.bits .f32 = 32 ∨ (Rect.block (s := S1x1) S1x1.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S10000x1.size a ≤ S100000x1.size a
  hwx4_5 : ∀ i : grid4.Coords, EltTy.bits .f32 = 32 ∨ (Rect.block (s := S100000x1) S10000x1.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x32.size a ≤ S100000x32.size a
  hwx5_0 : ∀ i : grid5.Coords, EltTy.bits .f32 = 32 ∨ (Rect.block (s := S100000x32) S10000x32.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S10000x1.size a ≤ S100000x1.size a
  hwx5_1 : ∀ i : grid5.Coords, EltTy.bits .i32 = 32 ∨ (Rect.block (s := S100000x1) S10000x1.size (cc5_transform_1 i) (hinb5_1 i)).WholeWords (EltTy.packing .i32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x32.size a ≤ S128x32.size a
  hwx5_2 : ∀ i : grid5.Coords, EltTy.bits .f32 = 32 ∨ (Rect.block (s := S128x32) S128x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x1.size a ≤ S128x1.size a
  hwx5_3 : ∀ i : grid5.Coords, EltTy.bits .f32 = 32 ∨ (Rect.block (s := S128x1) S128x1.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S128x32.size a ≤ S128x32.size a
  hwx6_0 : ∀ i : grid6.Coords, EltTy.bits .f32 = 32 ∨ (Rect.block (s := S128x32) S128x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S32x2.size a ≤ S32x2.size a
  hwx6_3 : ∀ i : grid6.Coords, EltTy.bits .f32 = 32 ∨ (Rect.block (s := S32x2) S32x2.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x2.size a ≤ S1x2.size a
  hwx6_4 : ∀ i : grid6.Coords, EltTy.bits .f32 = 32 ∨ (Rect.block (s := S1x2) S1x2.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x2.size a ≤ S128x2.size a
  hwx6_5 : ∀ i : grid6.Coords, EltTy.bits .f32 = 32 ∨ (Rect.block (s := S128x2) S128x2.size (cc6_transform_5 i) (hinb6_5 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S10000x1_S1x32_S10000x32_1_0_0_1_n_n : DotDims S10000x1 S1x32 S10000x32 where
  lhsContracting := [1]
  rhsContracting := [0]
  lhsNonContracting := [0]
  rhsNonContracting := [1]
  lhsBatch := []
  rhsBatch := []
  wf := dot_S10000x1_S1x32_S10000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x32_S32x1_S10000x1_1_0_0_1_n_n : DotDims S10000x32 S32x1 S10000x1 where
  lhsContracting := [1]
  rhsContracting := [0]
  lhsNonContracting := [0]
  rhsNonContracting := [1]
  lhsBatch := []
  rhsBatch := []
  wf := dot_S10000x32_S32x1_S10000x1_1_0_0_1_n_n_wf
def dot_S10000x128_S10000x32_S128x32_0_0_1_1_n_n : DotDims S10000x128 S10000x32 S128x32 where
  lhsContracting := [0]
  rhsContracting := [0]
  lhsNonContracting := [1]
  rhsNonContracting := [1]
  lhsBatch := []
  rhsBatch := []
  wf := dot_S10000x128_S10000x32_S128x32_0_0_1_1_n_n_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

abbrev win0_0 : Pipeline.Window sig grid0 :=
  Pipeline.Window.ofSpec (Memref.whole main_arg0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v39) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S10000x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v66) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S1x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S10000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v80) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v34) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v81) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v81) S10000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S32x32.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1x32.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S32x1.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v36) S1x1.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v82) S10000x1.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v81) S10000x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v84) S10000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v85_0) S128x32.size cc5_transform_2 reads5_2 true true 1 stage5_2 sem5_2
    hrank5 hreads5_2 hinb5_2 nbuf5_2 (Memref.isWhole_whole _) hwx5_2 hstage5_2

abbrev win5_3 : Pipeline.Window sig grid5 :=
  Pipeline.Window.ofSpec (Memref.whole main_v85_1) S128x1.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v89) S128x32.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_arg13) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v37) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg15) S32x2.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v38) S1x2.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v90) S128x2.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

class Facts : Prop extends Facts₀ where

variable [Facts]
-- ==== ReferenceIdeal.lean ====
abbrev S100000x1 : Shape := ⟨2, ![100000, 1]⟩
abbrev S2x3200000 : Shape := ⟨2, ![2, 3200000]⟩
abbrev S100000 : Shape := ⟨1, ![100000]⟩
abbrev S1x32 : Shape := ⟨2, ![1, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S32x2 : Shape := ⟨2, ![32, 2]⟩
abbrev S2 : Shape := ⟨1, ![2]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x32 : Shape := ⟨2, ![100000, 32]⟩
abbrev S3300000x32 : Shape := ⟨2, ![3300000, 32]⟩
abbrev S1x1 : Shape := ⟨2, ![1, 1]⟩
abbrev S128 : Shape := ⟨1, ![128]⟩
abbrev S128x32 : Shape := ⟨2, ![128, 32]⟩
abbrev S128x1 : Shape := ⟨2, ![128, 1]⟩
abbrev S128x2 : Shape := ⟨2, ![128, 2]⟩
abbrev S1x2 : Shape := ⟨2, ![1, 2]⟩

abbrev nBuf : Space → Nat
  | .hbm => 190
  | .vmem => 0
  | .smem => 0
  | _ => 0

abbrev hbmTy0_0 (i : Nat) : BufTy := match i % 128 with
  | 0 => ⟨S100000x1, .f32⟩
  | 1 => ⟨S2x3200000, .i32⟩
  | 2 => ⟨S100000, .i32⟩
  | 3 => ⟨S1x32, .f32⟩
  | 4 => ⟨S32, .f32⟩
  | 5 => ⟨S32x32, .f32⟩
  | 6 => ⟨S32, .f32⟩
  | 7 => ⟨S32x32, .f32⟩
  | 8 => ⟨S32, .f32⟩
  | 9 => ⟨S32x32, .f32⟩
  | 10 => ⟨S32, .f32⟩
  | 11 => ⟨S32x1, .f32⟩
  | 12 => ⟨S1, .f32⟩
  | 13 => ⟨S32x32, .f32⟩
  | 14 => ⟨S32, .f32⟩
  | 15 => ⟨S32x2, .f32⟩
  | 16 => ⟨S2, .f32⟩
  | 17 => ⟨S100000, .i32⟩
  | 18 => ⟨S1x3200000, .i32⟩
  | 19 => ⟨S3200000, .i32⟩
  | 20 => ⟨S3300000, .i32⟩
  | 21 => ⟨S1x3200000, .i32⟩
  | 22 => ⟨S3200000, .i32⟩
  | 23 => ⟨S3300000, .i32⟩
  | 24 => ⟨S_, .f32⟩
  | 25 => ⟨S3300000, .f32⟩
  | 26 => ⟨S_, .f32⟩
  | 27 => ⟨S100000, .f32⟩
  | 28 => ⟨S3300000x1, .i32⟩
  | 29 => ⟨S100000, .f32⟩
  | 30 => ⟨S_, .f32⟩
  | 31 => ⟨S100000, .f32⟩
  | 32 => ⟨S100000, .i1⟩
  | 33 => ⟨S_, .f32⟩
  | 34 => ⟨S100000, .f32⟩
  | 35 => ⟨S100000, .f32⟩
  | 36 => ⟨S100000, .f32⟩
  | 37 => ⟨S_, .f32⟩
  | 38 => ⟨S_, .f32⟩
  | 39 => ⟨S100000, .f32⟩
  | 40 => ⟨S100000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S_, .i32⟩
  | 51 => ⟨S3300000, .i32⟩
  | 52 => ⟨S3300000, .i1⟩
  | 53 => ⟨S_, .i32⟩
  | 54 => ⟨S3300000, .i32⟩
  | 55 => ⟨S3300000, .i32⟩
  | 56 => ⟨S3300000, .i32⟩
  | 57 => ⟨S3300000x1, .i32⟩
  | 58 => ⟨S3300000, .f32⟩
  | 59 => ⟨S3300000, .f32⟩
  | 60 => ⟨S100000x32, .f32⟩
  | 61 => ⟨S_, .i32⟩
  | 62 => ⟨S3300000, .i32⟩
  | 63 => ⟨S3300000, .i1⟩
  | 64 => ⟨S_, .i32⟩
  | 65 => ⟨S3300000, .i32⟩
  | 66 => ⟨S3300000, .i32⟩
  | 67 => ⟨S3300000, .i32⟩
  | 68 => ⟨S3300000x1, .i32⟩
  | 69 => ⟨S3300000x32, .f32⟩
  | 70 => ⟨S3300000x1, .f32⟩
  | 71 => ⟨S3300000x32, .f32⟩
  | 72 => ⟨S3300000x32, .f32⟩
  | 73 => ⟨S_, .f32⟩
  | 74 => ⟨S100000x32, .f32⟩
  | 75 => ⟨S3300000x1, .i32⟩
  | 76 => ⟨S100000x32, .f32⟩
  | 77 => ⟨S1x32, .f32⟩
  | 78 => ⟨S100000x32, .f32⟩
  | 79 => ⟨S100000x32, .f32⟩
  | 80 => ⟨S_, .f32⟩
  | 81 => ⟨S100000x32, .f32⟩
  | 82 => ⟨S100000x32, .f32⟩
  | 83 => ⟨S100000x32, .f32⟩
  | 84 => ⟨S_, .i32⟩
  | 85 => ⟨S3300000, .i32⟩
  | 86 => ⟨S3300000, .i1⟩
  | 87 => ⟨S_, .i32⟩
  | 88 => ⟨S3300000, .i32⟩
  | 89 => ⟨S3300000, .i32⟩
  | 90 => ⟨S3300000, .i32⟩
  | 91 => ⟨S3300000x1, .i32⟩
  | 92 => ⟨S3300000x32, .f32⟩
  | 93 => ⟨S3300000x1, .f32⟩
  | 94 => ⟨S3300000x32, .f32⟩
  | 95 => ⟨S3300000x32, .f32⟩
  | 96 => ⟨S_, .f32⟩
  | 97 => ⟨S100000x32, .f32⟩
  | 98 => ⟨S3300000x1, .i32⟩
  | 99 => ⟨S100000x32, .f32⟩
  | 100 => ⟨S1x32, .f32⟩
  | 101 => ⟨S100000x32, .f32⟩
  | 102 => ⟨S100000x32, .f32⟩
  | 103 => ⟨S_, .f32⟩
  | 104 => ⟨S100000x32, .f32⟩
  | 105 => ⟨S100000x32, .f32⟩
  | 106 => ⟨S100000x32, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x32, .f32⟩
  | 116 => ⟨S3300000x1, .f32⟩
  | 117 => ⟨S3300000x32, .f32⟩
  | 118 => ⟨S3300000x32, .f32⟩
  | 119 => ⟨S_, .f32⟩
  | 120 => ⟨S100000x32, .f32⟩
  | 121 => ⟨S3300000x1, .i32⟩
  | 122 => ⟨S100000x32, .f32⟩
  | 123 => ⟨S1x32, .f32⟩
  | 124 => ⟨S100000x32, .f32⟩
  | 125 => ⟨S100000x32, .f32⟩
  | 126 => ⟨S_, .f32⟩
  | 127 => ⟨S100000x32, .f32⟩
  | _ => ⟨S100000x1, .f32⟩

abbrev hbmTy0_1 (i : Nat) : BufTy := match i % 128 with
  | 0 => ⟨S100000x32, .f32⟩
  | 1 => ⟨S100000x32, .f32⟩
  | 2 => ⟨S1x32, .f32⟩
  | 3 => ⟨S100000x32, .f32⟩
  | 4 => ⟨S100000x32, .f32⟩
  | 5 => ⟨S_, .f32⟩
  | 6 => ⟨S100000x32, .f32⟩
  | 7 => ⟨S100000x32, .f32⟩
  | 8 => ⟨S100000x1, .f32⟩
  | 9 => ⟨S1x1, .f32⟩
  | 10 => ⟨S100000x1, .f32⟩
  | 11 => ⟨S100000x1, .f32⟩
  | 12 => ⟨S100000x1, .f32⟩
  | 13 => ⟨S100000x1, .f32⟩
  | 14 => ⟨S_, .f32⟩
  | 15 => ⟨S100000x1, .f32⟩
  | 16 => ⟨S100000x1, .f32⟩
  | 17 => ⟨S_, .f32⟩
  | 18 => ⟨S100000x1, .f32⟩
  | 19 => ⟨S100000x1, .f32⟩
  | 20 => ⟨S100000, .f32⟩
  | 21 => ⟨S_, .f32⟩
  | 22 => ⟨S100000, .f32⟩
  | 23 => ⟨S100000, .f32⟩
  | 24 => ⟨S_, .f32⟩
  | 25 => ⟨S100000, .f32⟩
  | 26 => ⟨S_, .f32⟩
  | 27 => ⟨S128, .f32⟩
  | 28 => ⟨S100000x1, .i32⟩
  | 29 => ⟨S128, .f32⟩
  | 30 => ⟨S_, .f32⟩
  | 31 => ⟨S128x32, .f32⟩
  | 32 => ⟨S100000x1, .i32⟩
  | 33 => ⟨S128x32, .f32⟩
  | 34 => ⟨S_, .f32⟩
  | 35 => ⟨S128, .f32⟩
  | 36 => ⟨S128, .f32⟩
  | 37 => ⟨S128x1, .f32⟩
  | 38 => ⟨S128x32, .f32⟩
  | 39 => ⟨S128x32, .f32⟩
  | 40 => ⟨S128x32, .f32⟩
  | 41 => ⟨S1x32, .f32⟩
  | 42 => ⟨S128x32, .f32⟩
  | 43 => ⟨S128x32, .f32⟩
  | 44 => ⟨S_, .f32⟩
  | 45 => ⟨S128x32, .f32⟩
  | 46 => ⟨S128x32, .f32⟩
  | 47 => ⟨S128x2, .f32⟩
  | 48 => ⟨S1x2, .f32⟩
  | 49 => ⟨S128x2, .f32⟩
  | 50 => ⟨S128x2, .f32⟩
  | 51 => ⟨S128x2, .f32⟩
  | 52 => ⟨S128x2, .f32⟩
  | 53 => ⟨S_, .f32⟩
  | 54 => ⟨S128x2, .f32⟩
  | 55 => ⟨S128x2, .f32⟩
  | 56 => ⟨S_, .f32⟩
  | 57 => ⟨S128x2, .f32⟩
  | 58 => ⟨S128x2, .f32⟩
  | 59 => ⟨S_, .f32⟩
  | 60 => ⟨S128x2, .f32⟩
  | 61 => ⟨S128x2, .f32⟩
  | _ => ⟨S100000x1, .f32⟩

abbrev hbmTy (i : Nat) : BufTy := match i / 128 with
  | 0 => hbmTy0_0 i
  | 1 => hbmTy0_1 i
  | _ => ⟨S100000x1, .f32⟩

abbrev bufTy : (tb : Table) → Fin (tcTables nBuf tb) → BufTy
  | .hbm, ⟨i, _⟩ => hbmTy i
  | _, _ => ⟨S100000x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_cst_0 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_cst_2 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_v16 : Ref sig .tc := ⟨.hbm, 40, rfl⟩
abbrev main_c : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_c_5 : Ref sig .tc := ⟨.hbm, 50, rfl⟩
abbrev main_v24 : Ref sig .tc := ⟨.hbm, 51, rfl⟩
abbrev main_v25 : Ref sig .tc := ⟨.hbm, 52, rfl⟩
abbrev main_c_6 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_c_7 : Ref sig .tc := ⟨.hbm, 61, rfl⟩
abbrev main_v33 : Ref sig .tc := ⟨.hbm, 62, rfl⟩
abbrev main_v34 : Ref sig .tc := ⟨.hbm, 63, rfl⟩
abbrev main_c_8 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call1_cst : Ref sig .tc := ⟨.hbm, 80, rfl⟩
abbrev main_call1_v0 : Ref sig .tc := ⟨.hbm, 81, rfl⟩
abbrev main_v49 : Ref sig .tc := ⟨.hbm, 82, rfl⟩
abbrev main_v50 : Ref sig .tc := ⟨.hbm, 83, rfl⟩
abbrev main_c_10 : Ref sig .tc := ⟨.hbm, 84, rfl⟩
abbrev main_v51 : Ref sig .tc := ⟨.hbm, 85, rfl⟩
abbrev main_v52 : Ref sig .tc := ⟨.hbm, 86, rfl⟩
abbrev main_c_11 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_v60 : Ref sig .tc := ⟨.hbm, 95, rfl⟩
abbrev main_cst_12 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_call2_cst : Ref sig .tc := ⟨.hbm, 103, rfl⟩
abbrev main_call2_v0 : Ref sig .tc := ⟨.hbm, 104, rfl⟩
abbrev main_v67 : Ref sig .tc := ⟨.hbm, 105, rfl⟩
abbrev main_v68 : Ref sig .tc := ⟨.hbm, 106, rfl⟩
abbrev main_c_13 : Ref sig .tc := ⟨.hbm, 107, rfl⟩
abbrev main_v69 : Ref sig .tc := ⟨.hbm, 108, rfl⟩
abbrev main_v70 : Ref sig .tc := ⟨.hbm, 109, rfl⟩
abbrev main_c_14 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_cst_15 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_v82 : Ref sig .tc := ⟨.hbm, 123, rfl⟩
abbrev main_v83 : Ref sig .tc := ⟨.hbm, 124, rfl⟩
abbrev main_v84 : Ref sig .tc := ⟨.hbm, 125, rfl⟩
abbrev main_call3_cst : Ref sig .tc := ⟨.hbm, 126, rfl⟩
abbrev main_call3_v0 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_call4_cst : Ref sig .tc := ⟨.hbm, 133, rfl⟩
abbrev main_call4_v0 : Ref sig .tc := ⟨.hbm, 134, rfl⟩
abbrev main_v90 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_cst_16 : Ref sig .tc := ⟨.hbm, 142, rfl⟩
abbrev main_v97 : Ref sig .tc := ⟨.hbm, 143, rfl⟩
abbrev main_v98 : Ref sig .tc := ⟨.hbm, 144, rfl⟩
abbrev main_cst_17 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_cst_18 : Ref sig .tc := ⟨.hbm, 149, rfl⟩
abbrev main_v102 : Ref sig .tc := ⟨.hbm, 150, rfl⟩
abbrev main_v103 : Ref sig .tc := ⟨.hbm, 151, rfl⟩
abbrev main_cst_19 : Ref sig .tc := ⟨.hbm, 152, rfl⟩
abbrev main_v104 : Ref sig .tc := ⟨.hbm, 153, rfl⟩
abbrev main_cst_20 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_21 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_cst_22 : Ref sig .tc := ⟨.hbm, 162, rfl⟩
abbrev main_v111 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_v119 : Ref sig .tc := ⟨.hbm, 171, rfl⟩
abbrev main_call5_cst : Ref sig .tc := ⟨.hbm, 172, rfl⟩
abbrev main_call5_v0 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_cst_23 : Ref sig .tc := ⟨.hbm, 181, rfl⟩
abbrev main_v127 : Ref sig .tc := ⟨.hbm, 182, rfl⟩
abbrev main_v128 : Ref sig .tc := ⟨.hbm, 183, rfl⟩
abbrev main_cst_24 : Ref sig .tc := ⟨.hbm, 184, rfl⟩
abbrev main_v129 : Ref sig .tc := ⟨.hbm, 185, rfl⟩
abbrev main_v130 : Ref sig .tc := ⟨.hbm, 186, rfl⟩
abbrev main_cst_25 : Ref sig .tc := ⟨.hbm, 187, rfl⟩
abbrev main_v131 : Ref sig .tc := ⟨.hbm, 188, rfl⟩
abbrev main_v132 : Ref sig .tc := ⟨.hbm, 189, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x32_0_1 : S3300000x1.BroadcastsInDim S3300000x32 (![0, 1] : Fin 2 → Fin S3300000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  shapeCasts_S100000x1_S100000 : S100000x1.ShapeCasts S100000
  bcast_S_S128 : S_.BroadcastsInDim S128 (![] : Fin 0 → Fin S128.rank)
  bcast_S100000_S100000x1_0 : S100000.BroadcastsInDim S100000x1 (![0] : Fin 1 → Fin S100000x1.rank)
  bcast_S_S128x32 : S_.BroadcastsInDim S128x32 (![] : Fin 0 → Fin S128x32.rank)
  bcast_S128_S128x1_0 : S128.BroadcastsInDim S128x1 (![0] : Fin 1 → Fin S128x1.rank)
  bcast_S128x1_S128x32_0_1 : S128x1.BroadcastsInDim S128x32 (![0, 1] : Fin 2 → Fin S128x32.rank)
  bcast_S1x32_S128x32_0_1 : S1x32.BroadcastsInDim S128x32 (![0, 1] : Fin 2 → Fin S128x32.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  bcast_S_S128x2 : S_.BroadcastsInDim S128x2 (![] : Fin 0 → Fin S128x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x1_S1x32_S100000x32_1_0_0_1_n_n_wf : DotDims.WF S100000x1 S1x32 S100000x32 [1] [0] [0] [1] [] []
  gather_S100000x32_S3300000x1_S3300000x32_1_0_n_n_0_1_132_wf : GatherDims.WF S100000x32 S3300000x1 S3300000x32 [1] [0] [] [0] [] 1 ![1, 32]
  scatter_S100000x32_S3300000x1_S3300000x32_1_0_0_1_wf : ScatterDims.WF S100000x32 S3300000x1 S3300000x32 [1] [0] [0] 1
  dot_S100000x32_S32x32_S100000x32_1_0_0_1_n_n_wf : DotDims.WF S100000x32 S32x32 S100000x32 [1] [0] [0] [1] [] []
  dot_S100000x32_S32x1_S100000x1_1_0_0_1_n_n_wf : DotDims.WF S100000x32 S32x1 S100000x1 [1] [0] [0] [1] [] []
  scatter_S128_S100000x1_S100000_n_0_0_1_wf : ScatterDims.WF S128 S100000x1 S100000 [] [0] [0] 1
  scatter_S128x32_S100000x1_S100000x32_1_0_0_1_wf : ScatterDims.WF S128x32 S100000x1 S100000x32 [1] [0] [0] 1
  dot_S128x32_S32x32_S128x32_1_0_0_1_n_n_wf : DotDims.WF S128x32 S32x32 S128x32 [1] [0] [0] [1] [] []
  dot_S128x32_S32x2_S128x2_1_0_0_1_n_n_wf : DotDims.WF S128x32 S32x2 S128x2 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x1_S1x32_S100000x32_1_0_0_1_n_n : DotDims S100000x1 S1x32 S100000x32 where
  lhsContracting := [1]
  rhsContracting := [0]
  lhsNonContracting := [0]
  rhsNonContracting := [1]
  lhsBatch := []
  rhsBatch := []
  wf := dot_S100000x1_S1x32_S100000x32_1_0_0_1_n_n_wf
def gather_S100000x32_S3300000x1_S3300000x32_1_0_n_n_0_1_132 : GatherDims S100000x32 S3300000x1 S3300000x32 where
  offsetDims := [1]
  collapsedSliceDims := [0]
  operandBatchingDims := []
  startIndicesBatchingDims := []
  startIndexMap := [0]
  indexVectorDim := 1
  sliceSizes := ![1, 32]
  wf := gather_S100000x32_S3300000x1_S3300000x32_1_0_n_n_0_1_132_wf
def scatter_S100000x32_S3300000x1_S3300000x32_1_0_0_1 : ScatterDims S100000x32 S3300000x1 S3300000x32 where
  updateWindowDims := [1]
  insertedWindowDims := [0]
  scatterDimsToOperandDims := [0]
  indexVectorDim := 1
  wf := scatter_S100000x32_S3300000x1_S3300000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf
def scatter_S128_S100000x1_S100000_n_0_0_1 : ScatterDims S128 S100000x1 S100000 where
  updateWindowDims := []
  insertedWindowDims := [0]
  scatterDimsToOperandDims := [0]
  indexVectorDim := 1
  wf := scatter_S128_S100000x1_S100000_n_0_0_1_wf
def scatter_S128x32_S100000x1_S100000x32_1_0_0_1 : ScatterDims S128x32 S100000x1 S100000x32 where
  updateWindowDims := [1]
  insertedWindowDims := [0]
  scatterDimsToOperandDims := [0]
  indexVectorDim := 1
  wf := scatter_S128x32_S100000x1_S100000x32_1_0_0_1_wf
def dot_S128x32_S32x32_S128x32_1_0_0_1_n_n : DotDims S128x32 S32x32 S128x32 where
  lhsContracting := [1]
  rhsContracting := [0]
  lhsNonContracting := [0]
  rhsNonContracting := [1]
  lhsBatch := []
  rhsBatch := []
  wf := dot_S128x32_S32x32_S128x32_1_0_0_1_n_n_wf
def dot_S128x32_S32x2_S128x2_1_0_0_1_n_n : DotDims S128x32 S32x2 S128x2 where
  lhsContracting := [1]
  rhsContracting := [0]
  lhsNonContracting := [0]
  rhsNonContracting := [1]
  lhsBatch := []
  rhsBatch := []
  wf := dot_S128x32_S32x2_S128x2_1_0_0_1_n_n_wf

class Facts : Prop extends Facts₀ where

variable [Facts]
-- ==== Proof.Spec.lean ====
/-
  The mathematics both programs compute, as stage functions of whole arrays, spelt with the reference program's own
  host operations so that the reference's composed result terms ARE these functions.

  A graph of 100000 nodes with 3200000 directed edges plus one self loop per node (3300000 edges in all):
  `srcIds` / `dstIds` are the edges' end points, `edgeNorm` the symmetric degree normalisation
  dinv[src] * dinv[dst] with dinv = deg^(-1/2) where deg > 0 (deg counts incoming edges, self loops included).
  One graph convolution is `aggOf`: gather the projected features at the sources, scale each edge's row by its norm,
  add the rows into their destinations. Between convolutions: add the bias row, clamp at zero (`actRow`), multiply by the
  next layer's weights (`dense`). The node head (`sigCol`, `thetaOf`) is a two-layer perceptron with a logistic, times pi;
  the graph head pools the node features per graph id (`poolSumCol` / `poolCntCol`: sum and count of the nodes whose
  id is g), divides the sum by max(count, 1) (`gembOf`), and runs another two-layer perceptron, times 2 pi (`bgOf`).
-/
import proofs.«426142_j41875931136205_1_alg».proof.Proof.Gen.ReferenceIdeal

noncomputable section

namespace Cert.Spec

open Idealize.ShloMosaic Cert.ReferenceIdeal Cert.ReferenceIdeal.Facts₀ Cert.ReferenceIdeal.Facts

variable {F : FTy → Type} [FloatOps F]

/-- The zero matrix of node features. -/
abbrev zeroNodes : (⟨S100000x32, .f32⟩ : BufTy).Contents (Elt F) :=
  broadcastInDim S100000x32 ![] bcast_S_S100000x32 (constant S_ .f32 0x00000000#32)

/-- Edge sources: row 0 of the edge list, then every node once (its self loop). -/
def srcIds (E : (⟨S2x3200000, .i32⟩ : BufTy).Contents (Elt F)) : (⟨S3300000, .i32⟩ : BufTy).Contents (Elt F) :=
  concatenate S3300000 0 [⟨S3200000, (shapeCast _ (extractStridedSlice S1x3200000 ![0, 0] E slices_S2x3200000_S1x3200000_0_0) shapeCasts_S1x3200000_S3200000)⟩, ⟨S100000, (iotaInDim S100000 32 0)⟩] concatenates_S3200000_S100000_S3300000_d0

/-- Edge destinations: row 1 of the edge list, then every node once. -/
def dstIds (E : (⟨S2x3200000, .i32⟩ : BufTy).Contents (Elt F)) : (⟨S3300000, .i32⟩ : BufTy).Contents (Elt F) :=
  concatenate S3300000 0 [⟨S3200000, (shapeCast _ (extractStridedSlice S1x3200000 ![1, 0] E slices_S2x3200000_S1x3200000_1_0) shapeCasts_S1x3200000_S3200000)⟩, ⟨S100000, (iotaInDim S100000 32 0)⟩] concatenates_S3200000_S100000_S3300000_d0

/-- A list of node ids as a column of gather indices, a negative id first moved up by the node count. -/
def wrapCol (i : (⟨S3300000, .i32⟩ : BufTy).Contents (Elt F)) : (⟨S3300000x1, .i32⟩ : BufTy).Contents (Elt F) :=
  broadcastInDim S3300000x1 ![0] bcast_S3300000_S3300000x1_0 (select (cmpi .slt i (broadcastInDim S3300000 ![] bcast_S_S3300000 (constantI S_ 32 0#32))) (addi i (broadcastInDim S3300000 ![] bcast_S_S3300000 (constantI S_ 32 100000#32))) i)

/-- A list of node ids as a column of scatter indices. -/
def idCol (i : (⟨S3300000, .i32⟩ : BufTy).Contents (Elt F)) : (⟨S3300000x1, .i32⟩ : BufTy).Contents (Elt F) :=
  broadcastInDim S3300000x1 ![0] bcast_S3300000_S3300000x1_0 i

/-- The in-degree of every node: one per edge, added into the edge's destination. -/
def degOf (dst : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (idCol dst) (broadcastInDim S3300000 ![] bcast_S_S3300000 (constant S_ .f32 0x3F800000#32))

/-- deg^(-1/2) where the degree is positive, zero elsewhere. -/
def dinvOf (dst : (⟨S3300000, .i32⟩ : BufTy).Contents (Elt F)) : (⟨S100000, .f32⟩ : BufTy).Contents (Elt F) :=
  select (cmpf .ogt (degOf dst) (broadcastInDim S100000 ![] bcast_S_S100000 (constant S_ .f32 0x00000000#32))) (Host.rsqrt (maximumf (degOf dst) (broadcastInDim S100000 ![] bcast_S_S100000 (constant S_ .f32 0x3F800000#32)))) (broadcastInDim S100000 ![] bcast_S_S100000 (id (constant S_ .f32 0x00000000#32)))

/-- The edge weights dinv[src] * dinv[dst]. -/
def normOf (src dst : (⟨S3300000, .i32⟩ : BufTy).Contents (Elt F)) : (⟨S3300000, .f32⟩ : BufTy).Contents (Elt F) :=
  mulf (Host.gather gather_S100000_S3300000x1_S3300000_n_0_n_n_0_1_1 (dinvOf dst) (wrapCol src)) (Host.gather gather_S100000_S3300000x1_S3300000_n_0_n_n_0_1_1 (dinvOf dst) (wrapCol dst))

/-- One aggregation: rows of `p` gathered at the sources, scaled by the edge weights, added into the destinations. -/
def aggOf (src dst : (⟨S3300000, .i32⟩ : BufTy).Contents (Elt F)) (nrm : (⟨S3300000, .f32⟩ : BufTy).Contents (Elt F))
    (p : (⟨S100000x32, .f32⟩ : BufTy).Contents (Elt F)) : (⟨S100000x32, .f32⟩ : BufTy).Contents (Elt F) :=
  Host.scatterAdd scatter_S100000x32_S3300000x1_S3300000x32_1_0_0_1 zeroNodes (idCol dst) (mulf (Host.gather gather_S100000x32_S3300000x1_S3300000x32_1_0_n_n_0_1_132 p (wrapCol src)) (broadcastInDim S3300000x32 ![0, 1] bcast_S3300000x1_S3300000x32_0_1 (broadcastInDim S3300000x1 ![0] bcast_S3300000_S3300000x1_0 nrm)))

/-- The first projection x · W1. -/
def proj1 (x : (⟨S100000x1, .f32⟩ : BufTy).Contents (Elt F)) (W1 : (⟨S1x32, .f32⟩ : BufTy).Contents (Elt F)) : (⟨S100000x32, .f32⟩ : BufTy).Contents (Elt F) :=
  Host.dotGeneral dot_S100000x1_S1x32_S100000x32_1_0_0_1_n_n none x W1

/-- A bias vector as a one-row matrix. -/
def rowOf (b : (⟨S32, .f32⟩ : BufTy).Contents (Elt F)) : (⟨S1x32, .f32⟩ : BufTy).Contents (Elt F) :=
  broadcastInDim S1x32 ![1] bcast_S32_S1x32_1 b

/-- A one-entry bias vector as a 1 x 1 matrix. -/
def rowOf1 (b : (⟨S1, .f32⟩ : BufTy).Contents (Elt F)) : (⟨S1x1, .f32⟩ : BufTy).Contents (Elt F) :=
  broadcastInDim S1x1 ![1] bcast_S1_S1x1_1 b

/-- A two-entry bias vector as a one-row matrix. -/
def rowOf2 (b : (⟨S2, .f32⟩ : BufTy).Contents (Elt F)) : (⟨S1x2, .f32⟩ : BufTy).Contents (Elt F) :=
  broadcastInDim S1x2 ![1] bcast_S2_S1x2_1 b

/-- max(a + bias row, 0) on the node features. -/
def actRow (a : (⟨S100000x32, .f32⟩ : BufTy).Contents (Elt F)) (brow : (⟨S1x32, .f32⟩ : BufTy).Contents (Elt F)) : (⟨S100000x32, .f32⟩ : BufTy).Contents (Elt F) :=
  maximumf (addf a (broadcastInDim S100000x32 ![0, 1] bcast_S1x32_S100000x32_0_1 brow)) zeroNodes

/-- Node features times a 32 x 32 weight matrix. -/
def dense (a : (⟨S100000x32, .f32⟩ : BufTy).Contents (Elt F)) (W : (⟨S32x32, .f32⟩ : BufTy).Contents (Elt F)) : (⟨S100000x32, .f32⟩ : BufTy).Contents (Elt F) :=
  Host.dotGeneral dot_S100000x32_S32x32_S100000x32_1_0_0_1_n_n none a W

/-- The node head before the factor pi: 1 / (1 + exp(-(max(h·Wt1 + bt1, 0)·Wt2 + bt2))), a column. -/
def sigCol (h : (⟨S100000x32, .f32⟩ : BufTy).Contents (Elt F)) (Wt1 : (⟨S32x32, .f32⟩ : BufTy).Contents (Elt F)) (bt1row : (⟨S1x32, .f32⟩ : BufTy).Contents (Elt F))
    (Wt2 : (⟨S32x1, .f32⟩ : BufTy).Contents (Elt F)) (bt2row : (⟨S1x1, .f32⟩ : BufTy).Contents (Elt F)) : (⟨S100000x1, .f32⟩ : BufTy).Contents (Elt F) :=
  Host.divf (broadcastInDim S100000x1 ![] bcast_S_S100000x1 (constant S_ .f32 0x3F800000#32)) (addf (broadcastInDim S100000x1 ![] bcast_S_S100000x1 (constant S_ .f32 0x3F800000#32)) (Host.exp (Host.negf (addf (Host.dotGeneral dot_S100000x32_S32x1_S100000x1_1_0_0_1_n_n none (actRow (dense h Wt1) bt1row) Wt2) (broadcastInDim S100000x1 ![0, 1] bcast_S1x1_S100000x1_0_1 bt2row)))))

/-- The node head: pi times the logistic column, as a vector over the nodes. -/
def thetaOf (s : (⟨S100000x1, .f32⟩ : BufTy).Contents (Elt F)) : (⟨S100000, .f32⟩ : BufTy).Contents (Elt F) :=
  mulf (broadcastInDim S100000 ![] bcast_S_S100000 (constant S_ .f32 0x40490FDB#32)) (shapeCast _ s shapeCasts_S100000x1_S100000)

/-- Per graph id g and feature k: the sum of h[n, k] over the nodes n whose graph id is g. -/
def poolSumCol (h : (⟨S100000x32, .f32⟩ : BufTy).Contents (Elt F)) (bcol : (⟨S100000x1, .i32⟩ : BufTy).Contents (Elt F)) : (⟨S128x32, .f32⟩ : BufTy).Contents (Elt F) :=
  Host.scatterAdd scatter_S128x32_S100000x1_S100000x32_1_0_0_1 (broadcastInDim S128x32 ![] bcast_S_S128x32 (constant S_ .f32 0x00000000#32)) bcol h

/-- Per graph id g: the number of nodes whose graph id is g. -/
def poolCntCol (bcol : (⟨S100000x1, .i32⟩ : BufTy).Contents (Elt F)) : (⟨S128, .f32⟩ : BufTy).Contents (Elt F) :=
  Host.scatterAdd scatter_S128_S100000x1_S100000_n_0_0_1 (broadcastInDim S128 ![] bcast_S_S128 (constant S_ .f32 0x00000000#32)) bcol (broadcastInDim S100000 ![] bcast_S_S100000 (constant S_ .f32 0x3F800000#32))

/-- Graph ids as a column of scatter indices. -/
def batchCol (batch : (⟨S100000, .i32⟩ : BufTy).Contents (Elt F)) : (⟨S100000x1, .i32⟩ : BufTy).Contents (Elt F) :=
  broadcastInDim S100000x1 ![0] bcast_S100000_S100000x1_0 batch

/-- max(count, 1) as a column. -/
def cntCol (cnt : (⟨S128, .f32⟩ : BufTy).Contents (Elt F)) : (⟨S128x1, .f32⟩ : BufTy).Contents (Elt F) :=
  broadcastInDim S128x1 ![0] bcast_S128_S128x1_0 (maximumf cnt (broadcastInDim S128 ![] bcast_S_S128 (constant S_ .f32 0x3F800000#32)))

/-- The mean-pooled graph embedding: sum / max(count, 1). -/
def gembOf (gsum : (⟨S128x32, .f32⟩ : BufTy).Contents (Elt F)) (ccol : (⟨S128x1, .f32⟩ : BufTy).Contents (Elt F)) : (⟨S128x32, .f32⟩ : BufTy).Contents (Elt F) :=
  Host.divf gsum (broadcastInDim S128x32 ![0, 1] bcast_S128x1_S128x32_0_1 ccol)

/-- The graph head: 2 pi / (1 + exp(-(max(g·Wg1 + bg1, 0)·Wg2 + bg2))). -/
def bgOf (g : (⟨S128x32, .f32⟩ : BufTy).Contents (Elt F)) (Wg1 : (⟨S32x32, .f32⟩ : BufTy).Contents (Elt F)) (bg1row : (⟨S1x32, .f32⟩ : BufTy).Contents (Elt F))
    (Wg2 : (⟨S32x2, .f32⟩ : BufTy).Contents (Elt F)) (bg2row : (⟨S1x2, .f32⟩ : BufTy).Contents (Elt F)) : (⟨S128x2, .f32⟩ : BufTy).Contents (Elt F) :=
  mulf (broadcastInDim S128x2 ![] bcast_S_S128x2 (constant S_ .f32 0x40C90FDB#32)) (Host.divf (broadcastInDim S128x2 ![] bcast_S_S128x2 (constant S_ .f32 0x3F800000#32)) (addf (broadcastInDim S128x2 ![] bcast_S_S128x2 (constant S_ .f32 0x3F800000#32)) (Host.exp (Host.negf (addf (Host.dotGeneral dot_S128x32_S32x2_S128x2_1_0_0_1_n_n none (maximumf (addf (Host.dotGeneral dot_S128x32_S32x32_S128x32_1_0_0_1_n_n none g Wg1) (broadcastInDim S128x32 ![0, 1] bcast_S1x32_S128x32_0_1 bg1row)) (broadcastInDim S128x32 ![] bcast_S_S128x32 (constant S_ .f32 0x00000000#32))) Wg2) (broadcastInDim S128x2 ![0, 1] bcast_S1x2_S128x2_0_1 bg2row))))))

/-- The node features after the three convolutions. -/
def hiddenOf (E : (⟨S2x3200000, .i32⟩ : BufTy).Contents (Elt F)) (x : (⟨S100000x1, .f32⟩ : BufTy).Contents (Elt F)) (W1 : (⟨S1x32, .f32⟩ : BufTy).Contents (Elt F))
    (b1 : (⟨S32, .f32⟩ : BufTy).Contents (Elt F)) (W2 : (⟨S32x32, .f32⟩ : BufTy).Contents (Elt F)) (b2 : (⟨S32, .f32⟩ : BufTy).Contents (Elt F))
    (W3 : (⟨S32x32, .f32⟩ : BufTy).Contents (Elt F)) (b3 : (⟨S32, .f32⟩ : BufTy).Contents (Elt F)) : (⟨S100000x32, .f32⟩ : BufTy).Contents (Elt F) :=
  let s := srcIds E
  let d := dstIds E
  let n := normOf s d
  actRow (aggOf s d n (dense (actRow (aggOf s d n (dense (actRow (aggOf s d n (proj1 x W1)) (rowOf b1)) W2)) (rowOf b2)) W3)) (rowOf b3)

end Cert.Spec

end
-- ==== Proof.Reg0.lean ====
/-
  Region 0 (first projection): block t of the output holds, entry by entry, the product of rows 10000 t .. 10000 t + 9999
  of the one-column matrix x with the one-row matrix W1: entry (r, k) is the one-term sum x[r, 0] * W1[0, k]. The ten
  blocks tile the 100000 rows, so the output array is x · W1 everywhere: the reference's first projection.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the windows of x and of the output move down by one block of rows per point, the
    weight row stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-! ## The operand indices of the two contractions

Both dimension-number records contract the left operand's column axis with the right operand's row axis; off those
axes the left index reads the result's row and the right index the result's column. -/

/-- The block product's left operand is read at the result's row. -/
theorem klhs_0 (j : S10000x32.Idx) (k : dot_S10000x1_S1x32_S10000x32_1_0_0_1_n_n.contr.Idx) :
    (dot_S10000x1_S1x32_S10000x32_1_0_0_1_n_n.lhsIdx j k 0 : ℕ) = j 0 := by
  simp [DotDims.lhsIdx, dot_S10000x1_S1x32_S10000x32_1_0_0_1_n_n]
  rfl

/-- The block product's right operand is read at the result's column. -/
theorem krhs_1 (j : S10000x32.Idx) (k : dot_S10000x1_S1x32_S10000x32_1_0_0_1_n_n.contr.Idx) :
    (dot_S10000x1_S1x32_S10000x32_1_0_0_1_n_n.rhsIdx j k 1 : ℕ) = j 1 := by
  simp [DotDims.rhsIdx, dot_S10000x1_S1x32_S10000x32_1_0_0_1_n_n]
  rfl

/-- The whole product's left operand is read at the result's row. -/
theorem rlhs_0 (j : Cert.ReferenceIdeal.S100000x32.Idx) (k : Cert.ReferenceIdeal.dot_S100000x1_S1x32_S100000x32_1_0_0_1_n_n.contr.Idx) :
    (Cert.ReferenceIdeal.dot_S100000x1_S1x32_S100000x32_1_0_0_1_n_n.lhsIdx j k 0 : ℕ) = j 0 := by
  simp [DotDims.lhsIdx, Cert.ReferenceIdeal.dot_S100000x1_S1x32_S100000x32_1_0_0_1_n_n]
  rfl

/-- The whole product's right operand is read at the result's column. -/
theorem rrhs_1 (j : Cert.ReferenceIdeal.S100000x32.Idx) (k : Cert.ReferenceIdeal.dot_S100000x1_S1x32_S100000x32_1_0_0_1_n_n.contr.Idx) :
    (Cert.ReferenceIdeal.dot_S100000x1_S1x32_S100000x32_1_0_0_1_n_n.rhsIdx j k 1 : ℕ) = j 1 := by
  simp [DotDims.rhsIdx, Cert.ReferenceIdeal.dot_S100000x1_S1x32_S100000x32_1_0_0_1_n_n]
  rfl

/-! ## The two products at an index

The contracted axis has extent one, so each sum has the single term x[r, 0] * W1[0, k]; an operand index is fixed by its
coordinate on the axis of extent greater than one. -/

/-- The block product at entry j is the one product of the block of x at j's row and the weight row at j's column;
    the narrowing of the operands is the identity on extended reals and the accumulator is zero. -/
theorem pay_apply (x0 : Vec Ideal S10000x1 .f32) (x1 : Vec Ideal S1x32 .f32) (j : S10000x32.Idx)
    (i0 : S10000x1.Idx) (i1 : S1x32.Idx) (h0 : (i0 0).val = (j 0).val) (h1 : (i1 1).val = (j 1).val) :
    k0_pay1 x0 x1 j = x0 i0 * x1 i1 := by
  unfold k0_pay1
  show FloatOps.matmul dot_S10000x1_S1x32_S10000x32_1_0_0_1_n_n none _ _ (constant S10000x32 .f32 0x00000000#32) j = _
  rw [Ideal.matmul_constant_zero_apply]
  rw [← Equiv.sum_comp (contrEquiv1 dot_S10000x1_S1x32_S10000x32_1_0_0_1_n_n 1 rfl rfl).symm, Fin.sum_univ_one]
  show x0 _ * x1 _ = x0 i0 * x1 i1
  refine congrArg₂ (· * ·) (congrArg x0 ?_) (congrArg x1 ?_)
  · refine Shape.idx_ext₂ ?_ ?_
    · rw [klhs_0, h0]
    · have a : (dot_S10000x1_S1x32_S10000x32_1_0_0_1_n_n.lhsIdx j
          ((contrEquiv1 dot_S10000x1_S1x32_S10000x32_1_0_0_1_n_n 1 rfl rfl).symm 0) 1).val < 1 := Fin.isLt _
      have b : (i0 1).val < 1 := (i0 1).isLt
      omega
  · refine Shape.idx_ext₂ ?_ ?_
    · have a : (dot_S10000x1_S1x32_S10000x32_1_0_0_1_n_n.rhsIdx j
          ((contrEquiv1 dot_S10000x1_S1x32_S10000x32_1_0_0_1_n_n 1 rfl rfl).symm 0) 0).val < 1 := Fin.isLt _
      have b : (i1 0).val < 1 := (i1 0).isLt
      omega
    · rw [krhs_1, h1]

/-- The whole product at entry i is the one product of x at i's row and the weight row at i's column. -/
theorem proj1_apply (x : (⟨Cert.ReferenceIdeal.S100000x1, .f32⟩ : BufTy).Contents (Elt Ideal))
    (W : (⟨Cert.ReferenceIdeal.S1x32, .f32⟩ : BufTy).Contents (Elt Ideal)) (i : Cert.ReferenceIdeal.S100000x32.Idx)
    (i0 : Cert.ReferenceIdeal.S100000x1.Idx) (i1 : Cert.ReferenceIdeal.S1x32.Idx)
    (h0 : (i0 0).val = (i 0).val) (h1 : (i1 1).val = (i 1).val) :
    Cert.Spec.proj1 (F := Ideal) x W i = x i0 * W i1 := by
  unfold Cert.Spec.proj1
  show FloatOps.dotGeneral Cert.ReferenceIdeal.dot_S100000x1_S1x32_S100000x32_1_0_0_1_n_n none .single _ _ i = _
  rw [Ideal.dotGeneral_apply]
  rw [← Equiv.sum_comp (contrEquiv1 Cert.ReferenceIdeal.dot_S100000x1_S1x32_S100000x32_1_0_0_1_n_n 1 rfl rfl).symm, Fin.sum_univ_one]
  refine congrArg₂ (· * ·) (congrArg x ?_) (congrArg W ?_)
  · refine Shape.idx_ext₂ ?_ ?_
    · rw [rlhs_0, h0]
    · have a : (Cert.ReferenceIdeal.dot_S100000x1_S1x32_S100000x32_1_0_0_1_n_n.lhsIdx i
          ((contrEquiv1 Cert.ReferenceIdeal.dot_S100000x1_S1x32_S100000x32_1_0_0_1_n_n 1 rfl rfl).symm 0) 1).val < 1 := Fin.isLt _
      have b : (i0 1).val < 1 := (i0 1).isLt
      omega
  · refine Shape.idx_ext₂ ?_ ?_
    · have a : (Cert.ReferenceIdeal.dot_S100000x1_S1x32_S100000x32_1_0_0_1_n_n.rhsIdx i
          ((contrEquiv1 Cert.ReferenceIdeal.dot_S100000x1_S1x32_S100000x32_1_0_0_1_n_n 1 rfl rfl).symm 0) 0).val < 1 := Fin.isLt _
      have b : (i1 0).val < 1 := (i1 0).isLt
      omega
    · rw [rrhs_1, h1]

/-! ## Blocks and the array -/

/-- What point t writes back is block t of x · W1: entry (r, k) of the block product reads the block of x at row r,
    which is x at row 10000 t + r, and the weight row at column k. -/
theorem flushed (c : Dev nD) (t : Fin cfg0.N) :
    (dat0 V c).flushed 2 t = ((cfg0.win 2).blk t).view.read (Elt Ideal) (Cert.Spec.proj1 (F := Ideal) (V c main_arg0) (V c main_arg3)) := by
  show (cfg0.win 2).cut (grid0.coords t) ((dat0 V c).after 2 t) = _
  rw [after0_2]
  unfold out0_2
  rw [View.canon_unit_zero hz]
  simp only [View.ld_unit_zero (S := S10000x1) hz, View.ld_unit_zero (S := S1x32) hz]
  obtain ⟨e0, e1, e2, e3, e4, e5⟩ := idx t
  funext j
  rw [View.read_apply]
  have hj0 : (j 0).val < 10000 := (j 0).isLt
  have hj1 : (j 1).val < 32 := (j 1).isLt
  refine (pay_apply _ _ j (ix2 (⟨(j 0).val, hj0⟩ : Fin 10000) (0 : Fin 1)) (ix2 (0 : Fin 1) (⟨(j 1).val, hj1⟩ : Fin 32)) rfl rfl).trans ?_
  refine Eq.trans ?_ (proj1_apply _ _ _
    (((cfg0.win 0).blk t).view.emb (ix2 (⟨(j 0).val, hj0⟩ : Fin 10000) (0 : Fin 1)))
    (((cfg0.win 1).blk t).view.emb (ix2 (0 : Fin 1) (⟨(j 1).val, hj1⟩ : Fin 32))) ?_ ?_).symm
  · unfold iblk0
    rw [View.read_apply, View.read_apply]
    rfl
  · show win0_0.index t (0 : Fin 2) * 10000 + 1 * (j 0).val = win0_2.index t (0 : Fin 2) * 10000 + 1 * (j 0).val
    rw [e0, e4]
  · show win0_1.index t (1 : Fin 2) * 32 + 1 * (j 1).val = win0_2.index t (1 : Fin 2) * 32 + 1 * (j 1).val
    rw [e3, e5]

/-- The ten row blocks tile the output, so after the region it holds x · W1 everywhere. -/
theorem array (c : Dev nD) :
    (dat0 V c).arrAt 2 cfg0.N = Cert.Spec.proj1 (F := Ideal) (V c main_arg0) (V c main_arg3) :=
  (dat0 V c).arrAt_eq_of_cover 2 _ (fun t _ => flushed V c t) fun i => by
    have hi0 : (i 0).val < 100000 := (i 0).isLt
    have hi1 : (i 1).val < 32 := (i 1).isLt
    have hN : cfg0.N = 10 := N_0
    have htt : (i 0).val / 10000 < cfg0.N := by rw [hN]; omega
    obtain ⟨tt, htv⟩ : ∃ tt : Fin cfg0.N, tt.val = (i 0).val / 10000 := ⟨⟨_, htt⟩, rfl⟩
    refine ⟨tt, flush0_2 tt, ?_⟩
    obtain ⟨e0, e1, e2, e3, e4, e5⟩ := idx tt
    show i ∈ ((View.whole main_v39).slice (win0_2.rect tt)).set
    rw [View.set_slice_whole, Rect.mem_set_unit]
    intro a
    match a with
    | ⟨0, _⟩ =>
      show win0_2.index tt (0 : Fin 2) * 10000 ≤ (i 0).val ∧ (i 0).val < win0_2.index tt (0 : Fin 2) * 10000 + 10000
      rw [e4, htv]; omega
    | ⟨1, _⟩ =>
      show win0_2.index tt (1 : Fin 2) * 32 ≤ (i 1).val ∧ (i 1).val < win0_2.index tt (1 : Fin 2) * 32 + 32
      rw [e5]; omega

end Cert.KernelIdeal.Hand.R0

end
-- ==== Proof.Reg1.lean ====
/-
  Region 1 (bias, clamp, weights): block t of the output holds, entry (r, k), the sum over q of
  max(a[10000 t + r, q] + b[0, q], 0) * W[q, k], for the aggregated features a, the bias row b and the weights W;
  the ten row blocks tile the 100000 rows, so the output array is max(a + b, 0) · W everywhere: the reference's
  activation followed by its matrix product.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window move down by one block of rows per point,
    the bias row and the weights stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-! ## The two products' operand indices, coordinate by coordinate -/

/-- The block product's left operand reads the output's row … -/
theorem lhsK_0 (j : S10000x32.Idx) (k : dot_S10000x32_S32x32_S10000x32_1_0_0_1_n_n.contr.Idx) :
    (dot_S10000x32_S32x32_S10000x32_1_0_0_1_n_n.lhsIdx j k 0).val = (j 0).val := by
  simp [DotDims.lhsIdx, dot_S10000x32_S32x32_S10000x32_1_0_0_1_n_n] <;> rfl
/-- … at the contracted position; -/
theorem lhsK_1 (j : S10000x32.Idx) (k : dot_S10000x32_S32x32_S10000x32_1_0_0_1_n_n.contr.Idx) :
    (dot_S10000x32_S32x32_S10000x32_1_0_0_1_n_n.lhsIdx j k 1).val = (k ⟨0, by decide⟩).val := by
  simp [DotDims.lhsIdx, dot_S10000x32_S32x32_S10000x32_1_0_0_1_n_n] <;> rfl
/-- its right operand reads the contracted position … -/
theorem rhsK_0 (j : S10000x32.Idx) (k : dot_S10000x32_S32x32_S10000x32_1_0_0_1_n_n.contr.Idx) :
    (dot_S10000x32_S32x32_S10000x32_1_0_0_1_n_n.rhsIdx j k 0).val = (k ⟨0, by decide⟩).val := by
  simp [DotDims.rhsIdx, dot_S10000x32_S32x32_S10000x32_1_0_0_1_n_n] <;> rfl
/-- … at the output's column. -/
theorem rhsK_1 (j : S10000x32.Idx) (k : dot_S10000x32_S32x32_S10000x32_1_0_0_1_n_n.contr.Idx) :
    (dot_S10000x32_S32x32_S10000x32_1_0_0_1_n_n.rhsIdx j k 1).val = (j 1).val := by
  simp [DotDims.rhsIdx, dot_S10000x32_S32x32_S10000x32_1_0_0_1_n_n] <;> rfl

/-- The same four for the whole-array product. -/
theorem lhsR_0 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.lhsIdx j k 0).val = (j 0).val := by
  simp [DotDims.lhsIdx, Cert.ReferenceIdeal.dot_S100000x32_S32x32_S100000x32_1_0_0_1_n_n] <;> rfl
theorem lhsR_1 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.lhsIdx j k 1).val = (k ⟨0, by decide⟩).val := by
  simp [DotDims.lhsIdx, Cert.ReferenceIdeal.dot_S100000x32_S32x32_S100000x32_1_0_0_1_n_n] <;> rfl
theorem rhsR_0 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.rhsIdx j k 0).val = (k ⟨0, by decide⟩).val := by
  simp [DotDims.rhsIdx, Cert.ReferenceIdeal.dot_S100000x32_S32x32_S100000x32_1_0_0_1_n_n] <;> rfl
theorem rhsR_1 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.rhsIdx j k 1).val = (j 1).val := by
  simp [DotDims.rhsIdx, Cert.ReferenceIdeal.dot_S100000x32_S32x32_S100000x32_1_0_0_1_n_n] <;> rfl

/-- The block product into the zero accumulator, at entry (p, q): the sum over the 32 contracted positions of the
    operands' products. -/
theorem blockProduct_apply {φ₁ φ₂ : FTy} (L : FVec Ideal S10000x32 φ₁) (R : FVec Ideal S32x32 φ₂) (p : Fin 10000) (q : Fin 32) :
    FloatOps.matmul dot_S10000x32_S32x32_S10000x32_1_0_0_1_n_n none L R (constant (F := Ideal) S10000x32 .f32 0x00000000#32) (ix2 p q)
      = ∑ k : Fin 32, L (ix2 p k) * R (ix2 k q) := by
  rw [Ideal.matmul_constant_zero_apply,
    ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have hl : dot_S10000x32_S32x32_S10000x32_1_0_0_1_n_n.lhsIdx (ix2 p q)
      ((contrEquiv1 dot_S10000x32_S32x32_S10000x32_1_0_0_1_n_n 32 rfl rfl).symm k) = ix2 p k := by
    funext a; apply Fin.ext
    match a with
    | ⟨0, _⟩ => exact lhsK_0 _ _
    | ⟨1, _⟩ => exact (lhsK_1 _ _).trans hk
  have hr : dot_S10000x32_S32x32_S10000x32_1_0_0_1_n_n.rhsIdx (ix2 p q)
      ((contrEquiv1 dot_S10000x32_S32x32_S10000x32_1_0_0_1_n_n 32 rfl rfl).symm k) = ix2 k q := by
    funext a; apply Fin.ext
    match a with
    | ⟨0, _⟩ => exact (rhsK_0 _ _).trans hk
    | ⟨1, _⟩ => exact rhsK_1 _ _
  rw [hl, hr]

/-- The whole-array product at entry (p, q): the same sum. -/
theorem arrayProduct_apply (A : FVec Ideal Cert.ReferenceIdeal.S100000x32 .f32) (B : FVec Ideal Cert.ReferenceIdeal.S32x32 .f32)
    (sched : HostSchedule) (p : Fin 100000) (q : Fin 32) :
    FloatOps.dotGeneral Cert.ReferenceIdeal.dot_S100000x32_S32x32_S100000x32_1_0_0_1_n_n none sched A B (ix2 p q)
      = ∑ k : Fin 32, A (ix2 p k) * B (ix2 k q) := by
  rw [Ideal.dotGeneral_apply,
    ← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have hl : Cert.ReferenceIdeal.dot_S100000x32_S32x32_S100000x32_1_0_0_1_n_n.lhsIdx (ix2 p q)
      ((contrEquiv1 Cert.ReferenceIdeal.dot_S100000x32_S32x32_S100000x32_1_0_0_1_n_n 32 rfl rfl).symm k) = ix2 p k := by
    funext a; apply Fin.ext
    match a with
    | ⟨0, _⟩ => exact lhsR_0 _ _
    | ⟨1, _⟩ => exact (lhsR_1 _ _).trans hk
  have hr : Cert.ReferenceIdeal.dot_S100000x32_S32x32_S100000x32_1_0_0_1_n_n.rhsIdx (ix2 p q)
      ((contrEquiv1 Cert.ReferenceIdeal.dot_S100000x32_S32x32_S100000x32_1_0_0_1_n_n 32 rfl rfl).symm k) = ix2 k q := by
    funext a; apply Fin.ext
    match a with
    | ⟨0, _⟩ => exact (rhsR_0 _ _).trans hk
    | ⟨1, _⟩ => exact rhsR_1 _ _
  rw [hl, hr]

/-- The block product at any entry j, its coordinates named. -/
theorem blockProduct_at {φ₁ φ₂ : FTy} (L : FVec Ideal S10000x32 φ₁) (R : FVec Ideal S32x32 φ₂) (j : S10000x32.Idx) :
    FloatOps.matmul dot_S10000x32_S32x32_S10000x32_1_0_0_1_n_n none L R (constant (F := Ideal) S10000x32 .f32 0x00000000#32) j
      = ∑ k : Fin 32, L (ix2 (⟨(j 0).val, (j 0).isLt⟩ : Fin 10000) k) * R (ix2 k (⟨(j 1).val, (j 1).isLt⟩ : Fin 32)) := by
  obtain ⟨p, q, rfl⟩ : ∃ (p : Fin 10000) (q : Fin 32), j = ix2 p q := ⟨j 0, j 1, eq_ix2 j⟩
  exact blockProduct_apply L R p q

/-- The whole-array product at any entry i, its coordinates named. -/
theorem arrayProduct_at (A : FVec Ideal Cert.ReferenceIdeal.S100000x32 .f32) (B : FVec Ideal Cert.ReferenceIdeal.S32x32 .f32)
    (sched : HostSchedule) (i : Cert.ReferenceIdeal.S100000x32.Idx) :
    FloatOps.dotGeneral Cert.ReferenceIdeal.dot_S100000x32_S32x32_S100000x32_1_0_0_1_n_n none sched A B i
      = ∑ k : Fin 32, A (ix2 (⟨(i 0).val, (i 0).isLt⟩ : Fin 100000) k) * B (ix2 k (⟨(i 1).val, (i 1).isLt⟩ : Fin 32)) := by
  obtain ⟨p, q, rfl⟩ : ∃ (p : Fin 100000) (q : Fin 32), i = ix2 p q := ⟨i 0, i 1, eq_ix2 i⟩
  exact arrayProduct_apply A B sched p q

/-- What point t writes back is block t of max(a + b, 0) · W: both sides at an entry are the sum over the 32 contracted
    positions, and factor by factor the block's entries are the arrays' entries at the block's rows. -/
theorem flushed (c : Dev nD) (t : Fin cfg1.N) :
    (dat1 V c).flushed 3 t = ((cfg1.win 3).blk t).view.read (Elt Ideal) (Cert.Spec.dense (F := Ideal) (Cert.Spec.actRow (V c main_v52) (V c main_v32)) (V c main_arg5)) := by
  show (cfg1.win 3).cut (grid1.coords t) ((dat1 V c).after 3 t) = _
  rw [after1_3]
  unfold out1_3
  rw [View.canon_unit_zero hz]
  simp only [View.ld_unit_zero (S := S10000x32) hz, View.ld_unit_zero (S := S1x32) hz, View.ld_unit_zero (S := S32x32) hz]
  obtain ⟨e0, e1, e2, e3, e4, e5, e6, e7⟩ := idx t
  funext j
  unfold k1_pay1 Cert.Spec.dense
  rw [View.read_apply]
  refine (blockProduct_at _ _ j).trans (Eq.trans ?_ (arrayProduct_at _ _ _ (((cfg1.win 3).blk t).view.emb j)).symm)
  refine Finset.sum_congr rfl fun k _ => ?_
  congr 1
  · rw [truncf_apply]
    unfold Cert.Spec.actRow
    show FloatOps.maximumf (FloatOps.addf _ _) _ = FloatOps.maximumf (FloatOps.addf _ _) _
    congr 1
    congr 1
    · rw [shapeCast_self]
      unfold iblk1
      rw [View.read_apply]
      show V c main_v52 (((cfg1.win 0).blk t).view.emb (ix2 (⟨(j 0).val, _⟩ : Fin 10000) k))
        = V c main_v52 (ix2 (⟨(((cfg1.win 3).blk t).view.emb j 0).val, _⟩ : Fin 100000) k)
      congr 1
      funext a
      apply Fin.ext
      match a with
      | ⟨0, _⟩ => show win1_0.index t (0 : Fin 2) * 10000 + 1 * (j 0).val = win1_3.index t (0 : Fin 2) * 10000 + 1 * (j 0).val; rw [e0, e6]
      | ⟨1, _⟩ => show win1_0.index t (1 : Fin 2) * 32 + 1 * k.val = k.val; rw [e1]; omega
    · rw [shapeCast_self]
      refine (broadcastTo_apply _ _ _ (ix2 (0 : Fin 1) k) fun a => ?_).trans
        ((?_ : _ = V c main_v32 (ix2 (0 : Fin 1) k)).trans
          (broadcastInDim_apply _ _ _ _ (ix2 (0 : Fin 1) k) fun a => ?_).symm)
      · match a with
        | ⟨0, _⟩ => rfl
        | ⟨1, _⟩ => rfl
      · unfold iblk1
        rw [View.read_apply]
        show V c main_v32 (((cfg1.win 1).blk t).view.emb (ix2 (0 : Fin 1) k)) = V c main_v32 (ix2 (0 : Fin 1) k)
        congr 1
        funext a
        apply Fin.ext
        match a with
        | ⟨0, _⟩ => show win1_1.index t (0 : Fin 2) * 1 + 1 * 0 = 0; rw [e2]
        | ⟨1, _⟩ => show win1_1.index t (1 : Fin 2) * 32 + 1 * k.val = k.val; rw [e3]; omega
      · match a with
        | ⟨0, _⟩ => rfl
        | ⟨1, _⟩ => rfl
  · rw [truncf_apply]
    unfold iblk1
    rw [View.read_apply]
    show V c main_arg5 (((cfg1.win 2).blk t).view.emb (ix2 k (⟨(j 1).val, _⟩ : Fin 32)))
      = V c main_arg5 (ix2 k (⟨(((cfg1.win 3).blk t).view.emb j 1).val, _⟩ : Fin 32))
    congr 1
    funext a
    apply Fin.ext
    match a with
    | ⟨0, _⟩ => show win1_2.index t (0 : Fin 2) * 32 + 1 * k.val = k.val; rw [e4]; omega
    | ⟨1, _⟩ => show win1_2.index t (1 : Fin 2) * 32 + 1 * (j 1).val = win1_3.index t (1 : Fin 2) * 32 + 1 * (j 1).val; rw [e5, e7]

/-- The ten row blocks tile the output, so after the region it holds max(a + b, 0) · W everywhere. -/
theorem array (c : Dev nD) :
    (dat1 V c).arrAt 3 cfg1.N = Cert.Spec.dense (F := Ideal) (Cert.Spec.actRow (V c main_v52) (V c main_v32)) (V c main_arg5) :=
  (dat1 V c).arrAt_eq_of_cover 3 _ (fun t _ => flushed V c t) fun i => by
    have hi0 : (i 0).val < 100000 := (i 0).isLt
    have hi1 : (i 1).val < 32 := (i 1).isLt
    have hN : cfg1.N = 10 := N_1
    have htt : (i 0).val / 10000 < cfg1.N := by rw [hN]; omega
    obtain ⟨tt, htv⟩ : ∃ tt : Fin cfg1.N, tt.val = (i 0).val / 10000 := ⟨⟨_, htt⟩, rfl⟩
    refine ⟨tt, flush1_3 tt, ?_⟩
    obtain ⟨e0, e1, e2, e3, e4, e5, e6, e7⟩ := idx tt
    show i ∈ ((View.whole main_v53).slice (win1_3.rect tt)).set
    rw [View.set_slice_whole, Rect.mem_set_unit]
    intro a
    match a with
    | ⟨0, _⟩ =>
      show win1_3.index tt (0 : Fin 2) * 10000 ≤ (i 0).val ∧ (i 0).val < win1_3.index tt (0 : Fin 2) * 10000 + 10000
      rw [e6, htv]; omega
    | ⟨1, _⟩ =>
      show win1_3.index tt (1 : Fin 2) * 32 ≤ (i 1).val ∧ (i 1).val < win1_3.index tt (1 : Fin 2) * 32 + 32
      rw [e7]; omega

end Cert.KernelIdeal.Hand.R1

end
-- ==== Proof.Reg2.lean ====
/-
  Region 2 (bias, clamp, weights): block t of the output holds, entry (r, k), the sum over q of
  max(a[10000 t + r, q] + b[0, q], 0) * W[q, k], for the aggregated features a, the bias row b and the weights W;
  the ten row blocks tile the 100000 rows, so the output array is max(a + b, 0) · W everywhere: the reference's
  activation followed by its matrix product.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R2

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window move down by one block of rows per point,
    the bias row and the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-! ## The two products' operand indices, coordinate by coordinate -/

/-- The block product's left operand reads the output's row … -/
theorem lhsK_0 (j : S10000x32.Idx) (k : dot_S10000x32_S32x32_S10000x32_1_0_0_1_n_n.contr.Idx) :
    (dot_S10000x32_S32x32_S10000x32_1_0_0_1_n_n.lhsIdx j k 0).val = (j 0).val := by
  simp [DotDims.lhsIdx, dot_S10000x32_S32x32_S10000x32_1_0_0_1_n_n] <;> rfl
/-- … at the contracted position; -/
theorem lhsK_1 (j : S10000x32.Idx) (k : dot_S10000x32_S32x32_S10000x32_1_0_0_1_n_n.contr.Idx) :
    (dot_S10000x32_S32x32_S10000x32_1_0_0_1_n_n.lhsIdx j k 1).val = (k ⟨0, by decide⟩).val := by
  simp [DotDims.lhsIdx, dot_S10000x32_S32x32_S10000x32_1_0_0_1_n_n] <;> rfl
/-- its right operand reads the contracted position … -/
theorem rhsK_0 (j : S10000x32.Idx) (k : dot_S10000x32_S32x32_S10000x32_1_0_0_1_n_n.contr.Idx) :
    (dot_S10000x32_S32x32_S10000x32_1_0_0_1_n_n.rhsIdx j k 0).val = (k ⟨0, by decide⟩).val := by
  simp [DotDims.rhsIdx, dot_S10000x32_S32x32_S10000x32_1_0_0_1_n_n] <;> rfl
/-- … at the output's column. -/
theorem rhsK_1 (j : S10000x32.Idx) (k : dot_S10000x32_S32x32_S10000x32_1_0_0_1_n_n.contr.Idx) :
    (dot_S10000x32_S32x32_S10000x32_1_0_0_1_n_n.rhsIdx j k 1).val = (j 1).val := by
  simp [DotDims.rhsIdx, dot_S10000x32_S32x32_S10000x32_1_0_0_1_n_n] <;> rfl

/-- The same four for the whole-array product. -/
theorem lhsR_0 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.lhsIdx j k 0).val = (j 0).val := by
  simp [DotDims.lhsIdx, Cert.ReferenceIdeal.dot_S100000x32_S32x32_S100000x32_1_0_0_1_n_n] <;> rfl
theorem lhsR_1 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.lhsIdx j k 1).val = (k ⟨0, by decide⟩).val := by
  simp [DotDims.lhsIdx, Cert.ReferenceIdeal.dot_S100000x32_S32x32_S100000x32_1_0_0_1_n_n] <;> rfl
theorem rhsR_0 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.rhsIdx j k 0).val = (k ⟨0, by decide⟩).val := by
  simp [DotDims.rhsIdx, Cert.ReferenceIdeal.dot_S100000x32_S32x32_S100000x32_1_0_0_1_n_n] <;> rfl
theorem rhsR_1 (j : Cert.ReferenceIdeal.S100000x32.Idx) (k : Cert.ReferenceIdeal.dot_S100000x32_S32x32_S100000x32_1_0_0_1_n_n.contr.Idx) :
    (Cert.ReferenceIdeal.dot_S100000x32_S32x32_S100000x32_1_0_0_1_n_n.rhsIdx j k 1).val = (j 1).val := by
  simp [DotDims.rhsIdx, Cert.ReferenceIdeal.dot_S100000x32_S32x32_S100000x32_1_0_0_1_n_n] <;> rfl

/-- The block product into the zero accumulator, at entry (p, q): the sum over the 32 contracted positions of the
    operands' products. -/
theorem blockProduct_apply {φ₁ φ₂ : FTy} (L : FVec Ideal S10000x32 φ₁) (R : FVec Ideal S32x32 φ₂) (p : Fin 10000) (q : Fin 32) :
    FloatOps.matmul dot_S10000x32_S32x32_S10000x32_1_0_0_1_n_n none L R (constant (F := Ideal) S10000x32 .f32 0x00000000#32) (ix2 p q)
      = ∑ k : Fin 32, L (ix2 p k) * R (ix2 k q) := by
  rw [Ideal.matmul_constant_zero_apply,
    ← Equiv.sum_comp (contrEquiv1 dot_S10000x32_S32x32_S10000x32_1_0_0_1_n_n 32 rfl rfl).symm]
  refine Finset.sum_congr rfl fun k _ => ?_
  have hk := contrEquiv1_symm_val dot_S10000x32_S32x32_S10000x32_1_0_0_1_n_n 32 rfl rfl k
  have hl : dot_S10000x32_S32x32_S10000x32_1_0_0_1_n_n.lhsIdx (ix2 p q)
      ((contrEquiv1 dot_S10000x32_S32x32_S10000x32_1_0_0_1_n_n 32 rfl rfl).symm k) = ix2 p k := by
    funext a; apply Fin.ext
    match a with
    | ⟨0, _⟩ => exact lhsK_0 _ _
    | ⟨1, _⟩ => exact (lhsK_1 _ _).trans hk
  have hr : dot_S10000x32_S32x32_S10000x32_1_0_0_1_n_n.rhsIdx (ix2 p q)
      ((contrEquiv1 dot_S10000x32_S32x32_S10000x32_1_0_0_1_n_n 32 rfl rfl).symm k) = ix2 k q := by
    funext a; apply Fin.ext
    match a with
    | ⟨0, _⟩ => exact (rhsK_0 _ _).trans hk
    | ⟨1, _⟩ => exact rhsK_1 _ _
  rw [hl, hr]

/-- The whole-array product at entry (p, q): the same sum. -/
theorem arrayProduct_apply (A : FVec Ideal Cert.ReferenceIdeal.S100000x32 .f32) (B : FVec Ideal Cert.ReferenceIdeal.S32x32 .f32)
    (sched : HostSchedule) (p : Fin 100000) (q : Fin 32) :
    FloatOps.dotGeneral Cert.ReferenceIdeal.dot_S100000x32_S32x32_S100000x32_1_0_0_1_n_n none sched A B (ix2 p q)
      = ∑ k : Fin 32, A (ix2 p k) * B (ix2 k q) := by
  rw [Ideal.dotGeneral_apply,
    ← Equiv.sum_comp (contrEquiv1 Cert.ReferenceIdeal.dot_S100000x32_S32x32_S100000x32_1_0_0_1_n_n 32 rfl rfl).symm]
  refine Finset.sum_congr rfl fun k _ => ?_
  have hk := contrEquiv1_symm_val Cert.ReferenceIdeal.dot_S100000x32_S32x32_S100000x32_1_0_0_1_n_n 32 rfl rfl k
  have hl : Cert.ReferenceIdeal.dot_S100000x32_S32x32_S100000x32_1_0_0_1_n_n.lhsIdx (ix2 p q)
      ((contrEquiv1 Cert.ReferenceIdeal.dot_S100000x32_S32x32_S100000x32_1_0_0_1_n_n 32 rfl rfl).symm k) = ix2 p k := by
    funext a; apply Fin.ext
    match a with
    | ⟨0, _⟩ => exact lhsR_0 _ _
    | ⟨1, _⟩ => exact (lhsR_1 _ _).trans hk
  have hr : Cert.ReferenceIdeal.dot_S100000x32_S32x32_S100000x32_1_0_0_1_n_n.rhsIdx (ix2 p q)
      ((contrEquiv1 Cert.ReferenceIdeal.dot_S100000x32_S32x32_S100000x32_1_0_0_1_n_n 32 rfl rfl).symm k) = ix2 k q := by
    funext a; apply Fin.ext
    match a with
    | ⟨0, _⟩ => exact (rhsR_0 _ _).trans hk
    | ⟨1, _⟩ => exact rhsR_1 _ _
  rw [hl, hr]

/-- The block product at any entry j, its coordinates named. -/
theorem blockProduct_at {φ₁ φ₂ : FTy} (L : FVec Ideal S10000x32 φ₁) (R : FVec Ideal S32x32 φ₂) (j : S10000x32.Idx) :
    FloatOps.matmul dot_S10000x32_S32x32_S10000x32_1_0_0_1_n_n none L R (constant (F := Ideal) S10000x32 .f32 0x00000000#32) j
      = ∑ k : Fin 32, L (ix2 (⟨(j 0).val, (j 0).isLt⟩ : Fin 10000) k) * R (ix2 k (⟨(j 1).val, (j 1).isLt⟩ : Fin 32)) := by
  obtain ⟨p, q, rfl⟩ : ∃ (p : Fin 10000) (q : Fin 32), j = ix2 p q := ⟨j 0, j 1, eq_ix2 j⟩
  exact blockProduct_apply L R p q

/-- The whole-array product at any entry i, its coordinates named. -/
theorem arrayProduct_at (A : FVec Ideal Cert.ReferenceIdeal.S100000x32 .f32) (B : FVec Ideal Cert.ReferenceIdeal.S32x32 .f32)
    (sched : HostSchedule) (i : Cert.ReferenceIdeal.S100000x32.Idx) :
    FloatOps.dotGeneral Cert.ReferenceIdeal.dot_S100000x32_S32x32_S100000x32_1_0_0_1_n_n none sched A B i
      = ∑ k : Fin 32, A (ix2 (⟨(i 0).val, (i 0).isLt⟩ : Fin 100000) k) * B (ix2 k (⟨(i 1).val, (i 1).isLt⟩ : Fin 32)) := by
  obtain ⟨p, q, rfl⟩ : ∃ (p : Fin 100000) (q : Fin 32), i = ix2 p q := ⟨i 0, i 1, eq_ix2 i⟩
  exact arrayProduct_apply A B sched p q

/-- What point t writes back is block t of max(a + b, 0) · W: both sides at an entry are the sum over the 32 contracted
    positions, and factor by factor the block's entries are the arrays' entries at the block's rows. -/
theorem flushed (c : Dev nD) (t : Fin cfg2.N) :
    (dat2 V c).flushed 3 t = ((cfg2.win 3).blk t).view.read (Elt Ideal) (Cert.Spec.dense (F := Ideal) (Cert.Spec.actRow (V c main_v66) (V c main_v33)) (V c main_arg7)) := by
  show (cfg2.win 3).cut (grid2.coords t) ((dat2 V c).after 3 t) = _
  rw [after2_3]
  unfold out2_3
  rw [View.canon_unit_zero hz]
  simp only [View.ld_unit_zero (S := S10000x32) hz, View.ld_unit_zero (S := S1x32) hz, View.ld_unit_zero (S := S32x32) hz]
  obtain ⟨e0, e1, e2, e3, e4, e5, e6, e7⟩ := idx t
  funext j
  unfold k2_pay1 Cert.Spec.dense
  rw [View.read_apply]
  refine (blockProduct_at _ _ j).trans (Eq.trans ?_ (arrayProduct_at _ _ _ (((cfg2.win 3).blk t).view.emb j)).symm)
  refine Finset.sum_congr rfl fun k _ => ?_
  congr 1
  · rw [truncf_apply]
    unfold Cert.Spec.actRow
    show FloatOps.maximumf (FloatOps.addf _ _) _ = FloatOps.maximumf (FloatOps.addf _ _) _
    congr 1
    congr 1
    · rw [shapeCast_self]
      unfold iblk2
      rw [View.read_apply]
      show V c main_v66 (((cfg2.win 0).blk t).view.emb (ix2 (⟨(j 0).val, _⟩ : Fin 10000) k))
        = V c main_v66 (ix2 (⟨(((cfg2.win 3).blk t).view.emb j 0).val, _⟩ : Fin 100000) k)
      congr 1
      funext a
      apply Fin.ext
      match a with
      | ⟨0, _⟩ => show win2_0.index t (0 : Fin 2) * 10000 + 1 * (j 0).val = win2_3.index t (0 : Fin 2) * 10000 + 1 * (j 0).val; rw [e0, e6]
      | ⟨1, _⟩ => show win2_0.index t (1 : Fin 2) * 32 + 1 * k.val = k.val; rw [e1]; omega
    · rw [shapeCast_self]
      refine (broadcastTo_apply _ _ _ (ix2 (0 : Fin 1) k) fun a => ?_).trans
        ((?_ : _ = V c main_v33 (ix2 (0 : Fin 1) k)).trans
          (broadcastInDim_apply _ _ _ _ (ix2 (0 : Fin 1) k) fun a => ?_).symm)
      · match a with
        | ⟨0, _⟩ => rfl
        | ⟨1, _⟩ => rfl
      · unfold iblk2
        rw [View.read_apply]
        show V c main_v33 (((cfg2.win 1).blk t).view.emb (ix2 (0 : Fin 1) k)) = V c main_v33 (ix2 (0 : Fin 1) k)
        congr 1
        funext a
        apply Fin.ext
        match a with
        | ⟨0, _⟩ => show win2_1.index t (0 : Fin 2) * 1 + 1 * 0 = 0; rw [e2]
        | ⟨1, _⟩ => show win2_1.index t (1 : Fin 2) * 32 + 1 * k.val = k.val; rw [e3]; omega
      · match a with
        | ⟨0, _⟩ => rfl
        | ⟨1, _⟩ => rfl
  · rw [truncf_apply]
    unfold iblk2
    rw [View.read_apply]
    show V c main_arg7 (((cfg2.win 2).blk t).view.emb (ix2 k (⟨(j 1).val, _⟩ : Fin 32)))
      = V c main_arg7 (ix2 k (⟨(((cfg2.win 3).blk t).view.emb j 1).val, _⟩ : Fin 32))
    congr 1
    funext a
    apply Fin.ext
    match a with
    | ⟨0, _⟩ => show win2_2.index t (0 : Fin 2) * 32 + 1 * k.val = k.val; rw [e4]; omega
    | ⟨1, _⟩ => show win2_2.index t (1 : Fin 2) * 32 + 1 * (j 1).val = win2_3.index t (1 : Fin 2) * 32 + 1 * (j 1).val; rw [e5, e7]

/-- The ten row blocks tile the output, so after the region it holds max(a + b, 0) · W everywhere. -/
theorem array (c : Dev nD) :
    (dat2 V c).arrAt 3 cfg2.N = Cert.Spec.dense (F := Ideal) (Cert.Spec.actRow (V c main_v66) (V c main_v33)) (V c main_arg7) :=
  (dat2 V c).arrAt_eq_of_cover 3 _ (fun t _ => flushed V c t) fun i => by
    have hi0 : (i 0).val < 100000 := (i 0).isLt
    have hi1 : (i 1).val < 32 := (i 1).isLt
    have hN : cfg2.N = 10 := N_2
    have htt : (i 0).val / 10000 < cfg2.N := by rw [hN]; omega
    obtain ⟨tt, htv⟩ : ∃ tt : Fin cfg2.N, tt.val = (i 0).val / 10000 := ⟨⟨_, htt⟩, rfl⟩
    refine ⟨tt, flush2_3 tt, ?_⟩
    obtain ⟨e0, e1, e2, e3, e4, e5, e6, e7⟩ := idx tt
    show i ∈ ((View.whole main_v67).slice (win2_3.rect tt)).set
    rw [View.set_slice_whole, Rect.mem_set_unit]
    intro a
    match a with
    | ⟨0, _⟩ =>
      show win2_3.index tt (0 : Fin 2) * 10000 ≤ (i 0).val ∧ (i 0).val < win2_3.index tt (0 : Fin 2) * 10000 + 10000
      rw [e6, htv]; omega
    | ⟨1, _⟩ =>
      show win2_3.index tt (1 : Fin 2) * 32 ≤ (i 1).val ∧ (i 1).val < win2_3.index tt (1 : Fin 2) * 32 + 32
      rw [e7]; omega

end Cert.KernelIdeal.Hand.R2

end
-- ==== Proof.Reg3.lean ====
/-
  Region 3 (bias and clamp): block t of the output holds, entry by entry, max(a + b, 0) of rows 10000 t .. 10000 t + 9999
  of the aggregated features a and the bias row b; the ten blocks tile the 100000 rows, so the output array is
  max(a + b, 0) everywhere: the reference's activation of the aggregated features.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R3

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature windows move down by one block of rows per point, the bias row stays. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point t writes back is block t of max(a + b, 0). -/
theorem flushed (c : Dev nD) (t : Fin cfg3.N) :
    (dat3 V c).flushed 2 t = ((cfg3.win 2).blk t).view.read (Elt Ideal) (Cert.Spec.actRow (F := Ideal) (V c main_v80) (V c main_v34)) := by
  show (cfg3.win 2).cut (grid3.coords t) ((dat3 V c).after 2 t) = _
  rw [after3_2]
  unfold out3_2
  rw [View.canon_unit_zero hz]
  simp only [View.ld_unit_zero (S := S10000x32) hz, View.ld_unit_zero (S := S1x32) hz]
  obtain ⟨e0, e1, e2, e3, e4, e5⟩ := idx t
  funext j
  unfold k3_pay1 Cert.Spec.actRow
  rw [View.read_apply]
  show FloatOps.maximumf (FloatOps.addf _ _) _ = FloatOps.maximumf (FloatOps.addf _ _) _
  congr 1
  congr 1
  · rw [shapeCast_self]
    unfold iblk3
    rw [View.read_apply]
    show V c main_v80 (((cfg3.win 0).blk t).view.emb j) = V c main_v80 (((cfg3.win 2).blk t).view.emb j)
    rfl
  · rw [shapeCast_self]
    have hj1 : (j 1).val < 32 := (j 1).isLt
    refine (broadcastTo_apply _ _ _ (ix2 (0 : Fin 1) (⟨(j 1).val, hj1⟩ : Fin 32)) fun a => ?_).trans
      ((?_ : _ = V c main_v34 (ix2 (0 : Fin 1) (⟨(j 1).val, hj1⟩ : Fin 32))).trans
        (broadcastInDim_apply _ _ _ _ (ix2 (0 : Fin 1) (⟨(j 1).val, hj1⟩ : Fin 32)) fun a => ?_).symm)
    · match a with
      | ⟨0, _⟩ => rfl
      | ⟨1, _⟩ => rfl
    · unfold iblk3
      rw [View.read_apply]
      show V c main_v34 (((cfg3.win 1).blk t).view.emb (ix2 (0 : Fin 1) (⟨(j 1).val, hj1⟩ : Fin 32))) = V c main_v34 (ix2 (0 : Fin 1) (⟨(j 1).val, hj1⟩ : Fin 32))
      congr 1
      funext a
      apply Fin.ext
      match a with
      | ⟨0, _⟩ => show win3_1.index t (0 : Fin 2) * 1 + 1 * 0 = 0; rw [e2]
      | ⟨1, _⟩ => show win3_1.index t (1 : Fin 2) * 32 + 1 * (j 1).val = (j 1).val; rw [e3]; omega
    · match a with
      | ⟨0, _⟩ => rfl
      | ⟨1, _⟩ => show (j 1).val = win3_2.index t (1 : Fin 2) * 32 + 1 * (j 1).val; rw [e5]; omega

/-- The ten row blocks tile the output, so after the region it holds max(a + b, 0) everywhere. -/
theorem array (c : Dev nD) :
    (dat3 V c).arrAt 2 cfg3.N = Cert.Spec.actRow (F := Ideal) (V c main_v80) (V c main_v34) :=
  (dat3 V c).arrAt_eq_of_cover 2 _ (fun t _ => flushed V c t) fun i => by
    have hi0 : (i 0).val < 100000 := (i 0).isLt
    have hi1 : (i 1).val < 32 := (i 1).isLt
    have hN : cfg3.N = 10 := N_3
    have htt : (i 0).val / 10000 < cfg3.N := by rw [hN]; omega
    obtain ⟨tt, htv⟩ : ∃ tt : Fin cfg3.N, tt.val = (i 0).val / 10000 := ⟨⟨_, htt⟩, rfl⟩
    refine ⟨tt, flush3_2 tt, ?_⟩
    obtain ⟨e0, e1, e2, e3, e4, e5⟩ := idx tt
    show i ∈ ((View.whole main_v81).slice (win3_2.rect tt)).set
    rw [View.set_slice_whole, Rect.mem_set_unit]
    intro a
    match a with
    | ⟨0, _⟩ =>
      show win3_2.index tt (0 : Fin 2) * 10000 ≤ (i 0).val ∧ (i 0).val < win3_2.index tt (0 : Fin 2) * 10000 + 10000
      rw [e4, htv]; omega
    | ⟨1, _⟩ =>
      show win3_2.index tt (1 : Fin 2) * 32 ≤ (i 1).val ∧ (i 1).val < win3_2.index tt (1 : Fin 2) * 32 + 32
      rw [e5]; omega

end Cert.KernelIdeal.Hand.R3

end
-- ==== Proof.Reg4.lean ====
/-
  Region 4 (the node head): block t of the output column holds, row by row, pi times the logistic of
  max(h W1 + b1, 0) W2 + b2 at rows 10000 t .. 10000 t + 9999 of the node features h; the ten blocks tile the 100000 rows,
  so the output array is pi times the reference's logistic column everywhere.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.KernelVsHost
import Idealize.ShloMosaic.Lib.StackMember
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R4

open Cert.KernelIdeal Cert.KernelIdeal.Gen

/-- A matrix product accumulated into the zero splat, read at an entry: the sum over the contracted coordinate of the
    products of the entries. -/
theorem matmul_plain_apply {m k n : Nat} {φ₁ φ₂ : FTy} (A : FVec Ideal ⟨2, ![m, k]⟩ φ₁) (B : FVec Ideal ⟨2, ![k, n]⟩ φ₂)
    (a : Fin m) (b : Fin n) :
    matmul (F := Ideal) (DotDims.plain m k n) none A B (constant (F := Ideal) ⟨2, ![m, n]⟩ .f32 0x00000000#32) (ix2 a b)
      = ∑ c : Fin k, A (ix2 a c) * B (ix2 c b) :=
  (congrFun (matmul_zero_eq_dotGeneral (DotDims.plain m k n) none A B) (ix2 a b)).trans
    (StackMember.dotGeneral_plain_apply none A B a b)

/-- The kernel's value at row p of a block: pi times the logistic of max(x0 x1 + x2, 0) x3 + x4 at that row. -/
theorem pay_apply (x0 : FVec Ideal S10000x32 .f32) (x1 : FVec Ideal S32x32 .f32) (x2 : FVec Ideal S1x32 .f32)
    (x3 : FVec Ideal S32x1 .f32) (x4 : FVec Ideal S1x1 .f32) (p : Fin 10000) :
    k4_pay1 (F := Ideal) x0 x1 x2 x3 x4 (ix2 p (0 : Fin 1))
      = Ideal.ofBits .f32 0x40490FDB#32 * Ideal.logistic ((∑ k : Fin 32,
          max ((∑ l : Fin 32, x0 (ix2 p l) * x1 (ix2 l k)) + x2 (ix2 (0 : Fin 1) k)) 0 * x3 (ix2 k (0 : Fin 1)))
          + x4 (ix2 (0 : Fin 1) (0 : Fin 1))) := by
  unfold k4_pay1
  show Ideal.ofBits .f32 0x40490FDB#32 * Ideal.logistic
      (matmul (F := Ideal) (DotDims.plain 10000 32 1) none _ _ (constant (F := Ideal) S10000x1 .f32 0x00000000#32) (ix2 p (0 : Fin 1))
        + broadcastTo S10000x1 (shapeCast S1x1 x4 _) _ (ix2 p (0 : Fin 1))) = _
  refine congrArg (fun z : EReal => Ideal.ofBits .f32 0x40490FDB#32 * Ideal.logistic z) (congrArg₂ (· + ·) ?_ ?_)
  · refine (matmul_plain_apply _ _ p (0 : Fin 1)).trans (Finset.sum_congr rfl fun k _ => congrArg₂ (· * ·) ?_ rfl)
    show max (matmul (F := Ideal) (DotDims.plain 10000 32 32) none _ _ (constant (F := Ideal) S10000x32 .f32 0x00000000#32) (ix2 p k)
        + broadcastTo S10000x32 (shapeCast S1x32 x2 _) _ (ix2 p k)) (Ideal.ofBits .f32 0x00000000#32) = _
    rw [Ideal.ofBits_zero_f32]
    refine congrArg (fun z : EReal => max z 0) (congrArg₂ (· + ·) ?_ ?_)
    · refine (matmul_plain_apply _ _ p k).trans (Finset.sum_congr rfl fun l _ => congrArg₂ (· * ·) ?_ rfl)
      show shapeCast S10000x32 x0 _ (ix2 p l) = _
      rw [shapeCast_self]
    · rw [shapeCast_self]
      exact broadcastTo_apply _ _ _ (ix2 (0 : Fin 1) k) fun a => by
        match a with
        | ⟨0, _⟩ => rfl
        | ⟨1, _⟩ => rfl
  · rw [shapeCast_self]
    exact broadcastTo_apply _ _ _ (ix2 (0 : Fin 1) (0 : Fin 1)) fun a => by
      match a with
      | ⟨0, _⟩ => rfl
      | ⟨1, _⟩ => rfl

/-- The reference's value at row r: pi times the logistic of max(h W1 + b1, 0) W2 + b2 at that row. -/
theorem ref_apply (h : FVec Ideal Cert.ReferenceIdeal.S100000x32 .f32) (W1 : FVec Ideal Cert.ReferenceIdeal.S32x32 .f32)
    (b1 : FVec Ideal Cert.ReferenceIdeal.S1x32 .f32) (W2 : FVec Ideal Cert.ReferenceIdeal.S32x1 .f32)
    (b2 : FVec Ideal Cert.ReferenceIdeal.S1x1 .f32) (r : Fin 100000) (i : Cert.ReferenceIdeal.S100000x1.Idx)
    (hi : (i 0).val = r.val) :
    mulf (broadcastInDim Cert.ReferenceIdeal.S100000x1 ![] Cert.ReferenceIdeal.Facts₀.bcast_S_S100000x1
        (constant (F := Ideal) Cert.ReferenceIdeal.S_ .f32 0x40490FDB#32)) (Cert.Spec.sigCol (F := Ideal) h W1 b1 W2 b2) i
      = Ideal.ofBits .f32 0x40490FDB#32 * Ideal.logistic ((∑ k : Fin 32,
          max ((∑ l : Fin 32, h (ix2 r l) * W1 (ix2 l k)) + b1 (ix2 (0 : Fin 1) k)) 0 * W2 (ix2 k (0 : Fin 1)))
          + b2 (ix2 (0 : Fin 1) (0 : Fin 1))) := by
  have hi1 : (i 1).val < 1 := (i 1).isLt
  have hi' : i = ix2 r (0 : Fin 1) := by
    funext a
    apply Fin.ext
    match a with
    | ⟨0, _⟩ => exact hi
    | ⟨1, _⟩ => show (i 1).val = 0; omega
  subst hi'
  unfold Cert.Spec.sigCol Cert.Spec.actRow Cert.Spec.dense
  show Ideal.ofBits .f32 0x40490FDB#32 * Ideal.div (Ideal.ofBits .f32 0x3F800000#32) (Ideal.ofBits .f32 0x3F800000#32
      + Ideal.exp (-(Host.dotGeneral (F := Ideal) (DotDims.plain 100000 32 1) none _ W2 (ix2 r (0 : Fin 1))
        + broadcastInDim Cert.ReferenceIdeal.S100000x1 ![0, 1] _ b2 (ix2 r (0 : Fin 1))))) = _
  rw [Ideal.ofBits_one_f32]
  unfold Ideal.logistic
  refine congrArg (fun z : EReal => Ideal.ofBits .f32 0x40490FDB#32 * Ideal.div 1 (1 + Ideal.exp (-z))) (congrArg₂ (· + ·) ?_ ?_)
  · refine (StackMember.dotGeneral_plain_apply none _ W2 r (0 : Fin 1)).trans
      (Finset.sum_congr rfl fun k _ => congrArg₂ (· * ·) ?_ rfl)
    show max (Host.dotGeneral (F := Ideal) (DotDims.plain 100000 32 32) none h W1 (ix2 r k)
        + broadcastInDim Cert.ReferenceIdeal.S100000x32 ![0, 1] _ b1 (ix2 r k)) (Ideal.ofBits .f32 0x00000000#32) = _
    rw [Ideal.ofBits_zero_f32]
    exact congrArg (fun z : EReal => max z 0) (congrArg₂ (· + ·) (StackMember.dotGeneral_plain_apply none h W1 r k)
      (broadcastInDim_oneRow_apply _ b1 r k))
  · exact broadcastInDim_oneRow_apply _ b2 r (0 : Fin 1)

variable (V : (c : Dev nD) → (b : Ref sig .tc) → Buf (Elt Ideal) ((c : Thread nD τ).loc b))

theorem hz : (![0, 0] : Fin 2 → Nat) = fun _ => 0 := funext fun a => by fin_cases a <;> rfl

/-- The index maps over the grid: the feature window and the output window move down by one block of rows per point,
    the weights and the bias rows stay. -/
theorem idx : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- What point t writes back is block t of pi times the reference's logistic column. -/
theorem flushed (c : Dev nD) (t : Fin cfg4.N) :
    (dat4 V c).flushed 5 t = ((cfg4.win 5).blk t).view.read (Elt Ideal)
      (mulf (broadcastInDim Cert.ReferenceIdeal.S100000x1 ![] Cert.ReferenceIdeal.Facts₀.bcast_S_S100000x1
        (constant (F := Ideal) Cert.ReferenceIdeal.S_ .f32 0x40490FDB#32))
        (Cert.Spec.sigCol (F := Ideal) (V c main_v81) (V c main_arg9) (V c main_v35) (V c main_arg11) (V c main_v36))) := by
  show (cfg4.win 5).cut (grid4.coords t) ((dat4 V c).after 5 t) = _
  rw [after4_5]
  unfold out4_5
  rw [View.canon_unit_zero hz]
  simp only [View.ld_unit_zero (S := S10000x32) hz, View.ld_unit_zero (S := S32x32) hz, View.ld_unit_zero (S := S1x32) hz,
    View.ld_unit_zero (S := S32x1) hz, View.ld_unit_zero (S := S1x1) hz]
  obtain ⟨e0, e1, e2, e3, e4, e5, e6, e7, e8, e9, e10, e11⟩ := idx t
  have ht : t.val < 10 := Nat.lt_of_lt_of_eq t.isLt N_4
  refine funext fun j => ?_
  obtain ⟨p, q, rfl⟩ : ∃ (p : Fin 10000) (q : Fin 1), j = ix2 p q := ⟨j 0, j 1, eq_ix2 j⟩
  obtain rfl : q = 0 := Subsingleton.elim _ _
  have hr : t.val * 10000 + p.val < 100000 := by have := p.isLt; omega
  obtain ⟨rr, hrr⟩ : ∃ rr : Fin 100000, rr.val = t.val * 10000 + p.val := ⟨⟨_, hr⟩, rfl⟩
  rw [View.read_apply]
  refine (pay_apply _ _ _ _ _ p).trans (Eq.trans ?_ (ref_apply _ _ _ _ _ rr _ ?_).symm)
  · have b0 : ∀ l : Fin 32, iblk4 V c 0 t (ix2 p l) = V c main_v81 (ix2 rr l) := fun l => by
      unfold iblk4
      rw [View.read_apply]
      show V c main_v81 (((cfg4.win 0).blk t).view.emb (ix2 p l)) = V c main_v81 (ix2 rr l)
      congr 1
      funext a
      apply Fin.ext
      match a with
      | ⟨0, _⟩ => show win4_0.index t (0 : Fin 2) * 10000 + 1 * p.val = rr.val; rw [e0, hrr]; omega
      | ⟨1, _⟩ => show win4_0.index t (1 : Fin 2) * 32 + 1 * l.val = l.val; rw [e1]; omega
    have b1 : ∀ l k : Fin 32, iblk4 V c 1 t (ix2 l k) = V c main_arg9 (ix2 l k) := fun l k => by
      unfold iblk4
      rw [View.read_apply]
      show V c main_arg9 (((cfg4.win 1).blk t).view.emb (ix2 l k)) = V c main_arg9 (ix2 l k)
      congr 1
      funext a
      apply Fin.ext
      match a with
      | ⟨0, _⟩ => show win4_1.index t (0 : Fin 2) * 32 + 1 * l.val = l.val; rw [e2]; omega
      | ⟨1, _⟩ => show win4_1.index t (1 : Fin 2) * 32 + 1 * k.val = k.val; rw [e3]; omega
    have b2 : ∀ k : Fin 32, iblk4 V c 2 t (ix2 (0 : Fin 1) k) = V c main_v35 (ix2 (0 : Fin 1) k) := fun k => by
      unfold iblk4
      rw [View.read_apply]
      show V c main_v35 (((cfg4.win 2).blk t).view.emb (ix2 (0 : Fin 1) k)) = V c main_v35 (ix2 (0 : Fin 1) k)
      congr 1
      funext a
      apply Fin.ext
      match a with
      | ⟨0, _⟩ => show win4_2.index t (0 : Fin 2) * 1 + 1 * 0 = 0; rw [e4]
      | ⟨1, _⟩ => show win4_2.index t (1 : Fin 2) * 32 + 1 * k.val = k.val; rw [e5]; omega
    have b3 : ∀ k : Fin 32, iblk4 V c 3 t (ix2 k (0 : Fin 1)) = V c main_arg11 (ix2 k (0 : Fin 1)) := fun k => by
      unfold iblk4
      rw [View.read_apply]
      show V c main_arg11 (((cfg4.win 3).blk t).view.emb (ix2 k (0 : Fin 1))) = V c main_arg11 (ix2 k (0 : Fin 1))
      congr 1
      funext a
      apply Fin.ext
      match a with
      | ⟨0, _⟩ => show win4_3.index t (0 : Fin 2) * 32 + 1 * k.val = k.val; rw [e6]; omega
      | ⟨1, _⟩ => show win4_3.index t (1 : Fin 2) * 1 + 1 * 0 = 0; rw [e7]
    have b4 : iblk4 V c 4 t (ix2 (0 : Fin 1) (0 : Fin 1)) = V c main_v36 (ix2 (0 : Fin 1) (0 : Fin 1)) := by
      unfold iblk4
      rw [View.read_apply]
      show V c main_v36 (((cfg4.win 4).blk t).view.emb (ix2 (0 : Fin 1) (0 : Fin 1))) = V c main_v36 (ix2 (0 : Fin 1) (0 : Fin 1))
      congr 1
      funext a
      apply Fin.ext
      match a with
      | ⟨0, _⟩ => show win4_4.index t (0 : Fin 2) * 1 + 1 * 0 = 0; rw [e8]
      | ⟨1, _⟩ => show win4_4.index t (1 : Fin 2) * 1 + 1 * 0 = 0; rw [e9]
    exact congrArg (fun z : EReal => Ideal.ofBits .f32 0x40490FDB#32 * Ideal.logistic z)
      (congrArg₂ (· + ·) (Finset.sum_congr rfl fun k _ => congrArg₂ (· * ·)
        (congrArg (fun z : EReal => max z 0) (congrArg₂ (· + ·)
          (Finset.sum_congr rfl fun l _ => congrArg₂ (· * ·) (b0 l) (b1 l k)) (b2 k))) (b3 k)) b4)
  · show win4_5.index t (0 : Fin 2) * 10000 + 1 * p.val = rr.val
    rw [e10, hrr]
    omega

/-- The ten row blocks tile the output column, so after the region it holds pi times the logistic column everywhere. -/
theorem array (c : Dev nD) :
    (dat4 V c).arrAt 5 cfg4.N = mulf (broadcastInDim Cert.ReferenceIdeal.S100000x1 ![] Cert.ReferenceIdeal.Facts₀.bcast_S_S100000x1
        (constant (F := Ideal) Cert.ReferenceIdeal.S_ .f32 0x40490FDB#32))
        (Cert.Spec.sigCol (F := Ideal) (V c main_v81) (V c main_arg9) (V c main_v35) (V c main_arg11) (V c main_v36)) :=
  (dat4 V c).arrAt_eq_of_cover 5 _ (fun t _ => flushed V c t) fun i => by
    have hi0 : (i 0).val < 100000 := (i 0).isLt
    have hi1 : (i 1).val < 1 := (i 1).isLt
    have hN : cfg4.N = 10 := N_4
    have htt : (i 0).val / 10000 < cfg4.N := by rw [hN]; omega
    obtain ⟨tt, htv⟩ : ∃ tt : Fin cfg4.N, tt.val = (i 0).val / 10000 := ⟨⟨_, htt⟩, rfl⟩
    refine ⟨tt, flush4_5 tt, ?_⟩
    obtain ⟨e0, e1, e2, e3, e4, e5, e6, e7, e8, e9, e10, e11⟩ := idx tt
    show i ∈ ((View.whole main_v82).slice (win4_5.rect tt)).set
    rw [View.set_slice_whole, Rect.mem_set_unit]
    intro a
    match a with
    | ⟨0, _⟩ =>
      show win4_5.index tt (0 : Fin 2) * 10000 ≤ (i 0).val ∧ (i 0).val < win4_5.index tt (0 : Fin 2) * 10000 + 10000
      rw [e10, htv]; omega
    | ⟨1, _⟩ =>
      show win4_5.index tt (1 : Fin 2) * 1 ≤ (i 1).val ∧ (i 1).val < win4_5.index tt (1 : Fin 2) * 1 + 1
      rw [e11]; omega

end Cert.KernelIdeal.Hand.R4

end
-- ==== Proof.LibScatterRead.lean ====
/-
  General lemmas, about no particular program, that read a host scatter, scatter-add or gather AT AN INDEX: which updates
  land on an entry, as a condition on the index words read signed.

  The landing index. `resultIdx?_eq_some_iff`: an update lands on operand index i exactly when, on every operand axis,
  its start (the index word for that axis read signed, not clamped; zero on an axis the map does not name) plus its
  window coordinate is i's coordinate. For each shape of dimension numbers below, `start_…` and `window_…` compute the
  two summands on each axis and `resultIdx?_…` states the landing condition in coordinates.

  Accumulating scatters (the ideal instance: the exact sum of the colliding updates).
  • `scatterAdd_vec_apply`: E scalar updates into a vector [n], index array [E,1]: entry a ends at its old value plus
    the sum of the updates whose index word, read signed, is a.
  • `scatterAdd_rows_apply`: E rows of f entries into a matrix [n,f], index array [E,1] (the row index): entry (a,k)
    ends at its old value plus the sum over the updates e whose index word is a of their k-th entries.
  • `scatterAdd_mat_apply`: E scalar updates into a matrix [n1,n2], index array [E,2] (row, column): entry (p,q) ends at
    its old value plus the sum of the updates whose two index words are p and q.

  Overwriting scatters (the body returns the update; any element type). `setStep` is one step of the fold over the
  update positions in row-major order, `foldl_setStep_miss` / `foldl_setStep_hit` the fold's invariant at one entry,
  and `scatter_set_miss` / `scatter_set_hit` the scatter read at an entry: the operand's entry when no update lands
  there, the update's when exactly one does.
  • `scatter_set_prefix_vec`: the leading n entries of a vector [N] overwritten (one start index, the word 0): entry a
    is update a when a < n and the operand's entry otherwise.
  • `scatter_set_prefix_rows`: the same for the leading n rows of a matrix [N,f].

  Gather.
  • `gather_rows_apply`: E rows of a matrix [n,f] gathered, index array [E,1], slice sizes [1,f]: for an index word that
    is in range (read signed it is a < n, so the clamp does nothing), row e of the result is row a of the operand.
-/
import Idealize.ShloMosaic.PureOps.Ideal
import Idealize.ShloMosaic.PureOps.ShapeOps
import Idealize.ShloMosaic.PureOps.Contract
import Idealize.ShloMosaic.PureOps.Dims
import Idealize.ShloMosaic.Lib.ValueIdx

noncomputable section

open Idealize.ShloMosaic Idealize.ShloMosaic.ValueIdx

namespace Idealize.ShloMosaic.ScatterRead

/-- An update lands on operand index i exactly when on every operand axis its start plus its window coordinate is i's coordinate. -/
theorem resultIdx?_eq_some_iff {s si u : Shape} (d : ScatterDims s si u) {w : ℕ} (j : u.Idx) (idx : IVec si w) (i : s.Idx) :
    d.resultIdx? j idx = some i ↔ ∀ a, d.start j idx a + (d.window j a : ℤ) = ((i a).val : ℤ) := by
  unfold ScatterDims.resultIdx?
  split_ifs with h
  · rw [Option.some.injEq]
    constructor
    · intro heq a
      rw [← heq]
      exact (Int.toNat_of_nonneg (h a).1).symm
    · intro hall
      funext a
      refine Fin.ext ?_
      show (d.start j idx a + (d.window j a : ℤ)).toNat = (i a).val
      rw [hall a]; exact Int.toNat_natCast _
  · constructor
    · intro heq; exact absurd heq (by simp)
    · intro hall
      exfalso; apply h
      intro a
      rw [hall a]
      exact ⟨Int.natCast_nonneg _, by exact_mod_cast (i a).isLt⟩

/-- The vector case: the start on the one operand axis is the update's index word read signed. -/
theorem start_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin 1) :
    d.start (ix1 e) idx a = (idx (ix2 e (0 : Fin 1))).toInt := by
  obtain ⟨uw, iw, sd, iv, wf⟩ := d
  dsimp only at h1 h2 h3 h4; subst h1 h2 h3 h4
  obtain rfl : a = 0 := Subsingleton.elim _ _
  unfold ScatterDims.start
  rw [dif_pos (List.mem_singleton.mpr rfl)]
  congr 2
  funext b; refine Fin.ext ?_
  match b with
  | ⟨0, _⟩ => rfl
  | ⟨1, _⟩ => rfl

/-- The vector case: there is no window axis, the window coordinate is zero. -/
theorem window_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (j : (⟨1, ![E]⟩ : Shape).Idx) (a : Fin 1) :
    d.window j a = 0 := by
  obtain ⟨uw, iw, sd, iv, wf⟩ := d
  dsimp only at h1 h2 h3 h4; subst h1 h2 h3 h4
  obtain rfl : a = 0 := Subsingleton.elim _ _
  unfold ScatterDims.window
  rw [dif_neg (by simp [ScatterDims.sKept, Shape.kept])]

/-- A rank-1 index set is its one coordinate range. -/
def idxEquiv1 {n : ℕ} : (⟨1, ![n]⟩ : Shape).Idx ≃ Fin n where
  toFun i := i 0
  invFun a := ix1 a
  left_inv i := (eq_ix1 i).symm
  right_inv _ := rfl

/-- The vector case: update e lands on entry a exactly when its index word, read signed, is a. -/
theorem resultIdx?_vec {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (idx : IVec ⟨2, ![E, 1]⟩ 32) (e : Fin E) (a : Fin n) :
    d.resultIdx? (ix1 e) idx = some (ix1 a) ↔ (idx (ix2 e (0 : Fin 1))).toInt = (a.val : ℤ) := by
  rw [resultIdx?_eq_some_iff]
  constructor
  · intro h
    have := h 0
    rw [start_vec d h1 h2 h3 h4, window_vec d h1 h2 h3 h4, Nat.cast_zero, add_zero] at this
    exact this
  · intro h b
    obtain rfl : b = 0 := Subsingleton.elim _ _
    rw [start_vec d h1 h2 h3 h4, window_vec d h1 h2 h3 h4, Nat.cast_zero, add_zero]
    exact h

/-- A float scatter-add of E scalar updates into a vector of n entries, one start index per update (index array [E,1]): entry a ends at its old value plus the sum of the updates whose index word, read SIGNED, is a. -/
theorem scatterAdd_vec_apply {n E : ℕ} (d : ScatterDims ⟨1, ![n]⟩ ⟨2, ![E, 1]⟩ ⟨1, ![E]⟩)
    (h1 : d.updateWindowDims = []) (h2 : d.insertedWindowDims = [0]) (h3 : d.scatterDimsToOperandDims = [0]) (h4 : d.indexVectorDim = 1)
    (x : FVec Ideal ⟨1, ![n]⟩ .f32) (idx : IVec ⟨2, ![E, 1]⟩ 32) (upd : FVec Ideal ⟨1, ![E]⟩ .f32) (a : Fin n) :
    Host.scatterAdd d x idx upd (ix1 a) = x (ix1 a) + ∑ e ∈ Finset.univ.filter (fun e : Fin E => (idx (ix2 e (0 : Fin 1))).toInt = (a.val : ℤ)), upd (ix1 e) := by
  show Ideal.hostScatterAdd d x idx upd (ix1 a) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_vec d h1 h2 h3 h4 idx (j 0) a
  · intro j _
    exact congrArg upd (eq_ix1 j)

/-- The rows case: the start on the row axis is the update's index word read signed, on the column axis zero. -/
theorem start_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k : Fin f) :
    d.start (ix2 e k) idx 0 = (idx (ix2 e (0 : Fin 1))).toInt ∧ d.start (ix2 e k) idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext b; refine Fin.ext ?_
    match b with
    | ⟨0, _⟩ => rfl
    | ⟨1, _⟩ => rfl
  · rw [dif_neg (show (1 : Fin 2) ∉ [(0 : Fin 2)] by decide)]

/-- The rows case: the window coordinate is zero on the row axis and the update's column on the column axis. -/
theorem window_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (e : Fin E) (k : Fin f) :
    d.window (ix2 e k) 0 = 0 ∧ d.window (ix2 e k) 1 = k.val := by
  obtain ⟨uw, iw, sd, iv, wf⟩ := d
  dsimp only at h1 h2 h3 h4; subst h1 h2 h3 h4
  unfold ScatterDims.window
  constructor
  · rw [dif_neg (by simp [ScatterDims.sKept, Shape.kept])]
  · rw [dif_pos (by simp [ScatterDims.sKept, Shape.kept])]
    rfl

/-- The rows case: element (e, k') of the updates lands on entry (a, k) exactly when e's index word, read signed, is a and k' = k. -/
theorem resultIdx?_rows {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (idx : IVec ⟨2, ![E, 1]⟩ 32) (e : Fin E) (k' : Fin f) (a : Fin n) (k : Fin f) :
    d.resultIdx? (ix2 e k') idx = some (ix2 a k) ↔ (idx (ix2 e (0 : Fin 1))).toInt = (a.val : ℤ) ∧ k' = k := by
  rw [resultIdx?_eq_some_iff]
  obtain ⟨hs0, hs1⟩ := start_rows d h1 h2 h3 h4 idx e k'
  obtain ⟨hw0, hw1⟩ := window_rows d h1 h2 h3 h4 e k'
  constructor
  · intro h
    have e0 := h 0
    have e1 := h 1
    rw [hs0, hw0, Nat.cast_zero, add_zero] at e0
    rw [hs1, hw1, zero_add] at e1
    exact ⟨e0, Fin.ext (by exact_mod_cast e1)⟩
  · rintro ⟨h, rfl⟩ b
    match b with
    | ⟨0, _⟩ =>
      show d.start (ix2 e k') idx 0 + ((d.window (ix2 e k') 0 : ℕ) : ℤ) = _
      rw [hs0, hw0, Nat.cast_zero, add_zero]; exact h
    | ⟨1, _⟩ =>
      show d.start (ix2 e k') idx 1 + ((d.window (ix2 e k') 1 : ℕ) : ℤ) = _
      rw [hs1, hw1, zero_add]

/-- A float scatter-add of E rows of f entries into a matrix [n, f] (index array [E,1], the row index). -/
theorem scatterAdd_rows_apply {n f E : ℕ} (d : ScatterDims ⟨2, ![n, f]⟩ ⟨2, ![E, 1]⟩ ⟨2, ![E, f]⟩)
    (h1 : d.updateWindowDims = [1]) (h2 : d.insertedWindowDims = [0]) (h3 : d.scatterDimsToOperandDims = [0]) (h4 : d.indexVectorDim = 1)
    (x : FVec Ideal ⟨2, ![n, f]⟩ .f32) (idx : IVec ⟨2, ![E, 1]⟩ 32) (upd : FVec Ideal ⟨2, ![E, f]⟩ .f32) (a : Fin n) (k : Fin f) :
    Host.scatterAdd d x idx upd (ix2 a k) = x (ix2 a k) + ∑ e ∈ Finset.univ.filter (fun e : Fin E => (idx (ix2 e (0 : Fin 1))).toInt = (a.val : ℤ)), upd (ix2 e k) := by
  show Ideal.hostScatterAdd d x idx upd (ix2 a k) = _
  unfold Ideal.hostScatterAdd
  congr 1
  have key : ∀ j : (⟨2, ![E, f]⟩ : Shape).Idx, d.resultIdx? j idx = some (ix2 a k) ↔
      (idx (ix2 (j 0) (0 : Fin 1))).toInt = (a.val : ℤ) ∧ j 1 = k := by
    intro j
    conv_lhs => rw [eq_ix2 j]
    exact resultIdx?_rows d h1 h2 h3 h4 idx (j 0) (j 1) a k
  refine Finset.sum_nbij' (fun j => (j 0 : Fin E)) (fun e => ix2 e k) ?_ ?_ ?_ ?_ ?_
  · intro j hj
    exact Finset.mem_filter.2 ⟨Finset.mem_univ _, ((key j).1 (Finset.mem_filter.1 hj).2).1⟩
  · intro e he
    exact Finset.mem_filter.2 ⟨Finset.mem_univ _, (key (ix2 e k)).2 ⟨(Finset.mem_filter.1 he).2, rfl⟩⟩
  · intro j hj
    have hk : j 1 = k := ((key j).1 (Finset.mem_filter.1 hj).2).2
    rw [← hk]; exact (eq_ix2 j).symm
  · intro e _
    rfl
  · intro j hj
    have hk : j 1 = k := ((key j).1 (Finset.mem_filter.1 hj).2).2
    rw [← hk]; exact congrArg upd (eq_ix2 j)

/-- The matrix case: the starts on the two operand axes are the update's two index words read signed. -/
theorem start_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) :
    d.start (ix1 e) idx 0 = (idx (ix2 e (0 : Fin 2))).toInt ∧ d.start (ix1 e) idx 1 = (idx (ix2 e (1 : Fin 2))).toInt := by
  obtain ⟨uw, iw, sd, iv, wf⟩ := d
  dsimp only at h1 h2 h3 h4; subst h1 h2 h3 h4
  unfold ScatterDims.start
  constructor
  · rw [dif_pos (show (0 : Fin 2) ∈ [(0 : Fin 2), 1] by decide)]
    congr 2
    funext b; refine Fin.ext ?_
    match b with
    | ⟨0, _⟩ => rfl
    | ⟨1, _⟩ => rfl
  · rw [dif_pos (show (1 : Fin 2) ∈ [(0 : Fin 2), 1] by decide)]
    congr 2
    funext b; refine Fin.ext ?_
    match b with
    | ⟨0, _⟩ => rfl
    | ⟨1, _⟩ => rfl

/-- The matrix case: both operand axes are inserted, the window coordinate is zero. -/
theorem window_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (j : (⟨1, ![E]⟩ : Shape).Idx) (b : Fin 2) :
    d.window j b = 0 := by
  obtain ⟨uw, iw, sd, iv, wf⟩ := d
  dsimp only at h1 h2 h3 h4; subst h1 h2 h3 h4
  unfold ScatterDims.window
  rw [dif_neg]
  intro h
  have h' := (List.mem_filter.1 h).2
  simp only [decide_eq_true_eq] at h'
  apply h'
  show b ∈ [(0 : Fin 2), 1]
  match b with
  | ⟨0, _⟩ => exact List.mem_cons.2 (Or.inl rfl)
  | ⟨1, _⟩ => exact List.mem_cons.2 (Or.inr (List.mem_cons.2 (Or.inl rfl)))

/-- The matrix case: update e lands on entry (p, q) exactly when its two index words, read signed, are p and q. -/
theorem resultIdx?_mat {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (idx : IVec ⟨2, ![E, 2]⟩ 32) (e : Fin E) (p : Fin n1) (q : Fin n2) :
    d.resultIdx? (ix1 e) idx = some (ix2 p q) ↔
      (idx (ix2 e (0 : Fin 2))).toInt = (p.val : ℤ) ∧ (idx (ix2 e (1 : Fin 2))).toInt = (q.val : ℤ) := by
  rw [resultIdx?_eq_some_iff]
  obtain ⟨hs0, hs1⟩ := start_mat d h1 h2 h3 h4 idx e
  constructor
  · intro h
    have e0 := h 0
    have e1 := h 1
    rw [hs0, window_mat d h1 h2 h3 h4, Nat.cast_zero, add_zero] at e0
    rw [hs1, window_mat d h1 h2 h3 h4, Nat.cast_zero, add_zero] at e1
    exact ⟨e0, e1⟩
  · rintro ⟨hp, hq⟩ b
    rw [window_mat d h1 h2 h3 h4, Nat.cast_zero, add_zero]
    match b with
    | ⟨0, _⟩ => exact hs0.trans hp
    | ⟨1, _⟩ => exact hs1.trans hq

/-- A float scatter-add of E scalar updates into a matrix [n1, n2], two index words per update (index array [E,2]: row, column). -/
theorem scatterAdd_mat_apply {n1 n2 E : ℕ} (d : ScatterDims ⟨2, ![n1, n2]⟩ ⟨2, ![E, 2]⟩ ⟨1, ![E]⟩)
    (h1 : d.updateWindowDims = []) (h2 : d.insertedWindowDims = [0, 1]) (h3 : d.scatterDimsToOperandDims = [0, 1]) (h4 : d.indexVectorDim = 1)
    (x : FVec Ideal ⟨2, ![n1, n2]⟩ .f32) (idx : IVec ⟨2, ![E, 2]⟩ 32) (upd : FVec Ideal ⟨1, ![E]⟩ .f32) (p : Fin n1) (q : Fin n2) :
    Host.scatterAdd d x idx upd (ix2 p q) = x (ix2 p q)
      + ∑ e ∈ Finset.univ.filter (fun e : Fin E => (idx (ix2 e (0 : Fin 2))).toInt = (p.val : ℤ) ∧ (idx (ix2 e (1 : Fin 2))).toInt = (q.val : ℤ)), upd (ix1 e) := by
  show Ideal.hostScatterAdd d x idx upd (ix2 p q) = _
  unfold Ideal.hostScatterAdd
  congr 1
  refine Finset.sum_equiv idxEquiv1 ?_ ?_
  · intro j
    rw [Finset.mem_filter, Finset.mem_filter]
    simp only [Finset.mem_univ, true_and]
    rw [eq_ix1 j]
    exact resultIdx?_mat d h1 h2 h3 h4 idx (j 0) p q
  · intro j _
    exact congrArg upd (eq_ix1 j)

section SetFold
variable {α : Type} {s si u : Shape} {w : ℕ}

/-- One step of an overwriting scatter: the update at row-major position m replaces the entry it lands on, if it lands. -/
def setStep (d : ScatterDims s si u) (idx : IVec si w) (upd : u.Idx → α) (r : s.Idx → α) (m : Fin u.numel) : s.Idx → α :=
  match d.resultIdx? (u.rowMajor.symm m) idx with
  | some i => fun i' => if i' = i then upd (u.rowMajor.symm m) else r i'
  | none => r

/-- An overwriting scatter is the left fold of that step over the update positions in row-major order. -/
theorem scatter_set_eq_foldl (d : ScatterDims s si u) (x : s.Idx → α) (idx : IVec si w) (upd : u.Idx → α) :
    Host.scatter d (fun _ b => b) x idx upd = (List.finRange u.numel).foldl (setStep d idx upd) x := rfl

/-- A step whose update does not land on entry i leaves it. -/
theorem setStep_of_ne (d : ScatterDims s si u) (idx : IVec si w) (upd : u.Idx → α) (r : s.Idx → α) (m : Fin u.numel) (i : s.Idx)
    (h : d.resultIdx? (u.rowMajor.symm m) idx ≠ some i) : setStep d idx upd r m i = r i := by
  unfold setStep
  generalize d.resultIdx? (u.rowMajor.symm m) idx = o at h
  cases o with
  | none => rfl
  | some i0 =>
    show (if i = i0 then upd (u.rowMajor.symm m) else r i) = r i
    rw [if_neg (fun e => h (congrArg some e.symm))]

/-- A step whose update lands on entry i writes it there. -/
theorem setStep_of_eq (d : ScatterDims s si u) (idx : IVec si w) (upd : u.Idx → α) (r : s.Idx → α) (m : Fin u.numel) (i : s.Idx)
    (h : d.resultIdx? (u.rowMajor.symm m) idx = some i) : setStep d idx upd r m i = upd (u.rowMajor.symm m) := by
  unfold setStep
  rw [h]
  show (if i = i then upd (u.rowMajor.symm m) else r i) = upd (u.rowMajor.symm m)
  rw [if_pos rfl]

/-- Folding over positions none of which lands on entry i leaves it. -/
theorem foldl_setStep_miss (d : ScatterDims s si u) (idx : IVec si w) (upd : u.Idx → α) (i : s.Idx) :
    ∀ (l : List (Fin u.numel)) (r : s.Idx → α), (∀ m ∈ l, d.resultIdx? (u.rowMajor.symm m) idx ≠ some i) →
      l.foldl (setStep d idx upd) r i = r i
  | [], _, _ => rfl
  | m :: l, r, h => by
    rw [List.foldl_cons, foldl_setStep_miss d idx upd i l _ (fun m' hm' => h m' (List.mem_cons_of_mem _ hm')),
      setStep_of_ne d idx upd r m i (h m (List.mem_cons.2 (Or.inl rfl)))]

/-- Folding over positions of which exactly m0 lands on entry i leaves the update at m0 there. -/
theorem foldl_setStep_hit (d : ScatterDims s si u) (idx : IVec si w) (upd : u.Idx → α) (i : s.Idx) (m0 : Fin u.numel)
    (h0 : d.resultIdx? (u.rowMajor.symm m0) idx = some i) :
    ∀ (l : List (Fin u.numel)) (r : s.Idx → α), m0 ∈ l → (∀ m ∈ l, d.resultIdx? (u.rowMajor.symm m) idx = some i → m = m0) →
      l.foldl (setStep d idx upd) r i = upd (u.rowMajor.symm m0)
  | [], _, hm, _ => absurd hm (by simp)
  | m :: l, r, hm, huniq => by
    rw [List.foldl_cons]
    by_cases hl : m0 ∈ l
    · exact foldl_setStep_hit d idx upd i m0 h0 l _ hl (fun m' hm' => huniq m' (List.mem_cons_of_mem _ hm'))
    · have hm0 : m0 = m := by
        rcases List.mem_cons.1 hm with h | h
        · exact h
        · exact absurd h hl
      subst hm0
      rw [foldl_setStep_miss d idx upd i l _ (fun m' hm' e => hl (huniq m' (List.mem_cons_of_mem _ hm') e ▸ hm')),
        setStep_of_eq d idx upd r m0 i h0]

/-- THE OVERWRITING SCATTER READ AT ENTRY i, when the landing indices are pairwise distinct there: the update that lands on i. -/
theorem scatter_set_hit (d : ScatterDims s si u) (x : s.Idx → α) (idx : IVec si w) (upd : u.Idx → α) (i : s.Idx) (j0 : u.Idx)
    (h0 : d.resultIdx? j0 idx = some i) (huniq : ∀ j, d.resultIdx? j idx = some i → j = j0) :
    Host.scatter d (fun _ b => b) x idx upd i = upd j0 := by
  rw [scatter_set_eq_foldl]
  have := foldl_setStep_hit d idx upd i (u.rowMajor j0) (by rw [Equiv.symm_apply_apply]; exact h0)
    (List.finRange u.numel) x (List.mem_finRange _)
    (fun m _ e => by rw [← huniq _ e, Equiv.apply_symm_apply])
  rw [this, Equiv.symm_apply_apply]

/-- The overwriting scatter read at an entry no update lands on: the operand's entry. -/
theorem scatter_set_miss (d : ScatterDims s si u) (x : s.Idx → α) (idx : IVec si w) (upd : u.Idx → α) (i : s.Idx)
    (h : ∀ j, d.resultIdx? j idx ≠ some i) :
    Host.scatter d (fun _ b => b) x idx upd i = x i := by
  rw [scatter_set_eq_foldl]
  exact foldl_setStep_miss d idx upd i _ x (fun m _ => h _)

end SetFold

/-- The prefix overwrite of a vector: the start on the one operand axis is the one index word read signed. -/
theorem start_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (j : (⟨1, ![n]⟩ : Shape).Idx) (b : Fin 1) :
    d.start j idx b = (idx (ix1 (0 : Fin 1))).toInt := by
  obtain ⟨uw, iw, sd, iv, wf⟩ := d
  dsimp only at h1 h2 h3 h4; subst h1 h2 h3 h4
  obtain rfl : b = 0 := Subsingleton.elim _ _
  unfold ScatterDims.start
  rw [dif_pos (List.mem_singleton.mpr rfl)]
  congr 2
  funext c; refine Fin.ext ?_
  match c with
  | ⟨0, _⟩ => rfl

/-- The prefix overwrite of a vector: the window coordinate on the one operand axis is the update's position. -/
theorem window_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (c : Fin n) (b : Fin 1) :
    d.window (ix1 c) b = c.val := by
  obtain ⟨uw, iw, sd, iv, wf⟩ := d
  dsimp only at h1 h2 h3 h4; subst h1 h2 h3 h4
  obtain rfl : b = 0 := Subsingleton.elim _ _
  unfold ScatterDims.window
  rw [dif_pos (by simp [ScatterDims.sKept, Shape.kept])]
  rfl

/-- The prefix overwrite of a vector at the start word 0: update c lands on entry a exactly when c = a. -/
theorem resultIdx?_pvec {N n : ℕ} (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (a : Fin N) :
    d.resultIdx? (ix1 c) idx = some (ix1 a) ↔ c.val = a.val := by
  rw [resultIdx?_eq_some_iff]
  have h0 : (0#32 : BitVec 32).toInt = 0 := by decide
  constructor
  · intro h
    have e0 := h 0
    rw [start_pvec d h1 h2 h3 h4, window_pvec d h1 h2 h3 h4, hidx, h0, zero_add] at e0
    exact_mod_cast e0
  · intro h b
    obtain rfl : b = 0 := Subsingleton.elim _ _
    rw [start_pvec d h1 h2 h3 h4, window_pvec d h1 h2 h3 h4, hidx, h0, zero_add]
    exact_mod_cast h

/-- Overwriting the leading n entries of a vector of N ≥ n entries (one start index, the word 0; the body returns the update): x.at[:n].set(u). Generic in the element type α. -/
theorem scatter_set_prefix_vec {α : Type} {N n : ℕ} (hn : n ≤ N) (d : ScatterDims ⟨1, ![N]⟩ ⟨1, ![1]⟩ ⟨1, ![n]⟩)
    (h1 : d.updateWindowDims = [0]) (h2 : d.insertedWindowDims = []) (h3 : d.scatterDimsToOperandDims = [0]) (h4 : d.indexVectorDim = 0)
    (x : (⟨1, ![N]⟩ : Shape).Idx → α) (idx : IVec ⟨1, ![1]⟩ 32) (hidx : idx (ix1 (0 : Fin 1)) = 0#32) (upd : (⟨1, ![n]⟩ : Shape).Idx → α) (a : Fin N) :
    Host.scatter d (fun _ b => b) x idx upd (ix1 a) = if h : a.val < n then upd (ix1 ⟨a.val, h⟩) else x (ix1 a) := by
  by_cases h : a.val < n
  · rw [dif_pos h]
    refine scatter_set_hit d x idx upd (ix1 a) (ix1 ⟨a.val, h⟩) ((resultIdx?_pvec d h1 h2 h3 h4 idx hidx ⟨a.val, h⟩ a).2 rfl) ?_
    intro j e
    obtain ⟨c, rfl⟩ : ∃ c, j = ix1 c := ⟨j 0, eq_ix1 j⟩
    have hc := (resultIdx?_pvec d h1 h2 h3 h4 idx hidx c a).1 e
    exact congrArg ix1 (Fin.ext hc)
  · rw [dif_neg h]
    refine scatter_set_miss d x idx upd (ix1 a) ?_
    intro j e
    obtain ⟨c, rfl⟩ : ∃ c, j = ix1 c := ⟨j 0, eq_ix1 j⟩
    have hc := (resultIdx?_pvec d h1 h2 h3 h4 idx hidx c a).1 e
    exact h (hc ▸ c.isLt)

/-- The prefix overwrite of a matrix's rows: the start is the one index word read signed on the row axis, zero on the column axis. -/
theorem start_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (j : (⟨2, ![n, f]⟩ : Shape).Idx) :
    d.start j idx 0 = (idx (ix1 (0 : Fin 1))).toInt ∧ d.start j idx 1 = 0 := by
  obtain ⟨uw, iw, sd, iv, wf⟩ := d
  dsimp only at h1 h2 h3 h4; subst h1 h2 h3 h4
  unfold ScatterDims.start
  constructor
  · rw [dif_pos (List.mem_singleton.mpr rfl)]
    congr 2
    funext c; refine Fin.ext ?_
    match c with
    | ⟨0, _⟩ => rfl
  · rw [dif_neg (show (1 : Fin 2) ∉ [(0 : Fin 2)] by decide)]

/-- The prefix overwrite of a matrix's rows: the window coordinates are the update's row and column. -/
theorem window_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (c : Fin n) (k : Fin f) :
    d.window (ix2 c k) 0 = c.val ∧ d.window (ix2 c k) 1 = k.val := by
  obtain ⟨uw, iw, sd, iv, wf⟩ := d
  dsimp only at h1 h2 h3 h4; subst h1 h2 h3 h4
  unfold ScatterDims.window
  constructor
  · rw [dif_pos (by simp [ScatterDims.sKept, Shape.kept])]
    rfl
  · rw [dif_pos (by simp [ScatterDims.sKept, Shape.kept])]
    rfl

/-- The prefix overwrite of a matrix's rows at the start word 0: element (c, k') of the updates lands on entry (a, k) exactly when c = a and k' = k. -/
theorem resultIdx?_prows {N n f : ℕ} (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (idx : IVec ⟨1, ![1]⟩ 32) (hidx : idx (ix1 (0 : Fin 1)) = 0#32) (c : Fin n) (k' : Fin f) (a : Fin N) (k : Fin f) :
    d.resultIdx? (ix2 c k') idx = some (ix2 a k) ↔ c.val = a.val ∧ k' = k := by
  rw [resultIdx?_eq_some_iff]
  have h0 : (0#32 : BitVec 32).toInt = 0 := by decide
  obtain ⟨hs0, hs1⟩ := start_prows d h1 h2 h3 h4 idx (ix2 c k')
  obtain ⟨hw0, hw1⟩ := window_prows d h1 h2 h3 h4 c k'
  constructor
  · intro h
    have e0 := h 0
    have e1 := h 1
    rw [hs0, hw0, hidx, h0, zero_add] at e0
    rw [hs1, hw1, zero_add] at e1
    exact ⟨by exact_mod_cast e0, Fin.ext (by exact_mod_cast e1)⟩
  · rintro ⟨h, rfl⟩ b
    match b with
    | ⟨0, _⟩ =>
      show d.start (ix2 c k') idx 0 + ((d.window (ix2 c k') 0 : ℕ) : ℤ) = _
      rw [hs0, hw0, hidx, h0, zero_add]; exact_mod_cast h
    | ⟨1, _⟩ =>
      show d.start (ix2 c k') idx 1 + ((d.window (ix2 c k') 1 : ℕ) : ℤ) = _
      rw [hs1, hw1, zero_add]

/-- The same for the leading n rows of a matrix [N, f]: x.at[:n].set(u) with u : [n, f]. -/
theorem scatter_set_prefix_rows {α : Type} {N n f : ℕ} (hn : n ≤ N) (d : ScatterDims ⟨2, ![N, f]⟩ ⟨1, ![1]⟩ ⟨2, ![n, f]⟩)
    (h1 : d.updateWindowDims = [0, 1]) (h2 : d.insertedWindowDims = []) (h3 : d.scatterDimsToOperandDims = [0]) (h4 : d.indexVectorDim = 0)
    (x : (⟨2, ![N, f]⟩ : Shape).Idx → α) (idx : IVec ⟨1, ![1]⟩ 32) (hidx : idx (ix1 (0 : Fin 1)) = 0#32) (upd : (⟨2, ![n, f]⟩ : Shape).Idx → α) (a : Fin N) (k : Fin f) :
    Host.scatter d (fun _ b => b) x idx upd (ix2 a k) = if h : a.val < n then upd (ix2 ⟨a.val, h⟩ k) else x (ix2 a k) := by
  by_cases h : a.val < n
  · rw [dif_pos h]
    refine scatter_set_hit d x idx upd (ix2 a k) (ix2 ⟨a.val, h⟩ k)
      ((resultIdx?_prows d h1 h2 h3 h4 idx hidx ⟨a.val, h⟩ k a k).2 ⟨rfl, rfl⟩) ?_
    intro j e
    obtain ⟨c, k', rfl⟩ : ∃ c k', j = ix2 c k' := ⟨j 0, j 1, eq_ix2 j⟩
    obtain ⟨hc, rfl⟩ := (resultIdx?_prows d h1 h2 h3 h4 idx hidx c k' a k).1 e
    obtain rfl : c = ⟨a.val, h⟩ := Fin.ext hc
    rfl
  · rw [dif_neg h]
    refine scatter_set_miss d x idx upd (ix2 a k) ?_
    intro j e
    obtain ⟨c, k', rfl⟩ : ∃ c k', j = ix2 c k' := ⟨j 0, j 1, eq_ix2 j⟩
    have hc := ((resultIdx?_prows d h1 h2 h3 h4 idx hidx c k' a k).1 e).1
    exact h (hc ▸ c.isLt)

/-- A gather of E rows of a matrix [n, f] (index array [E,1], slice sizes [1, f]): row e of the result is the row of x named by the index word read signed, clamped into [0, n-1]; stated for an index word that IS in range. -/
theorem gather_rows_apply {α : Type} {n f E : ℕ} (d : GatherDims ⟨2, ![n, f]⟩ ⟨2, ![E, 1]⟩ ⟨2, ![E, f]⟩)
    (h1 : d.offsetDims = [1]) (h2 : d.collapsedSliceDims = [0]) (h3 : d.operandBatchingDims = []) (h4 : d.startIndicesBatchingDims = []) (h5 : d.startIndexMap = [0]) (h6 : d.indexVectorDim = 1) (h7 : d.sliceSizes = ![1, f])
    (x : (⟨2, ![n, f]⟩ : Shape).Idx → α) (idx : IVec ⟨2, ![E, 1]⟩ 32) (e : Fin E) (k : Fin f) (a : Fin n) (ha : (idx (ix2 e (0 : Fin 1))).toInt = (a.val : ℤ)) :
    Host.gather d x idx (ix2 e k) = x (ix2 a k) := by
  obtain ⟨od, cd, ob, sb, sm, iv, ss, wf⟩ := d
  dsimp only at h1 h2 h3 h4 h5 h6 h7; subst h1 h2 h3 h4 h5 h6 h7
  unfold Host.gather
  congr 1
  funext b
  refine Fin.ext ?_
  match b with
  | ⟨0, _⟩ =>
    show GatherDims.start _ (ix2 e k) idx 0 + GatherDims.batchCoord _ (ix2 e k) 0 + GatherDims.offCoord _ (ix2 e k) 0 = a.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨2, ![n, f]⟩) (si := ⟨2, ![E, 1]⟩) (t := ⟨2, ![E, f]⟩)
        ⟨[1], [0], [], [], [0], 1, ![1, f], wf⟩ (ix2 e k)
        ⟨List.idxOf (0 : Fin 2) [0], List.idxOf_lt_length_iff.2 (List.mem_singleton.mpr rfl)⟩ = ix2 e (0 : Fin 1) := by
      funext c; refine Fin.ext ?_
      match c with
      | ⟨0, _⟩ => rfl
      | ⟨1, _⟩ => rfl
    rw [hsi, ha]
    show min ((a.val : ℤ)).toNat (n - 1) = a.val
    rw [Int.toNat_natCast]
    have := a.isLt
    omega
  | ⟨1, _⟩ =>
    show GatherDims.start _ (ix2 e k) idx 1 + GatherDims.batchCoord _ (ix2 e k) 1 + GatherDims.offCoord _ (ix2 e k) 1 = k.val
    rw [GatherDims.batchCoord_eq_zero _ _ _ List.not_mem_nil]
    unfold GatherDims.start GatherDims.offCoord
    rw [dif_neg (show (1 : Fin 2) ∉ [(0 : Fin 2)] by decide),
      dif_pos (by simp [GatherDims.sKept, Shape.kept])]
    simp only [Nat.add_zero, Nat.zero_add]
    rfl

end Idealize.ShloMosaic.ScatterRead

end
-- ==== Proof.Reg5.lean ====
/-
  Region 5 (the pooling): the grid's ten points walk the 100000 nodes in blocks of 10000 rows. At each point the body forms
  the 0/1 matrix M[n, g] = 1 when the id word of row n is the word g (g below 128), and adds M^T · h_block into the
  [128, 32] sums and the column sums of M into the [128, 1] counts; the first point starts both from zero, and both are
  written back once, after the last point. So after point n entry (g, k) of the sums is the sum over blocks 0 .. n of
  the features' k-th entries of the rows whose id word is g (0 · x = 0 and 1 · x = x on every extended real), and
  entry g of the counts is the number of such rows. The ten blocks tile the nodes, and for g below 128 a word is the
  word g exactly when, read signed, it is g: after the last point the two arrays are the reference's scatter-adds of
  the rows, and of ones, into the graph ids.
-/
import proofs.«426142_j41875931136205_1_alg».proof.Proof.Gen.KernelIdeal.Frame
import proofs.«426142_j41875931136205_1_alg».proof.Proof.Spec
import proofs.«426142_j41875931136205_1_alg».proof.Proof.LibScatterRead
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R5

open Cert.KernelIdeal Cert.KernelIdeal.Gen

section Pieces
variable {F : FTy → Type} [FloatOps F]

theorem hz : (![0, 0] : Fin 2 → Nat) = fun _ => 0 := funext fun a => by fin_cases a <;> rfl

/-- At a later point the sums' buffer, holding xo2, is left at xo2 + onehot^T · h of the point's blocks. -/
theorem out_B_2 (c : Dev nD) (i : grid5.Coords) (arg1 : Memref sig .tc .vmem S10000x32 .f32) (harg1 : arg1.IsWhole) (arg2 : Memref sig .tc .vmem S10000x1 .i32) (harg2 : arg2.IsWhole) (arg3 : Memref sig .tc .vmem S128x32 .f32) (harg3 : arg3.IsWhole) (arg4 : Memref sig .tc .vmem S128x1 .f32) (harg4 : arg4.IsWhole) (hc0 : ¬cond5_0 i)
    (x0 : Vec F S10000x32 .f32) (x1 : Vec F S10000x1 .i32) (xo2 : Vec F S128x32 .f32) (xo3 : Vec F S128x1 .f32) :
    out5_B_2 c i arg1 harg1 arg2 harg2 arg3 harg3 arg4 harg4 hc0 x0 x1 xo2 xo3 = k5_pay4 x1 x0 xo2 := by
  unfold out5_B_2
  rw [View.read_writes_eq_canon _ _ _ (cover5_B_2 c i arg1 harg1 arg2 harg2 arg3 harg3 arg4 harg4 hc0 x0 x1 xo2 xo3)]
  unfold kernelRun5_B
  dsimp only
  sl_unfold_words
  rw [View.canon_unit_zero hz]
  simp only [View.readAt_eq_ld, harg1.read_unread, harg2.read_unread, harg3.read_unread,
    View.ld_unit_zero (S := S10000x32) hz, View.ld_unit_zero (S := S10000x1) hz, View.ld_unit_zero (S := S128x32) hz]

/-- At a later point the counts' buffer, holding xo3, is left at xo3 + the column sums of the 0/1 matrix. -/
theorem out_B_3 (c : Dev nD) (i : grid5.Coords) (arg1 : Memref sig .tc .vmem S10000x32 .f32) (harg1 : arg1.IsWhole) (arg2 : Memref sig .tc .vmem S10000x1 .i32) (harg2 : arg2.IsWhole) (arg3 : Memref sig .tc .vmem S128x32 .f32) (harg3 : arg3.IsWhole) (arg4 : Memref sig .tc .vmem S128x1 .f32) (harg4 : arg4.IsWhole) (hc0 : ¬cond5_0 i)
    (x0 : Vec F S10000x32 .f32) (x1 : Vec F S10000x1 .i32) (xo2 : Vec F S128x32 .f32) (xo3 : Vec F S128x1 .f32) :
    out5_B_3 c i arg1 harg1 arg2 harg2 arg3 harg3 arg4 harg4 hc0 x0 x1 xo2 xo3 = k5_pay5 x1 xo3 := by
  unfold out5_B_3
  rw [View.read_writes_eq_canon _ _ _ (cover5_B_3 c i arg1 harg1 arg2 harg2 arg3 harg3 arg4 harg4 hc0 x0 x1 xo2 xo3)]
  unfold kernelRun5_B
  dsimp only
  sl_unfold_words
  rw [View.canon_unit_zero hz]
  simp only [View.readAt_eq_ld, harg2.read_unread, harg4.read_unread,
    View.ld_unit_zero (S := S10000x1) hz, View.ld_unit_zero (S := S128x1) hz]

/-- At the first point the sums' buffer is zeroed, read back, and left at 0 + onehot^T · h of the point's blocks. -/
theorem out_A_2 (c : Dev nD) (i : grid5.Coords) (arg1 : Memref sig .tc .vmem S10000x32 .f32) (harg1 : arg1.IsWhole) (arg2 : Memref sig .tc .vmem S10000x1 .i32) (harg2 : arg2.IsWhole) (arg3 : Memref sig .tc .vmem S128x32 .f32) (harg3 : arg3.IsWhole) (arg4 : Memref sig .tc .vmem S128x1 .f32) (harg4 : arg4.IsWhole) (hc0 : cond5_0 i)
    (x0 : Vec F S10000x32 .f32) (x1 : Vec F S10000x1 .i32) :
    out5_A_2 c i arg1 harg1 arg2 harg2 arg3 harg3 arg4 harg4 hc0 x0 x1 = k5_pay4 x1 x0 (k5_pay1 (F := F)) := by
  unfold out5_A_2
  rw [View.read_writes_eq_canon _ _ _ (cover5_A_2 c i arg1 harg1 arg2 harg2 arg3 harg3 arg4 harg4 hc0 x0 x1)]
  unfold kernelRun5_A
  dsimp only
  sl_unfold_words
  rw [View.canon_cons_unit_zero (S := S128x32) hz]
  simp only [View.readAt_eq_ld, harg1.read_unread, harg2.read_unread,
    View.ld_unit_zero (S := S10000x32) hz, View.ld_unit_zero (S := S10000x1) hz, View.readCov_unit_zero (S := S128x32) _ hz]

/-- At the first point the counts' buffer is zeroed, read back, and left at 0 + the column sums of the 0/1 matrix. -/
theorem out_A_3 (c : Dev nD) (i : grid5.Coords) (arg1 : Memref sig .tc .vmem S10000x32 .f32) (harg1 : arg1.IsWhole) (arg2 : Memref sig .tc .vmem S10000x1 .i32) (harg2 : arg2.IsWhole) (arg3 : Memref sig .tc .vmem S128x32 .f32) (harg3 : arg3.IsWhole) (arg4 : Memref sig .tc .vmem S128x1 .f32) (harg4 : arg4.IsWhole) (hc0 : cond5_0 i)
    (x0 : Vec F S10000x32 .f32) (x1 : Vec F S10000x1 .i32) :
    out5_A_3 c i arg1 harg1 arg2 harg2 arg3 harg3 arg4 harg4 hc0 x0 x1 = k5_pay5 x1 (k5_pay2 (F := F)) := by
  unfold out5_A_3
  rw [View.read_writes_eq_canon _ _ _ (cover5_A_3 c i arg1 harg1 arg2 harg2 arg3 harg3 arg4 harg4 hc0 x0 x1)]
  unfold kernelRun5_A
  dsimp only
  sl_unfold_words
  rw [View.canon_cons_unit_zero (S := S128x1) hz]
  simp only [View.readAt_eq_ld, harg2.read_unread,
    View.ld_unit_zero (S := S10000x1) hz, View.readCov_unit_zero (S := S128x1) _ hz]

end Pieces

section Arithmetic

/-- A word is the word of a graph id g below 128 exactly when, read signed, it is g. -/
theorem word_eq_iff (w : BitVec 32) (g : ℕ) (hg : g < 128) : w = BitVec.ofNat 32 g ↔ w.toInt = (g : ℤ) := by
  have hw : w.toNat < 2 ^ 32 := w.isLt
  constructor
  · rintro rfl
    rw [BitVec.toInt_eq_toNat_cond, BitVec.toNat_ofNat, Nat.mod_eq_of_lt (by omega)]
    rw [if_pos (by omega)]
  · intro h
    apply BitVec.eq_of_toNat_eq
    rw [BitVec.toNat_ofNat, Nat.mod_eq_of_lt (by omega)]
    rw [BitVec.toInt_eq_toNat_cond] at h
    split at h <;> omega

/-- The float word 0x3F800000 is one. -/
theorem one_word : Ideal.ofBits .f32 0x3F800000#32 = 1 := by
  simp [Ideal.ofBits, Ideal.ieee, -EReal.coe_mul]; norm_num

/-- The 0/1 matrix of a block of id words at (n, g): one when row n's word is the word g, zero otherwise. -/
theorem hot_apply (ids : Vec Ideal S10000x1 .i32) (n : Fin 10000) (g : Fin 128) :
    k5_pay3 (F := Ideal) ids (ix2 n g) = if ids (ix2 n (0 : Fin 1)) = BitVec.ofNat 32 g.val then (1 : EReal) else 0 := by
  have e1 : broadcastTo S10000x128 (shapeCast S10000x1 ids shapeCasts_S10000x1_S10000x1) broadcasts_S10000x1_S10000x128 (ix2 n g)
      = ids (ix2 n (0 : Fin 1)) := by
    rw [shapeCast_self]
    refine broadcastTo_apply _ _ _ (ix2 n (0 : Fin 1)) fun a => ?_
    match a with
    | ⟨0, _⟩ => rfl
    | ⟨1, _⟩ => rfl
  have e2 : iota .tc S10000x128 32 [1] iota_S10000x128_d1_w32 (ix2 n g) = BitVec.ofNat 32 g.val :=
    iota_single_apply .tc S10000x128 32 1 iota_S10000x128_d1_w32 (ix2 n g)
  have h1 : ((BitVec.ofBool true).setWidth 32).toInt = 1 := by decide
  have h0 : ((BitVec.ofBool false).setWidth 32).toInt = 0 := by decide
  unfold k5_pay3
  show FloatOps.sitofp (F := Ideal) .f32 ((IntOp.cmpi .eq (broadcastTo S10000x128 (shapeCast S10000x1 ids shapeCasts_S10000x1_S10000x1) broadcasts_S10000x1_S10000x128 (ix2 n g))
      (iota .tc S10000x128 32 [1] iota_S10000x128_d1_w32 (ix2 n g))).setWidth 32) = _
  rw [e1, e2]
  by_cases h : ids (ix2 n (0 : Fin 1)) = BitVec.ofNat 32 g.val
  · rw [if_pos h, h]
    show (((((BitVec.ofBool (BitVec.ofNat 32 g.val == BitVec.ofNat 32 g.val)).setWidth 32).toInt : ℤ) : ℝ) : EReal) = 1
    rw [beq_self_eq_true, h1, Int.cast_one, EReal.coe_one]
  · rw [if_neg h]
    show (((((BitVec.ofBool (ids (ix2 n (0 : Fin 1)) == BitVec.ofNat 32 g.val)).setWidth 32).toInt : ℤ) : ℝ) : EReal) = 0
    rw [beq_eq_false_iff_ne.mpr h, h0, Int.cast_zero, EReal.coe_zero]

/-- The pooling product's operand indices at output (g, k) and contraction position q: (q, g) on the left, (q, k) on the right. -/
theorem lhs_pool_0 (j : S128x32.Idx) (q : dot_S10000x128_S10000x32_S128x32_0_0_1_1_n_n.contr.Idx) :
    (dot_S10000x128_S10000x32_S128x32_0_0_1_1_n_n.lhsIdx j q 0).val = (q ⟨0, by decide⟩).val := rfl
theorem lhs_pool_1 (j : S128x32.Idx) (q : dot_S10000x128_S10000x32_S128x32_0_0_1_1_n_n.contr.Idx) :
    (dot_S10000x128_S10000x32_S128x32_0_0_1_1_n_n.lhsIdx j q 1).val = (j 0).val := rfl
theorem rhs_pool_0 (j : S128x32.Idx) (q : dot_S10000x128_S10000x32_S128x32_0_0_1_1_n_n.contr.Idx) :
    (dot_S10000x128_S10000x32_S128x32_0_0_1_1_n_n.rhsIdx j q 0).val = (q ⟨0, by decide⟩).val := rfl
theorem rhs_pool_1 (j : S128x32.Idx) (q : dot_S10000x128_S10000x32_S128x32_0_0_1_1_n_n.contr.Idx) :
    (dot_S10000x128_S10000x32_S128x32_0_0_1_1_n_n.rhsIdx j q 1).val = (j 1).val := rfl

/-- The sums' payload at (g, k): the running value plus the sum over the block's rows whose id word is g of the row's k-th feature. -/
theorem pay4_apply (ids : Vec Ideal S10000x1 .i32) (h : Vec Ideal S10000x32 .f32) (acc : Vec Ideal S128x32 .f32) (g : Fin 128) (k : Fin 32) :
    k5_pay4 (F := Ideal) ids h acc (ix2 g k)
      = acc (ix2 g k) + ∑ n : Fin 10000, (if ids (ix2 n (0 : Fin 1)) = BitVec.ofNat 32 g.val then (1 : EReal) else 0) * h (ix2 n k) := by
  unfold k5_pay4
  show shapeCast S128x32 acc shapeCasts_S128x32_S128x32 (ix2 g k) + _ = _
  congr 1
  · rw [shapeCast_self]
  · refine (Ideal.matmul_constant_zero_apply dot_S10000x128_S10000x32_S128x32_0_0_1_1_n_n none _ _ (ix2 g k)).trans ?_
    refine (Equiv.sum_comp (contrEquiv1 dot_S10000x128_S10000x32_S128x32_0_0_1_1_n_n 10000 rfl rfl).symm _).symm.trans ?_
    refine Finset.sum_congr rfl fun n _ => ?_
    have hl : dot_S10000x128_S10000x32_S128x32_0_0_1_1_n_n.lhsIdx (ix2 g k) ((contrEquiv1 dot_S10000x128_S10000x32_S128x32_0_0_1_1_n_n 10000 rfl rfl).symm n) = ix2 n g := by
      funext a; apply Fin.ext
      match a with
      | ⟨0, _⟩ => exact (lhs_pool_0 _ _).trans (contrEquiv1_symm_val dot_S10000x128_S10000x32_S128x32_0_0_1_1_n_n 10000 rfl rfl n)
      | ⟨1, _⟩ => exact lhs_pool_1 _ _
    have hr : dot_S10000x128_S10000x32_S128x32_0_0_1_1_n_n.rhsIdx (ix2 g k) ((contrEquiv1 dot_S10000x128_S10000x32_S128x32_0_0_1_1_n_n 10000 rfl rfl).symm n) = ix2 n k := by
      funext a; apply Fin.ext
      match a with
      | ⟨0, _⟩ => exact (rhs_pool_0 _ _).trans (contrEquiv1_symm_val dot_S10000x128_S10000x32_S128x32_0_0_1_1_n_n 10000 rfl rfl n)
      | ⟨1, _⟩ => exact rhs_pool_1 _ _
    show k5_pay3 (F := Ideal) ids (dot_S10000x128_S10000x32_S128x32_0_0_1_1_n_n.lhsIdx (ix2 g k) _) * shapeCast S10000x32 h shapeCasts_S10000x32_S10000x32 (dot_S10000x128_S10000x32_S128x32_0_0_1_1_n_n.rhsIdx (ix2 g k) _) = _
    rw [hl, hr, shapeCast_self, hot_apply]

/-- The row (g) of the reduced 0/1 matrix lifts to the entries (n, g). -/
theorem lift_col (g : Fin 128) (n : Fin 10000) : reduces_S10000x128_S128.lift (ix1 g) n = ix2 n g := by
  funext a; apply Fin.ext
  match a with
  | ⟨0, _⟩ => rfl
  | ⟨1, _⟩ => rfl

/-- The counts' payload at (g, 0): the running value plus the number of the block's rows whose id word is g. -/
theorem pay5_apply (ids : Vec Ideal S10000x1 .i32) (acc : Vec Ideal S128x1 .f32) (g : Fin 128) :
    k5_pay5 (F := Ideal) ids acc (ix2 g (0 : Fin 1))
      = acc (ix2 g (0 : Fin 1)) + ∑ n : Fin 10000, (if ids (ix2 n (0 : Fin 1)) = BitVec.ofNat 32 g.val then (1 : EReal) else 0) := by
  unfold k5_pay5
  show shapeCast S128x1 acc shapeCasts_S128x1_S128x1 (ix2 g (0 : Fin 1)) + _ = _
  congr 1
  · rw [shapeCast_self]
  · refine (transpose_apply _ _ _ (ix2 g (0 : Fin 1)) (ix2 (0 : Fin 1) g) fun b => ?_).trans ?_
    · match b with
      | ⟨0, _⟩ => rfl
      | ⟨1, _⟩ => rfl
    refine (shapeCast_apply _ _ (ix2 (0 : Fin 1) g) (ix1 g) ?_).trans ?_
    · rw [Shape.rowMajor_val_one, Shape.rowMajor_val_two]
      show g.val = 0 * 128 + g.val
      omega
    refine (Ideal.multiReduction_add_single (k5_pay3 (F := Ideal) ids) 0x00000000#32 reduces_S10000x128_S128 (.inl rfl) rfl (ix1 g)).trans ?_
    show ∑ n : Fin 10000, k5_pay3 (F := Ideal) ids (reduces_S10000x128_S128.lift (ix1 g) n) = _
    refine Finset.sum_congr rfl fun n _ => ?_
    rw [lift_col, hot_apply]

/-- Row r of block t is node 10000 t + r. -/
def node (t : ℕ) (r : Fin 10000) : Fin 100000 := ⟨(10000 * t + r.val) % 100000, Nat.mod_lt _ (by decide)⟩

/-- The reference's sums at (g, k): the sum over the nodes whose id word, read signed, is g of the node's k-th feature. -/
theorem poolSum_apply (h : Vec Ideal S100000x32 .f32) (ids : Vec Ideal S100000x1 .i32) (g : Fin 128) (k : Fin 32) :
    Cert.Spec.poolSumCol (F := Ideal) h ids (ix2 g k)
      = ∑ e ∈ Finset.univ.filter (fun e : Fin 100000 => BitVec.toInt (ids (ix2 e (0 : Fin 1))) = (g.val : ℤ)), h (ix2 e k) := by
  unfold Cert.Spec.poolSumCol
  refine (ScatterRead.scatterAdd_rows_apply Cert.ReferenceIdeal.scatter_S128x32_S100000x1_S100000x32_1_0_0_1 rfl rfl rfl rfl _ ids h g k).trans ?_
  show Ideal.ofBits .f32 0x00000000#32 + _ = _
  rw [Ideal.ofBits_zero_f32, zero_add]

/-- The reference's counts at g: one per node whose id word, read signed, is g. -/
theorem poolCnt_apply (ids : Vec Ideal S100000x1 .i32) (g : Fin 128) :
    Cert.Spec.poolCntCol (F := Ideal) ids (ix1 g)
      = ∑ e ∈ Finset.univ.filter (fun e : Fin 100000 => BitVec.toInt (ids (ix2 e (0 : Fin 1))) = (g.val : ℤ)), (1 : EReal) := by
  unfold Cert.Spec.poolCntCol
  refine (ScatterRead.scatterAdd_vec_apply Cert.ReferenceIdeal.scatter_S128_S100000x1_S100000_n_0_0_1 rfl rfl rfl rfl _ ids _ g).trans ?_
  show Ideal.ofBits .f32 0x00000000#32 + ∑ e ∈ _, Ideal.ofBits .f32 0x3F800000#32 = _
  rw [Ideal.ofBits_zero_f32, zero_add, one_word]

/-- The ten blocks of 10000 rows tile the 100000 nodes: a sum block by block is the sum over the nodes. -/
theorem sum_blocks (T : Fin 100000 → EReal) :
    ∑ t ∈ Finset.range 10, ∑ r : Fin 10000, T (node t r) = ∑ e : Fin 100000, T e := by
  rw [Finset.sum_range (fun t => ∑ r : Fin 10000, T (node t r))]
  refine (Fintype.sum_prod_type' (fun (t : Fin 10) (r : Fin 10000) => T (node t.val r))).symm.trans ?_
  refine (Finset.sum_congr rfl fun p _ => ?_).trans (Equiv.sum_comp (finProdFinEquiv (m := 10) (n := 10000)) T)
  have h1 : p.1.val < 10 := p.1.isLt
  have h2 : p.2.val < 10000 := p.2.isLt
  refine congrArg T (Fin.ext ?_)
  show (10000 * p.1.val + p.2.val) % 100000 = p.2.val + 10000 * p.1.val
  omega

/-- The zero blocks the first point stores. -/
theorem zero_sums (g : Fin 128) (k : Fin 32) : k5_pay1 (F := Ideal) (ix2 g k) = 0 := Ideal.ofBits_zero_f32
theorem zero_cnts (g : Fin 128) : k5_pay2 (F := Ideal) (ix2 g (0 : Fin 1)) = 0 := Ideal.ofBits_zero_f32

end Arithmetic

section Region
variable (V : (c : Dev nD) → (b : Ref sig .tc) → Buf (Elt Ideal) ((c : Thread nD τ).loc b))

/-- The node features and the graph-id column as the region finds them, and their blocks at a point. -/
abbrev hArr (c : Dev nD) : Vec Ideal S100000x32 .f32 := V c main_v81
abbrev idArr (c : Dev nD) : Vec Ideal S100000x1 .i32 := V c main_v84
abbrev hBlk (c : Dev nD) (t : Fin cfg5.N) : Vec Ideal S10000x32 .f32 := iblk5 V c 0 t
abbrev idBlk (c : Dev nD) (t : Fin cfg5.N) : Vec Ideal S10000x1 .i32 := iblk5 V c 1 t

/-- The index maps over the grid: the two inputs move down by one block of rows per point, the two outputs stay. -/
theorem idx : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0 :=
  (by decide +kernel : ∀ t : Fin grid5.N, _)

/-- Block t of the features holds rows 10000 t .. 10000 t + 9999. -/
theorem hBlk_apply (c : Dev nD) (t : Fin cfg5.N) (r : Fin 10000) (k : Fin 32) :
    hBlk V c t (ix2 r k) = hArr V c (ix2 (node t.val r) k) := by
  obtain ⟨e0, e1, e2, e3, e4, e5, e6, e7⟩ := idx t
  have hN : t.val < 10 := lt_of_lt_of_eq t.isLt (show cfg5.N = 10 from N_5)
  have hr : r.val < 10000 := r.isLt
  show iblk5 V c 0 t (ix2 r k) = V c main_v81 (ix2 (node t.val r) k)
  unfold iblk5
  rw [View.read_apply]
  show V c main_v81 (((cfg5.win 0).blk t).view.emb (ix2 r k)) = V c main_v81 (ix2 (node t.val r) k)
  congr 1
  funext a
  apply Fin.ext
  match a with
  | ⟨0, _⟩ => show win5_0.index t (0 : Fin 2) * 10000 + 1 * r.val = (10000 * t.val + r.val) % 100000; rw [e0]; omega
  | ⟨1, _⟩ => show win5_0.index t (1 : Fin 2) * 32 + 1 * k.val = k.val; rw [e1]; omega

/-- Block t of the id column holds rows 10000 t .. 10000 t + 9999. -/
theorem idBlk_apply (c : Dev nD) (t : Fin cfg5.N) (r : Fin 10000) :
    idBlk V c t (ix2 r (0 : Fin 1)) = idArr V c (ix2 (node t.val r) (0 : Fin 1)) := by
  obtain ⟨e0, e1, e2, e3, e4, e5, e6, e7⟩ := idx t
  have hN : t.val < 10 := lt_of_lt_of_eq t.isLt (show cfg5.N = 10 from N_5)
  have hr : r.val < 10000 := r.isLt
  show iblk5 V c 1 t (ix2 r (0 : Fin 1)) = V c main_v84 (ix2 (node t.val r) (0 : Fin 1))
  unfold iblk5
  rw [View.read_apply]
  show V c main_v84 (((cfg5.win 1).blk t).view.emb (ix2 r (0 : Fin 1))) = V c main_v84 (ix2 (node t.val r) (0 : Fin 1))
  congr 1
  funext a
  apply Fin.ext
  match a with
  | ⟨0, _⟩ => show win5_1.index t (0 : Fin 2) * 10000 + 1 * r.val = (10000 * t.val + r.val) % 100000; rw [e2]; omega
  | ⟨1, _⟩ => show win5_1.index t (1 : Fin 2) * 1 + 1 * 0 = 0; rw [e3]

/-- What the two buffers hold after a point where they are zeroed first. -/
theorem outs_A (c : Dev nD) (t : Fin cfg5.N) (h0 : t.val % 10 = 0) :
    outsAt5 V c t.val t.isLt = (k5_pay4 (idBlk V c t) (hBlk V c t) (k5_pay1 (F := Ideal)), k5_pay5 (idBlk V c t) (k5_pay2 (F := Ideal))) :=
  (outsAt5_A V c t h0).trans (congrArg₂ Prod.mk
    (out_A_2 (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t))
    (out_A_3 (F := Ideal) c (grid5.coords t) (ms5_0 t) (hs5_0 t) (ms5_1 t) (hs5_1 t) (ms5_2 t) (hs5_2 t) (ms5_3 t) (hs5_3 t) ((hcond5_0 t).mpr h0) (iblk5 V c 0 t) (iblk5 V c 1 t)))

/-- What the two buffers hold after a later point, over what the point before left. -/
theorem outs_B (c : Dev nD) (t : Fin cfg5.N) (h0 : ¬t.val % 10 = 0) :
    outsAt5 V c t.val t.isLt = (k5_pay4 (idBlk V c t) (hBlk V c t) (outsAt5 V c (t.val - 1) (Nat.lt_of_le_of_lt (Nat.sub_le _ _) t.isLt)).1,
      k5_pay5 (idBlk V c t) (outsAt5 V c (t.val - 1) (Nat.lt_of_le_of_lt (Nat.sub_le _ _) t.isLt)).2) :=
  (outsAt5_B V c t h0).trans (congrArg₂ Prod.mk
    (out_B_2 (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
      (outsAt5 V c (t.val - 1) (Nat.lt_of_le_of_lt (Nat.sub_le _ _) t.isLt)).1 (outsAt5 V c (t.val - 1) (Nat.lt_of_le_of_lt (Nat.sub_le _ _) t.isLt)).2)
    (out_B_3 (F := Ideal) c (grid5.coords t) (ms5_0 t) (hs5_0 t) (ms5_1 t) (hs5_1 t) (ms5_2 t) (hs5_2 t) (ms5_3 t) (hs5_3 t) (fun h => h0 ((hcond5_0 t).mp h)) (iblk5 V c 0 t) (iblk5 V c 1 t)
      (outsAt5 V c (t.val - 1) (Nat.lt_of_le_of_lt (Nat.sub_le _ _) t.isLt)).1 (outsAt5 V c (t.val - 1) (Nat.lt_of_le_of_lt (Nat.sub_le _ _) t.isLt)).2))

/-- Block t's share of entry (g, k) of the sums, and of entry g of the counts. -/
def blkSum (c : Dev nD) (g : Fin 128) (k : Fin 32) (t : ℕ) : EReal :=
  ∑ r : Fin 10000, (if idArr V c (ix2 (node t r) (0 : Fin 1)) = BitVec.ofNat 32 g.val then (1 : EReal) else 0) * hArr V c (ix2 (node t r) k)
def blkCnt (c : Dev nD) (g : Fin 128) (t : ℕ) : EReal :=
  ∑ r : Fin 10000, (if idArr V c (ix2 (node t r) (0 : Fin 1)) = BitVec.ofNat 32 g.val then (1 : EReal) else 0)

/-- After point n the two buffers hold the shares of blocks 0 .. n added up: by induction on the point. -/
theorem outsAt_eq (c : Dev nD) : ∀ (n : ℕ) (hn : n < cfg5.N),
    (∀ (g : Fin 128) (k : Fin 32), (outsAt5 V c n hn).1 (ix2 g k) = ∑ t ∈ Finset.range (n + 1), blkSum V c g k t)
    ∧ (∀ g : Fin 128, (outsAt5 V c n hn).2 (ix2 g (0 : Fin 1)) = ∑ t ∈ Finset.range (n + 1), blkCnt V c g t) := by
  intro n
  induction n with
  | zero =>
    intro hn
    have e : outsAt5 V c 0 hn = _ := outs_A V c ⟨0, hn⟩ rfl
    constructor
    · intro g k
      rw [e]
      dsimp only
      refine (pay4_apply (idBlk V c ⟨0, hn⟩) (hBlk V c ⟨0, hn⟩) (k5_pay1 (F := Ideal)) g k).trans ?_
      rw [zero_sums, zero_add, Finset.sum_range_one]
      unfold blkSum
      refine Finset.sum_congr rfl fun r _ => ?_
      exact congrArg₂ (fun (w : BitVec 32) (x : EReal) => (if w = BitVec.ofNat 32 g.val then (1 : EReal) else 0) * x)
        (idBlk_apply V c ⟨0, hn⟩ r) (hBlk_apply V c ⟨0, hn⟩ r k)
    · intro g
      rw [e]
      dsimp only
      refine (pay5_apply (idBlk V c ⟨0, hn⟩) (k5_pay2 (F := Ideal)) g).trans ?_
      rw [zero_cnts, zero_add, Finset.sum_range_one]
      unfold blkCnt
      refine Finset.sum_congr rfl fun r _ => ?_
      exact congrArg (fun (w : BitVec 32) => if w = BitVec.ofNat 32 g.val then (1 : EReal) else 0) (idBlk_apply V c ⟨0, hn⟩ r)
  | succ n ih =>
    intro hn
    have hN : cfg5.N = 10 := N_5
    have hB : ¬(⟨n + 1, hn⟩ : Fin cfg5.N).val % 10 = 0 := by dsimp only; omega
    have e : outsAt5 V c (n + 1) hn = _ := outs_B V c ⟨n + 1, hn⟩ hB
    obtain ⟨ih1, ih2⟩ := ih (Nat.lt_of_succ_lt hn)
    constructor
    · intro g k
      rw [e]
      dsimp only
      refine (pay4_apply (idBlk V c ⟨n + 1, hn⟩) (hBlk V c ⟨n + 1, hn⟩) _ g k).trans ?_
      rw [Finset.sum_range_succ _ (n + 1)]
      refine congrArg₂ (· + ·) (ih1 g k) ?_
      unfold blkSum
      refine Finset.sum_congr rfl fun r _ => ?_
      exact congrArg₂ (fun (w : BitVec 32) (x : EReal) => (if w = BitVec.ofNat 32 g.val then (1 : EReal) else 0) * x)
        (idBlk_apply V c ⟨n + 1, hn⟩ r) (hBlk_apply V c ⟨n + 1, hn⟩ r k)
    · intro g
      rw [e]
      dsimp only
      refine (pay5_apply (idBlk V c ⟨n + 1, hn⟩) _ g).trans ?_
      rw [Finset.sum_range_succ _ (n + 1)]
      refine congrArg₂ (· + ·) (ih2 g) ?_
      unfold blkCnt
      refine Finset.sum_congr rfl fun r _ => ?_
      exact congrArg (fun (w : BitVec 32) => if w = BitVec.ofNat 32 g.val then (1 : EReal) else 0) (idBlk_apply V c ⟨n + 1, hn⟩ r)

/-- The ten shares add up to the reference's sums: the blocks tile the nodes, and a word is g exactly when read signed it is g. -/
theorem sums_total (c : Dev nD) (g : Fin 128) (k : Fin 32) :
    ∑ t ∈ Finset.range 10, blkSum V c g k t = Cert.Spec.poolSumCol (F := Ideal) (V c main_v81) (V c main_v84) (ix2 g k) := by
  unfold blkSum
  refine (sum_blocks (fun e => (if idArr V c (ix2 e (0 : Fin 1)) = BitVec.ofNat 32 g.val then (1 : EReal) else 0) * hArr V c (ix2 e k))).trans ?_
  rw [poolSum_apply, Finset.sum_filter]
  refine Finset.sum_congr rfl fun e _ => ?_
  by_cases h : idArr V c (ix2 e (0 : Fin 1)) = BitVec.ofNat 32 g.val
  · rw [if_pos h, if_pos ((word_eq_iff _ g.val g.isLt).mp h), one_mul]
  · rw [if_neg h, if_neg (fun h' => h ((word_eq_iff _ g.val g.isLt).mpr h')), zero_mul]

/-- The ten shares add up to the reference's counts. -/
theorem cnts_total (c : Dev nD) (g : Fin 128) :
    ∑ t ∈ Finset.range 10, blkCnt V c g t = Cert.Spec.poolCntCol (F := Ideal) (V c main_v84) (ix1 g) := by
  unfold blkCnt
  refine (sum_blocks (fun e => if idArr V c (ix2 e (0 : Fin 1)) = BitVec.ofNat 32 g.val then (1 : EReal) else 0)).trans ?_
  rw [poolCnt_apply, Finset.sum_filter]
  refine Finset.sum_congr rfl fun e _ => ?_
  by_cases h : idArr V c (ix2 e (0 : Fin 1)) = BitVec.ofNat 32 g.val
  · rw [if_pos h, if_pos ((word_eq_iff _ g.val g.isLt).mp h)]
  · rw [if_neg h, if_neg (fun h' => h ((word_eq_iff _ g.val g.isLt).mpr h'))]

/-- After the last point the sums' buffer holds the reference's sums, -/
theorem sums_last (c : Dev nD) (t : Fin cfg5.N) (h9 : t.val = 9) :
    (outsAt5 V c t.val t.isLt).1 = Cert.Spec.poolSumCol (F := Ideal) (V c main_v81) (V c main_v84) := by
  funext j
  obtain ⟨g, k, rfl⟩ : ∃ (g : Fin 128) (k : Fin 32), j = ix2 g k := ⟨j 0, j 1, eq_ix2 j⟩
  rw [(outsAt_eq V c t.val t.isLt).1 g k, h9]
  exact sums_total V c g k

/-- and the counts' buffer the reference's counts as a column. -/
theorem cnts_last (c : Dev nD) (t : Fin cfg5.N) (h9 : t.val = 9) :
    (outsAt5 V c t.val t.isLt).2 = broadcastInDim Cert.ReferenceIdeal.S128x1 ![0] Cert.ReferenceIdeal.Facts₀.bcast_S128_S128x1_0 (Cert.Spec.poolCntCol (F := Ideal) (V c main_v84)) := by
  funext j
  obtain ⟨g, z, rfl⟩ : ∃ (g : Fin 128) (z : Fin 1), j = ix2 g z := ⟨j 0, j 1, eq_ix2 j⟩
  obtain rfl : z = 0 := Subsingleton.elim _ _
  rw [(outsAt_eq V c t.val t.isLt).2 g, h9]
  refine (cnts_total V c g).trans (broadcastInDim_apply _ _ _ (ix2 g (0 : Fin 1)) (ix1 g) fun a => ?_).symm
  match a with
  | ⟨0, _⟩ => rfl

/-- What the last point writes back of the sums is the one block, the whole array, of the reference's sums. -/
theorem sums_flushed (c : Dev nD) (t : Fin cfg5.N) (hf : (cfg5.win 2).flush t = true) :
    (dat5 V c).flushed 2 t = ((cfg5.win 2).blk t).view.read (Elt Ideal) (Cert.Spec.poolSumCol (F := Ideal) (V c main_v81) (V c main_v84)) := by
  have hN : cfg5.N = 10 := N_5
  have h9 : t.val = 9 := by have h := (flush5_2 t).mp hf; have := t.isLt; omega
  obtain ⟨e0, e1, e2, e3, e4, e5, e6, e7⟩ := idx t
  show (cfg5.win 2).cut (grid5.coords t) ((dat5 V c).after 2 t) = _
  rw [after5_2, sums_last V c t h9]
  funext j
  rw [View.read_apply]
  show Cert.Spec.poolSumCol (F := Ideal) (V c main_v81) (V c main_v84) ((cfg5.win 2).xinj (grid5.coords t) j)
    = Cert.Spec.poolSumCol (F := Ideal) (V c main_v81) (V c main_v84) (((cfg5.win 2).blk t).view.emb j)
  congr 1
  funext a
  apply Fin.ext
  match a with
  | ⟨0, _⟩ => show (j 0).val = win5_2.index t (0 : Fin 2) * 128 + 1 * (j 0).val; rw [e4]; omega
  | ⟨1, _⟩ => show (j 1).val = win5_2.index t (1 : Fin 2) * 32 + 1 * (j 1).val; rw [e5]; omega

/-- What the last point writes back of the counts is the one block, the whole array, of the reference's counts column. -/
theorem cnts_flushed (c : Dev nD) (t : Fin cfg5.N) (hf : (cfg5.win 3).flush t = true) :
    (dat5 V c).flushed 3 t = ((cfg5.win 3).blk t).view.read (Elt Ideal)
      (broadcastInDim Cert.ReferenceIdeal.S128x1 ![0] Cert.ReferenceIdeal.Facts₀.bcast_S128_S128x1_0 (Cert.Spec.poolCntCol (F := Ideal) (V c main_v84))) := by
  have hN : cfg5.N = 10 := N_5
  have h9 : t.val = 9 := by have h := (flush5_3 t).mp hf; have := t.isLt; omega
  obtain ⟨e0, e1, e2, e3, e4, e5, e6, e7⟩ := idx t
  show (cfg5.win 3).cut (grid5.coords t) ((dat5 V c).after 3 t) = _
  rw [after5_3, cnts_last V c t h9]
  funext j
  rw [View.read_apply]
  show broadcastInDim Cert.ReferenceIdeal.S128x1 ![0] Cert.ReferenceIdeal.Facts₀.bcast_S128_S128x1_0 (Cert.Spec.poolCntCol (F := Ideal) (V c main_v84)) ((cfg5.win 3).xinj (grid5.coords t) j)
    = broadcastInDim Cert.ReferenceIdeal.S128x1 ![0] Cert.ReferenceIdeal.Facts₀.bcast_S128_S128x1_0 (Cert.Spec.poolCntCol (F := Ideal) (V c main_v84)) (((cfg5.win 3).blk t).view.emb j)
  congr 1
  funext a
  apply Fin.ext
  match a with
  | ⟨0, _⟩ => show (j 0).val = win5_3.index t (0 : Fin 2) * 128 + 1 * (j 0).val; rw [e6]; omega
  | ⟨1, _⟩ => show (j 1).val = win5_3.index t (1 : Fin 2) * 1 + 1 * (j 1).val; rw [e7]; omega

/-- The one block written back after the last point is the whole [128, 32] array: it ends at the reference's sums. -/
theorem sums (c : Dev nD) :
    (dat5 V c).arrAt 2 cfg5.N = Cert.Spec.poolSumCol (F := Ideal) (V c main_v81) (V c main_v84) :=
  (dat5 V c).arrAt_eq_of_cover 2 _ (fun t hf => sums_flushed V c t hf) fun i => by
    have hi0 : (i 0).val < 128 := (i 0).isLt
    have hi1 : (i 1).val < 32 := (i 1).isLt
    have hN : cfg5.N = 10 := N_5
    obtain ⟨tt, htv⟩ : ∃ tt : Fin cfg5.N, tt.val = 9 := ⟨⟨9, by rw [hN]; omega⟩, rfl⟩
    refine ⟨tt, (flush5_2 tt).mpr (by rw [htv]), ?_⟩
    obtain ⟨e0, e1, e2, e3, e4, e5, e6, e7⟩ := idx tt
    show i ∈ ((View.whole main_v85_0).slice (win5_2.rect tt)).set
    rw [View.set_slice_whole, Rect.mem_set_unit]
    intro a
    match a with
    | ⟨0, _⟩ =>
      show win5_2.index tt (0 : Fin 2) * 128 ≤ (i 0).val ∧ (i 0).val < win5_2.index tt (0 : Fin 2) * 128 + 128
      rw [e4]; omega
    | ⟨1, _⟩ =>
      show win5_2.index tt (1 : Fin 2) * 32 ≤ (i 1).val ∧ (i 1).val < win5_2.index tt (1 : Fin 2) * 32 + 32
      rw [e5]; omega

/-- Likewise the [128, 1] array of counts ends at the reference's counts as a column. -/
theorem counts (c : Dev nD) :
    (dat5 V c).arrAt 3 cfg5.N = broadcastInDim Cert.ReferenceIdeal.S128x1 ![0] Cert.ReferenceIdeal.Facts₀.bcast_S128_S128x1_0 (Cert.Spec.poolCntCol (F := Ideal) (V c main_v84)) :=
  (dat5 V c).arrAt_eq_of_cover 3 _ (fun t hf => cnts_flushed V c t hf) fun i => by
    have hi0 : (i 0).val < 128 := (i 0).isLt
    have hi1 : (i 1).val < 1 := (i 1).isLt
    have hN : cfg5.N = 10 := N_5
    obtain ⟨tt, htv⟩ : ∃ tt : Fin cfg5.N, tt.val = 9 := ⟨⟨9, by rw [hN]; omega⟩, rfl⟩
    refine ⟨tt, (flush5_3 tt).mpr (by rw [htv]), ?_⟩
    obtain ⟨e0, e1, e2, e3, e4, e5, e6, e7⟩ := idx tt
    show i ∈ ((View.whole main_v85_1).slice (win5_3.rect tt)).set
    rw [View.set_slice_whole, Rect.mem_set_unit]
    intro a
    match a with
    | ⟨0, _⟩ =>
      show win5_3.index tt (0 : Fin 2) * 128 ≤ (i 0).val ∧ (i 0).val < win5_3.index tt (0 : Fin 2) * 128 + 128
      rw [e6]; omega
    | ⟨1, _⟩ =>
      show win5_3.index tt (1 : Fin 2) * 1 ≤ (i 1).val ∧ (i 1).val < win5_3.index tt (1 : Fin 2) * 1 + 1
      rw [e7]; omega

end Region

end Cert.KernelIdeal.Hand.R5

end
-- ==== Proof.Reg6.lean ====
/-
  Region 6 (the graph head): the one grid point reads the pooled features g [128,32], the weights Wg1 [32,32] and Wg2 [32,2]
  and the bias rows bg1 [1,32] and bg2 [1,2] whole, and writes back, entry by entry,
  2 pi * logistic(max(g Wg1 + bg1, 0) Wg2 + bg2); its one block is the whole output array, so after the region the output
  holds the reference's graph head of the five arrays.
-/
import proofs.«426142_j41875931136205_1_alg».proof.Proof.Gen.KernelIdeal.Frame
import proofs.«426142_j41875931136205_1_alg».proof.Proof.Spec
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand.R6

open Cert.KernelIdeal Cert.KernelIdeal.Gen

/-- The dimension numbers of the two matrix products ([128,32] by [32,32], then [128,32] by [32,2]; axis 1 of the left factor
    is contracted with axis 0 of the right one), as the kernel's program and as the reference's program name them. -/
abbrev DK1 : DotDims S128x32 S32x32 S128x32 := Cert.KernelIdeal.dot_S128x32_S32x32_S128x32_1_0_0_1_n_n
abbrev DR1 : DotDims S128x32 S32x32 S128x32 := Cert.ReferenceIdeal.dot_S128x32_S32x32_S128x32_1_0_0_1_n_n
abbrev DK2 : DotDims S128x32 S32x2 S128x2 := Cert.KernelIdeal.dot_S128x32_S32x2_S128x2_1_0_0_1_n_n
abbrev DR2 : DotDims S128x32 S32x2 S128x2 := Cert.ReferenceIdeal.dot_S128x32_S32x2_S128x2_1_0_0_1_n_n

/-- The first product: the kernel's matrix product into the zero splat and the reference's product are, entry by entry, the
    same sum over the 32 inner positions (the format change of the factors is the identity). -/
theorem mm1 (x : FVec Ideal S128x32 .f32) (W : FVec Ideal S32x32 .f32) :
    matmul DK1 none (truncf .bf16 x bitsLt_bf16_f32) (truncf .bf16 W bitsLt_bf16_f32) (constant S128x32 .f32 0x00000000#32)
      = Host.dotGeneral (F := Ideal) DR1 none x W := by
  funext j
  refine (Ideal.matmul_constant_zero_apply DK1 none _ _ j).trans ?_
  refine Eq.trans ?_ (Ideal.dotGeneral_apply DR1 none .single x W j).symm
  rw [← Equiv.sum_comp (contrEquiv1 DK1 32 rfl rfl).symm, ← Equiv.sum_comp (contrEquiv1 DR1 32 rfl rfl).symm]
  refine Finset.sum_congr rfl fun k _ => ?_
  show x _ * W _ = x _ * W _
  congr 1

/-- The second product likewise, into two columns. -/
theorem mm2 (x : FVec Ideal S128x32 .f32) (W : FVec Ideal S32x2 .f32) :
    matmul DK2 none (truncf .bf16 x bitsLt_bf16_f32) (truncf .bf16 W bitsLt_bf16_f32) (constant S128x2 .f32 0x00000000#32)
      = Host.dotGeneral (F := Ideal) DR2 none x W := by
  funext j
  refine (Ideal.matmul_constant_zero_apply DK2 none _ _ j).trans ?_
  refine Eq.trans ?_ (Ideal.dotGeneral_apply DR2 none .single x W j).symm
  rw [← Equiv.sum_comp (contrEquiv1 DK2 32 rfl rfl).symm, ← Equiv.sum_comp (contrEquiv1 DR2 32 rfl rfl).symm]
  refine Finset.sum_congr rfl fun k _ => ?_
  show x _ * W _ = x _ * W _
  congr 1

/-- A bias row of 32 entries spread over the 128 rows: the kernel's broadcast is the reference's. -/
theorem row1 (b : FVec Ideal S1x32 .f32) :
    broadcastTo S128x32 b broadcasts_S1x32_S128x32 = broadcastInDim S128x32 ![0, 1] Cert.ReferenceIdeal.Facts₀.bcast_S1x32_S128x32_0_1 b := by
  funext j
  have hj1 : (j 1).val < 32 := (j 1).isLt
  refine (broadcastTo_apply _ _ _ (ix2 (0 : Fin 1) (⟨(j 1).val, hj1⟩ : Fin 32)) fun a => ?_).trans
    (broadcastInDim_apply _ _ _ _ (ix2 (0 : Fin 1) (⟨(j 1).val, hj1⟩ : Fin 32)) fun a => ?_).symm
  · match a with
    | ⟨0, _⟩ => rfl
    | ⟨1, _⟩ => rfl
  · match a with
    | ⟨0, _⟩ => rfl
    | ⟨1, _⟩ => rfl

/-- A bias row of 2 entries spread over the 128 rows likewise. -/
theorem row2 (b : FVec Ideal S1x2 .f32) :
    broadcastTo S128x2 b broadcasts_S1x2_S128x2 = broadcastInDim S128x2 ![0, 1] Cert.ReferenceIdeal.Facts₀.bcast_S1x2_S128x2_0_1 b := by
  funext j
  have hj1 : (j 1).val < 2 := (j 1).isLt
  refine (broadcastTo_apply _ _ _ (ix2 (0 : Fin 1) (⟨(j 1).val, hj1⟩ : Fin 2)) fun a => ?_).trans
    (broadcastInDim_apply _ _ _ _ (ix2 (0 : Fin 1) (⟨(j 1).val, hj1⟩ : Fin 2)) fun a => ?_).symm
  · match a with
    | ⟨0, _⟩ => rfl
    | ⟨1, _⟩ => rfl
  · match a with
    | ⟨0, _⟩ => rfl
    | ⟨1, _⟩ => rfl

/-- The logistic: the kernel's one operation is the reference's quotient 1 / (1 + exp(-v)), the pattern 0x3F800000 being one. -/
theorem logi (v : FVec Ideal S128x2 .f32) :
    logistic v = Host.divf (broadcastInDim S128x2 ![] Cert.ReferenceIdeal.Facts₀.bcast_S_S128x2 (constant (F := Ideal) S_ .f32 0x3F800000#32))
      (addf (broadcastInDim S128x2 ![] Cert.ReferenceIdeal.Facts₀.bcast_S_S128x2 (constant (F := Ideal) S_ .f32 0x3F800000#32)) (Host.exp (Host.negf v))) := by
  funext j
  show Ideal.logistic (v j) = Ideal.div (Ideal.ofBits .f32 0x3F800000#32) (Ideal.ofBits .f32 0x3F800000#32 + Ideal.exp (-(v j)))
  rw [Ideal.ofBits_one_f32]
  rfl

/-- The kernel's stored value is the graph head of its five operands: product, bias row, clamp at zero, product, bias row,
    logistic, times 2 pi, each step the reference's own. -/
theorem pay (x0 : Vec Ideal S128x32 .f32) (x1 : Vec Ideal S32x32 .f32) (x2 : Vec Ideal S1x32 .f32) (x3 : Vec Ideal S32x2 .f32) (x4 : Vec Ideal S1x2 .f32) :
    k6_pay1 x0 x1 x2 x3 x4 = Cert.Spec.bgOf (F := Ideal) x0 x1 x2 x3 x4 := by
  unfold k6_pay1 Cert.Spec.bgOf
  show mulf (broadcast S128x2 (Scalar.ofBits (F := Ideal) .f32 0x40C90FDB#32)) (logistic (addf (matmul DK2 none (truncf .bf16 (maximumf (addf (matmul DK1 none (truncf .bf16 (shapeCast S128x32 x0 shapeCasts_S128x32_S128x32) bitsLt_bf16_f32) (truncf .bf16 x1 bitsLt_bf16_f32) (constant S128x32 .f32 0x00000000#32)) (broadcastTo S128x32 (shapeCast S1x32 x2 shapeCasts_S1x32_S1x32) broadcasts_S1x32_S128x32)) (broadcast S128x32 (Scalar.ofBits (F := Ideal) .f32 0x00000000#32))) bitsLt_bf16_f32) (truncf .bf16 x3 bitsLt_bf16_f32) (constant S128x2 .f32 0x00000000#32)) (broadcastTo S128x2 (shapeCast S1x2 x4 shapeCasts_S1x2_S1x2) broadcasts_S1x2_S128x2))) = _
  rw [shapeCast_self, shapeCast_self, shapeCast_self, mm1, row1, mm2, row2, logi]
  rfl

variable (V : (c : Dev nD) → (b : Ref sig .tc) → Buf (Elt Ideal) ((c : Thread nD τ).loc b))

theorem hz : (![0, 0] : Fin 2 → Nat) = fun _ => 0 := funext fun a => by fin_cases a <;> rfl

/-- The index maps at the one grid point: every window sits at block (0, 0), its whole array. -/
theorem idx : ∀ t : Fin cfg6.N, win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0 :=
  (by decide +kernel : ∀ t : Fin grid6.N, _)

/-- Window 0's block is the whole pooled feature matrix. -/
theorem blk0 (c : Dev nD) (t : Fin cfg6.N) : (iblk6 V c 0 t : Vec Ideal S128x32 .f32) = V c main_v89 := by
  obtain ⟨e0, e1, -⟩ := idx t
  funext y
  unfold iblk6
  rw [View.read_apply]
  show V c main_v89 (((cfg6.win 0).blk t).view.emb y) = V c main_v89 y
  congr 1
  funext a
  apply Fin.ext
  match a with
  | ⟨0, _⟩ => show win6_0.index t (0 : Fin 2) * 128 + 1 * (y 0).val = (y 0).val; rw [e0]; omega
  | ⟨1, _⟩ => show win6_0.index t (1 : Fin 2) * 32 + 1 * (y 1).val = (y 1).val; rw [e1]; omega

/-- Window 1's block is the whole first weight matrix. -/
theorem blk1 (c : Dev nD) (t : Fin cfg6.N) : (iblk6 V c 1 t : Vec Ideal S32x32 .f32) = V c main_arg13 := by
  obtain ⟨-, -, e0, e1, -⟩ := idx t
  funext y
  unfold iblk6
  rw [View.read_apply]
  show V c main_arg13 (((cfg6.win 1).blk t).view.emb y) = V c main_arg13 y
  congr 1
  funext a
  apply Fin.ext
  match a with
  | ⟨0, _⟩ => show win6_1.index t (0 : Fin 2) * 32 + 1 * (y 0).val = (y 0).val; rw [e0]; omega
  | ⟨1, _⟩ => show win6_1.index t (1 : Fin 2) * 32 + 1 * (y 1).val = (y 1).val; rw [e1]; omega

/-- Window 2's block is the whole first bias row. -/
theorem blk2 (c : Dev nD) (t : Fin cfg6.N) : (iblk6 V c 2 t : Vec Ideal S1x32 .f32) = V c main_v37 := by
  obtain ⟨-, -, -, -, e0, e1, -⟩ := idx t
  funext y
  unfold iblk6
  rw [View.read_apply]
  show V c main_v37 (((cfg6.win 2).blk t).view.emb y) = V c main_v37 y
  congr 1
  funext a
  apply Fin.ext
  match a with
  | ⟨0, _⟩ => show win6_2.index t (0 : Fin 2) * 1 + 1 * (y 0).val = (y 0).val; rw [e0]; omega
  | ⟨1, _⟩ => show win6_2.index t (1 : Fin 2) * 32 + 1 * (y 1).val = (y 1).val; rw [e1]; omega

/-- Window 3's block is the whole second weight matrix. -/
theorem blk3 (c : Dev nD) (t : Fin cfg6.N) : (iblk6 V c 3 t : Vec Ideal S32x2 .f32) = V c main_arg15 := by
  obtain ⟨-, -, -, -, -, -, e0, e1, -⟩ := idx t
  funext y
  unfold iblk6
  rw [View.read_apply]
  show V c main_arg15 (((cfg6.win 3).blk t).view.emb y) = V c main_arg15 y
  congr 1
  funext a
  apply Fin.ext
  match a with
  | ⟨0, _⟩ => show win6_3.index t (0 : Fin 2) * 32 + 1 * (y 0).val = (y 0).val; rw [e0]; omega
  | ⟨1, _⟩ => show win6_3.index t (1 : Fin 2) * 2 + 1 * (y 1).val = (y 1).val; rw [e1]; omega

/-- Window 4's block is the whole second bias row. -/
theorem blk4 (c : Dev nD) (t : Fin cfg6.N) : (iblk6 V c 4 t : Vec Ideal S1x2 .f32) = V c main_v38 := by
  obtain ⟨-, -, -, -, -, -, -, -, e0, e1, -⟩ := idx t
  funext y
  unfold iblk6
  rw [View.read_apply]
  show V c main_v38 (((cfg6.win 4).blk t).view.emb y) = V c main_v38 y
  congr 1
  funext a
  apply Fin.ext
  match a with
  | ⟨0, _⟩ => show win6_4.index t (0 : Fin 2) * 1 + 1 * (y 0).val = (y 0).val; rw [e0]; omega
  | ⟨1, _⟩ => show win6_4.index t (1 : Fin 2) * 2 + 1 * (y 1).val = (y 1).val; rw [e1]; omega

/-- What the one point writes back is the whole graph head of the five arrays. -/
theorem flushed (c : Dev nD) (t : Fin cfg6.N) :
    (dat6 V c).flushed 5 t = ((cfg6.win 5).blk t).view.read (Elt Ideal) (Cert.Spec.bgOf (F := Ideal) (V c main_v89) (V c main_arg13) (V c main_v37) (V c main_arg15) (V c main_v38)) := by
  show (cfg6.win 5).cut (grid6.coords t) ((dat6 V c).after 5 t) = _
  rw [after6_5]
  unfold out6_5
  rw [View.canon_unit_zero hz]
  simp only [View.ld_unit_zero (S := S128x32) hz, View.ld_unit_zero (S := S32x32) hz, View.ld_unit_zero (S := S1x32) hz,
    View.ld_unit_zero (S := S32x2) hz, View.ld_unit_zero (S := S1x2) hz]
  rw [pay (iblk6 V c 0 t) (iblk6 V c 1 t) (iblk6 V c 2 t) (iblk6 V c 3 t) (iblk6 V c 4 t),
    blk0 V c t, blk1 V c t, blk2 V c t, blk3 V c t, blk4 V c t]
  obtain ⟨-, -, -, -, -, -, -, -, -, -, e0, e1⟩ := idx t
  funext j
  rw [View.read_apply]
  show Cert.Spec.bgOf (F := Ideal) _ _ _ _ _ _ = Cert.Spec.bgOf (F := Ideal) _ _ _ _ _ _
  congr 1
  funext a
  apply Fin.ext
  match a with
  | ⟨0, _⟩ => show (j 0).val = win6_5.index t (0 : Fin 2) * 128 + 1 * (j 0).val; rw [e0]; omega
  | ⟨1, _⟩ => show (j 1).val = win6_5.index t (1 : Fin 2) * 2 + 1 * (j 1).val; rw [e1]; omega

/-- The one block is the whole output, so after the region it holds the graph head everywhere. -/
theorem array (c : Dev nD) :
    (dat6 V c).arrAt 5 cfg6.N = Cert.Spec.bgOf (F := Ideal) (V c main_v89) (V c main_arg13) (V c main_v37) (V c main_arg15) (V c main_v38) :=
  (dat6 V c).arrAt_eq_of_cover 5 _ (fun t _ => flushed V c t) fun i => by
    have hi0 : (i 0).val < 128 := (i 0).isLt
    have hi1 : (i 1).val < 2 := (i 1).isLt
    have hN : cfg6.N = 1 := N_6
    have htt : 0 < cfg6.N := by rw [hN]; omega
    obtain ⟨tt, htv⟩ : ∃ tt : Fin cfg6.N, tt.val = 0 := ⟨⟨0, htt⟩, rfl⟩
    refine ⟨tt, flush6_5 tt, ?_⟩
    obtain ⟨-, -, -, -, -, -, -, -, -, -, e0, e1⟩ := idx tt
    show i ∈ ((View.whole main_v90).slice (win6_5.rect tt)).set
    rw [View.set_slice_whole, Rect.mem_set_unit]
    intro a
    match a with
    | ⟨0, _⟩ =>
      show win6_5.index tt (0 : Fin 2) * 128 ≤ (i 0).val ∧ (i 0).val < win6_5.index tt (0 : Fin 2) * 128 + 128
      rw [e0]; omega
    | ⟨1, _⟩ =>
      show win6_5.index tt (1 : Fin 2) * 2 ≤ (i 1).val ∧ (i 1).val < win6_5.index tt (1 : Fin 2) * 2 + 2
      rw [e1]; omega

end Cert.KernelIdeal.Hand.R6

end
-- ==== Proof.Glue.lean ====
/-
  The host stretches between the kernel regions, read as the stage functions of the reference.
  Before region 0: the edge end points (row 0 / row 1 of the edge list, then every node once), the edge weights
  dinv[src] * dinv[dst] (the in-degree by adding ones into the destinations, deg^(-1/2) where it is positive, gathered
  at both end points), and each bias vector as a one-row matrix (the reshape [n] → [1, n] and the broadcast along
  dimension 1 have the same entries (0, k) ↦ b k).
  Before regions 1, 2, 3: one aggregation (gather the projected rows at the sources, scale by the edge weights,
  add into the destinations). Before region 5: the node head's column as a vector and the graph ids as a column
  (the reshape [n] → [n, 1] and the broadcast along dimension 0 have the same entries (n, 0) ↦ x n).
  Before region 6: the pooled sums divided by max(count, 1).
-/
import proofs.«426142_j41875931136205_1_alg».proof.Proof.Gen.KernelIdeal.Frame
import proofs.«426142_j41875931136205_1_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Idealize.ShloMosaic.StableHlo

namespace Cert.KernelIdeal.Hand

open Cert.KernelIdeal Cert.KernelIdeal.Gen

variable (m : (ℓ : Loc nD τ sig) → Buf (Elt Ideal) ℓ) (ρ : Dev nD → PrngReg) (c : Dev nD)

/-- A vector [a] as a one-row matrix: the reshape to [1, a] and the broadcast along dimension 1 both have entry (0, k) ↦ x k. -/
theorem row_cast_eq_bcast {α : Type} {a : ℕ} (x : (⟨1, ![a]⟩ : Shape).Idx → α)
    (h : (⟨1, ![a]⟩ : Shape).ShapeCasts ⟨2, ![1, a]⟩)
    (h' : (⟨1, ![a]⟩ : Shape).BroadcastsInDim ⟨2, ![1, a]⟩ ![1]) :
    shapeCast ⟨2, ![1, a]⟩ x h = broadcastInDim ⟨2, ![1, a]⟩ ![1] h' x := by
  funext j
  have hj0 : (j 0).val < 1 := (j 0).isLt
  have hj1 : (j 1).val < a := (j 1).isLt
  refine (shapeCast_apply x h j (ix1 (j 1)) ?_).trans (broadcastInDim_apply _ _ _ j (ix1 (j 1)) fun d => ?_).symm
  · rw [Shape.rowMajor_val_two, Shape.rowMajor_val_one]
    show (j 1).val = (j 0).val * a + (j 1).val
    have h0 : (j 0).val = 0 := by omega
    rw [h0]; omega
  · match d with
    | ⟨0, _⟩ =>
      show (j 1).val = if a = 1 then 0 else (j 1).val
      split <;> omega

/-- A vector [a] as a one-column matrix: the reshape to [a, 1] and the broadcast along dimension 0 both have entry (n, 0) ↦ x n. -/
theorem col_cast_eq_bcast {α : Type} {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ ![0]) :
    shapeCast ⟨2, ![a, 1]⟩ x h = broadcastInDim ⟨2, ![a, 1]⟩ ![0] h' x := by
  funext j
  have hj0 : (j 0).val < a := (j 0).isLt
  have hj1 : (j 1).val < 1 := (j 1).isLt
  refine (shapeCast_apply x h j (ix1 (j 0)) ?_).trans (broadcastInDim_apply _ _ _ j (ix1 (j 0)) fun d => ?_).symm
  · rw [Shape.rowMajor_val_two, Shape.rowMajor_val_one]
    show (j 0).val = (j 0).val * 1 + (j 1).val
    omega
  · match d with
    | ⟨0, _⟩ =>
      show (j 0).val = if a = 1 then 0 else (j 0).val
      split <;> omega

section Stretch

variable (V : Valuation τ sig (Elt Ideal))

/-- The first stretch builds the edge sources from the edge list: row 0, then every node once. -/
theorem s0_src : StableHlo.after hostOps0 V (Proc.devRef .tc main_v3) = Cert.Spec.srcIds (V (Proc.devRef .tc main_arg1)) := by
  after_results
  unfold Cert.Spec.srcIds
  rfl

/-- The first stretch builds the edge destinations from the edge list: row 1, then every node once. -/
theorem s0_dst : StableHlo.after hostOps0 V (Proc.devRef .tc main_v6) = Cert.Spec.dstIds (V (Proc.devRef .tc main_arg1)) := by
  after_results
  unfold Cert.Spec.dstIds
  rfl

set_option maxHeartbeats 1000000 in
/-- The first stretch's mask: where the in-degree (ones added into the destinations) is positive. -/
theorem s0_pos : StableHlo.after hostOps0 V (Proc.devRef .tc main_v12)
    = cmpf (F := Ideal) (φ := .f32) .ogt (Cert.Spec.degOf (F := Ideal) (Cert.Spec.dstIds (V (Proc.devRef .tc main_arg1))))
        (broadcastInDim S100000 ![] Facts₀.bcast_S_S100000 (constant (F := Ideal) S_ .f32 0x00000000#32)) := by
  after_results_simp
  repeat (first
    | rw [nullary_result] | rw [unary_result] | rw [reshape_result]
    | (rw [nullary_result_ne]; rotate_left; decide)
    | (rw [unary_result_ne]; rotate_left; decide)
    | (rw [binary_result_ne]; rotate_left; decide)
    | (rw [reshape_result_ne]; rotate_left; decide))
  unfold Cert.Spec.degOf Cert.Spec.idCol Cert.Spec.dstIds
  rfl

set_option maxHeartbeats 1000000 in
/-- The first stretch's reciprocal square root of max(in-degree, 1). -/
theorem s0_rs : StableHlo.after hostOps0 V (Proc.devRef .tc main_v15)
    = Host.rsqrt (F := Ideal) (φ := .f32) (maximumf (F := Ideal) (φ := .f32) (Cert.Spec.degOf (F := Ideal) (Cert.Spec.dstIds (V (Proc.devRef .tc main_arg1))))
        (broadcastInDim S100000 ![] Facts₀.bcast_S_S100000 (constant (F := Ideal) S_ .f32 0x3F800000#32))) := by
  after_results_simp
  repeat (first
    | rw [nullary_result] | rw [unary_result] | rw [reshape_result]
    | (rw [nullary_result_ne]; rotate_left; decide)
    | (rw [unary_result_ne]; rotate_left; decide)
    | (rw [binary_result_ne]; rotate_left; decide)
    | (rw [reshape_result_ne]; rotate_left; decide))
  unfold Cert.Spec.degOf Cert.Spec.idCol Cert.Spec.dstIds
  rfl

/-- The first stretch's last constant: zero. -/
theorem s0_cst : StableHlo.after hostOps0 V (Proc.devRef .tc main_cst_3) = constant (F := Ideal) S_ .f32 0x00000000#32 := by
  after_results

/-- The outlined select: the reciprocal square root where the mask holds, zero elsewhere. -/
theorem s1_where : StableHlo.after hostOps0_1 V (Proc.devRef .tc main_v16)
    = select (V (Proc.devRef .tc main_v12)) (V (Proc.devRef .tc main_v15))
        (broadcastInDim S100000 ![] Facts₀.bcast_S_S100000 (id (V (Proc.devRef .tc main_cst_3)))) := by
  after_results
  rfl

/-- The outlined select leaves the end points where the first stretch put them. -/
theorem s1_src : StableHlo.after hostOps0_1 V (Proc.devRef .tc main_v3) = V (Proc.devRef .tc main_v3) := by
  after_results

theorem s1_dst : StableHlo.after hostOps0_1 V (Proc.devRef .tc main_v6) = V (Proc.devRef .tc main_v6) := by
  after_results

set_option maxHeartbeats 4000000 in
/-- The third stretch gathers deg^(-1/2) at both end points of every edge and multiplies. -/
theorem s2_norm : StableHlo.after hostOps0_2 V (Proc.devRef .tc main_v31)
    = mulf (F := Ideal) (φ := .f32) (Host.gather gather_S100000_S3300000x1_S3300000_n_0_n_n_0_1_1 (V (Proc.devRef .tc main_v16)) (Cert.Spec.wrapCol (F := Ideal) (V (Proc.devRef .tc main_v3))))
        (Host.gather gather_S100000_S3300000x1_S3300000_n_0_n_n_0_1_1 (V (Proc.devRef .tc main_v16)) (Cert.Spec.wrapCol (F := Ideal) (V (Proc.devRef .tc main_v6)))) := by
  after_results_simp
  unfold Cert.Spec.wrapCol
  rfl

end Stretch

theorem src_eq : W3 m ρ c (Proc.devRef .tc main_v3) = Cert.Spec.srcIds (m ((c : Thread nD τ).loc main_arg1)) := by
  show StableHlo.after hostOps0_2 (StableHlo.after hostOps0_1 (StableHlo.after hostOps0 (W0 m ρ c))) (Proc.devRef .tc main_v3) = _
  after_results
  unfold Cert.Spec.srcIds
  rfl

theorem dst_eq : W3 m ρ c (Proc.devRef .tc main_v6) = Cert.Spec.dstIds (m ((c : Thread nD τ).loc main_arg1)) := by
  show StableHlo.after hostOps0_2 (StableHlo.after hostOps0_1 (StableHlo.after hostOps0 (W0 m ρ c))) (Proc.devRef .tc main_v6) = _
  after_results
  unfold Cert.Spec.dstIds
  rfl

theorem b1_eq : W3 m ρ c (Proc.devRef .tc main_v32) = Cert.Spec.rowOf (m ((c : Thread nD τ).loc main_arg4)) := by
  show StableHlo.after hostOps0_2 (StableHlo.after hostOps0_1 (StableHlo.after hostOps0 (W0 m ρ c))) (Proc.devRef .tc main_v32) = _
  after_results
  exact row_cast_eq_bcast _ _ _

theorem b2_eq : W3 m ρ c (Proc.devRef .tc main_v33) = Cert.Spec.rowOf (m ((c : Thread nD τ).loc main_arg6)) := by
  show StableHlo.after hostOps0_2 (StableHlo.after hostOps0_1 (StableHlo.after hostOps0 (W0 m ρ c))) (Proc.devRef .tc main_v33) = _
  after_results
  exact row_cast_eq_bcast _ _ _

theorem b3_eq : W3 m ρ c (Proc.devRef .tc main_v34) = Cert.Spec.rowOf (m ((c : Thread nD τ).loc main_arg8)) := by
  show StableHlo.after hostOps0_2 (StableHlo.after hostOps0_1 (StableHlo.after hostOps0 (W0 m ρ c))) (Proc.devRef .tc main_v34) = _
  after_results
  exact row_cast_eq_bcast _ _ _

theorem bt1_eq : W3 m ρ c (Proc.devRef .tc main_v35) = Cert.Spec.rowOf (m ((c : Thread nD τ).loc main_arg10)) := by
  show StableHlo.after hostOps0_2 (StableHlo.after hostOps0_1 (StableHlo.after hostOps0 (W0 m ρ c))) (Proc.devRef .tc main_v35) = _
  after_results
  exact row_cast_eq_bcast _ _ _

theorem bt2_eq : W3 m ρ c (Proc.devRef .tc main_v36) = Cert.Spec.rowOf1 (m ((c : Thread nD τ).loc main_arg12)) := by
  show StableHlo.after hostOps0_2 (StableHlo.after hostOps0_1 (StableHlo.after hostOps0 (W0 m ρ c))) (Proc.devRef .tc main_v36) = _
  after_results
  exact row_cast_eq_bcast _ _ _

theorem bg1_eq : W3 m ρ c (Proc.devRef .tc main_v37) = Cert.Spec.rowOf (m ((c : Thread nD τ).loc main_arg14)) := by
  show StableHlo.after hostOps0_2 (StableHlo.after hostOps0_1 (StableHlo.after hostOps0 (W0 m ρ c))) (Proc.devRef .tc main_v37) = _
  after_results
  exact row_cast_eq_bcast _ _ _

theorem bg2_eq : W3 m ρ c (Proc.devRef .tc main_v38) = Cert.Spec.rowOf2 (m ((c : Thread nD τ).loc main_arg16)) := by
  show StableHlo.after hostOps0_2 (StableHlo.after hostOps0_1 (StableHlo.after hostOps0 (W0 m ρ c))) (Proc.devRef .tc main_v38) = _
  after_results
  exact row_cast_eq_bcast _ _ _

theorem agg1_eq : W5 m ρ c (Proc.devRef .tc main_v52) = Cert.Spec.aggOf (W4 m ρ c (Proc.devRef .tc main_v3)) (W4 m ρ c (Proc.devRef .tc main_v6)) (W4 m ρ c (Proc.devRef .tc main_v31)) (W4 m ρ c (Proc.devRef .tc main_v39)) := by
  show StableHlo.after hostOps1 (W4 m ρ c) (Proc.devRef .tc main_v52) = _
  after_results_simp
  unfold Cert.Spec.aggOf Cert.Spec.idCol Cert.Spec.wrapCol Cert.Spec.zeroNodes
  rfl

theorem agg2_eq : W7 m ρ c (Proc.devRef .tc main_v66) = Cert.Spec.aggOf (W6 m ρ c (Proc.devRef .tc main_v3)) (W6 m ρ c (Proc.devRef .tc main_v6)) (W6 m ρ c (Proc.devRef .tc main_v31)) (W6 m ρ c (Proc.devRef .tc main_v53)) := by
  show StableHlo.after hostOps2 (W6 m ρ c) (Proc.devRef .tc main_v66) = _
  after_results_simp
  unfold Cert.Spec.aggOf Cert.Spec.idCol Cert.Spec.wrapCol Cert.Spec.zeroNodes
  rfl

theorem agg3_eq : W9 m ρ c (Proc.devRef .tc main_v80) = Cert.Spec.aggOf (W8 m ρ c (Proc.devRef .tc main_v3)) (W8 m ρ c (Proc.devRef .tc main_v6)) (W8 m ρ c (Proc.devRef .tc main_v31)) (W8 m ρ c (Proc.devRef .tc main_v67)) := by
  show StableHlo.after hostOps3 (W8 m ρ c) (Proc.devRef .tc main_v80) = _
  after_results_simp
  unfold Cert.Spec.aggOf Cert.Spec.idCol Cert.Spec.wrapCol Cert.Spec.zeroNodes
  rfl

theorem theta_eq : W12 m ρ c (Proc.devRef .tc main_v83) = shapeCast S100000 (W11 m ρ c (Proc.devRef .tc main_v82)) Facts₀.shapeCasts_S100000x1_S100000 := by
  show StableHlo.after hostOps5 (W11 m ρ c) (Proc.devRef .tc main_v83) = _
  after_results
  rfl

theorem bcol_eq : W12 m ρ c (Proc.devRef .tc main_v84) = Cert.Spec.batchCol (W11 m ρ c (Proc.devRef .tc main_arg2)) := by
  show StableHlo.after hostOps5 (W11 m ρ c) (Proc.devRef .tc main_v84) = _
  after_results
  exact col_cast_eq_bcast _ _ _

theorem gemb_eq : W14 m ρ c (Proc.devRef .tc main_v89) = Host.divf (W13 m ρ c (Proc.devRef .tc main_v85_0)) (broadcastInDim S128x32 ![0, 1] Facts₀.bcast_S128x1_S128x32_0_1 (maximumf (W13 m ρ c (Proc.devRef .tc main_v85_1)) (broadcastInDim S128x1 ![] Facts₀.bcast_S_S128x1 (constant (F := Ideal) S_ .f32 0x3F800000#32)))) := by
  show StableHlo.after hostOps6 (W13 m ρ c) (Proc.devRef .tc main_v89) = _
  after_results

theorem norm_eq : W3 m ρ c (Proc.devRef .tc main_v31) = Cert.Spec.normOf (Cert.Spec.srcIds (m ((c : Thread nD τ).loc main_arg1))) (Cert.Spec.dstIds (m ((c : Thread nD τ).loc main_arg1))) := by
  have h16 : W2 m ρ c (Proc.devRef .tc main_v16) = Cert.Spec.dinvOf (Cert.Spec.dstIds (m ((c : Thread nD τ).loc main_arg1))) := by
    show StableHlo.after hostOps0_1 (StableHlo.after hostOps0 (W0 m ρ c)) (Proc.devRef .tc main_v16) = _
    rw [s1_where, s0_pos, s0_rs, s0_cst]
    rfl
  have h3 : W2 m ρ c (Proc.devRef .tc main_v3) = Cert.Spec.srcIds (m ((c : Thread nD τ).loc main_arg1)) := (s1_src (W1 m ρ c)).trans (s0_src (W0 m ρ c))
  have h6 : W2 m ρ c (Proc.devRef .tc main_v6) = Cert.Spec.dstIds (m ((c : Thread nD τ).loc main_arg1)) := (s1_dst (W1 m ρ c)).trans (s0_dst (W0 m ρ c))
  show StableHlo.after hostOps0_2 (W2 m ρ c) (Proc.devRef .tc main_v31) = _
  rw [s2_norm, h16, h3, h6]
  rfl

end Cert.KernelIdeal.Hand

end
-- ==== Proof.Pass.lean ====
/-
  What the run's segments leave alone. A host stretch rewrites only the result buffers of its operations, and a region
  rewrites only its output arrays: any other buffer, and every input array of a region, holds after the segment what it
  held before. Chained from region 0's entry (or from the launch, for the arguments), this gives the contents of the
  index vectors, the edge weights, the bias rows and the weight arguments at every boundary where a later stage reads them.
-/
import proofs.«426142_j41875931136205_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.Hand

open Cert.KernelIdeal Cert.KernelIdeal.Gen

variable {F : FTy → Type} [FloatOps F] (m : (ℓ : Loc nD τ sig) → Buf (Elt F) ℓ) (ρ : Dev nD → PrngReg) (c : Dev nD)

/-! ## A host stretch: only its operations' result buffers change -/

/-- Every operation of the stretch writes one buffer, its result, and that result is in the given list of references. -/
macro "results_listed " ops:ident : tactic => `(tactic| (
  simp only [$ops:ident, List.Forall, StableHlo.nullary_writes, StableHlo.unary_writes, StableHlo.binary_writes,
    StableHlo.ternary_writes, StableHlo.reshape_writes]
  repeat' apply And.intro
  all_goals exact Finset.singleton_subset_iff.mpr (List.mem_toFinset.mpr (List.mem_map.mpr ⟨_, by decide, rfl⟩))))

/-- The results of `hostOps0`. -/
abbrev res1 : List (Ref sig .tc) :=
  [main_v0, main_v1, main_v2, main_v3, main_v4, main_v5, main_v6, main_cst, main_v7, main_cst_0, main_v8,
      main_v9, main_v10, main_cst_1, main_v11, main_v12, main_cst_2, main_v13, main_v14, main_v15, main_cst_3]
/-- A buffer that is no result of `hostOps0` holds after it what it held before. -/
theorem keep1 (b : Ref sig .tc) (hb : b ∉ res1) :
    W1 m ρ c (Proc.devRef .tc b) = W0 m ρ c (Proc.devRef .tc b) :=
  StableHlo.after_of_writes_sub hostOps0 (W0 m ρ c) (by results_listed hostOps0) hb

/-- The results of `hostOps0_1`. -/
abbrev res2 : List (Ref sig .tc) :=
  [main_call0_v0, main_call0_v1, main_v16]
/-- A buffer that is no result of `hostOps0_1` holds after it what it held before. -/
theorem keep2 (b : Ref sig .tc) (hb : b ∉ res2) :
    W2 m ρ c (Proc.devRef .tc b) = W1 m ρ c (Proc.devRef .tc b) :=
  StableHlo.after_of_writes_sub hostOps0_1 (W1 m ρ c) (by results_listed hostOps0_1) hb

/-- The results of `hostOps0_2`. -/
abbrev res3 : List (Ref sig .tc) :=
  [main_c, main_v17, main_v18, main_c_4, main_v19, main_v20, main_v21, main_v22, main_v23, main_c_5,
      main_v24, main_v25, main_c_6, main_v26, main_v27, main_v28, main_v29, main_v30, main_v31, main_v32,
      main_v33, main_v34, main_v35, main_v36, main_v37, main_v38]
/-- A buffer that is no result of `hostOps0_2` holds after it what it held before. -/
theorem keep3 (b : Ref sig .tc) (hb : b ∉ res3) :
    W3 m ρ c (Proc.devRef .tc b) = W2 m ρ c (Proc.devRef .tc b) :=
  StableHlo.after_of_writes_sub hostOps0_2 (W2 m ρ c) (by results_listed hostOps0_2) hb

/-- The results of `hostOps1`. -/
abbrev res5 : List (Ref sig .tc) :=
  [main_c_7, main_v40, main_v41, main_c_8, main_v42, main_v43, main_v44, main_v45, main_v46, main_v47,
      main_v48, main_v49, main_cst_9, main_v50, main_v51, main_v52]
/-- A buffer that is no result of `hostOps1` holds after it what it held before. -/
theorem keep5 (b : Ref sig .tc) (hb : b ∉ res5) :
    W5 m ρ c (Proc.devRef .tc b) = W4 m ρ c (Proc.devRef .tc b) :=
  StableHlo.after_of_writes_sub hostOps1 (W4 m ρ c) (by results_listed hostOps1) hb

/-- The results of `hostOps2`. -/
abbrev res7 : List (Ref sig .tc) :=
  [main_c_10, main_v54, main_v55, main_c_11, main_v56, main_v57, main_v58, main_v59, main_v60, main_v61,
      main_v62, main_v63, main_cst_12, main_v64, main_v65, main_v66]
/-- A buffer that is no result of `hostOps2` holds after it what it held before. -/
theorem keep7 (b : Ref sig .tc) (hb : b ∉ res7) :
    W7 m ρ c (Proc.devRef .tc b) = W6 m ρ c (Proc.devRef .tc b) :=
  StableHlo.after_of_writes_sub hostOps2 (W6 m ρ c) (by results_listed hostOps2) hb

/-- The results of `hostOps3`. -/
abbrev res9 : List (Ref sig .tc) :=
  [main_c_13, main_v68, main_v69, main_c_14, main_v70, main_v71, main_v72, main_v73, main_v74, main_v75,
      main_v76, main_v77, main_cst_15, main_v78, main_v79, main_v80]
/-- A buffer that is no result of `hostOps3` holds after it what it held before. -/
theorem keep9 (b : Ref sig .tc) (hb : b ∉ res9) :
    W9 m ρ c (Proc.devRef .tc b) = W8 m ρ c (Proc.devRef .tc b) :=
  StableHlo.after_of_writes_sub hostOps3 (W8 m ρ c) (by results_listed hostOps3) hb

/-- The results of `hostOps5`. -/
abbrev res12 : List (Ref sig .tc) :=
  [main_v83, main_v84]
/-- A buffer that is no result of `hostOps5` holds after it what it held before. -/
theorem keep12 (b : Ref sig .tc) (hb : b ∉ res12) :
    W12 m ρ c (Proc.devRef .tc b) = W11 m ρ c (Proc.devRef .tc b) :=
  StableHlo.after_of_writes_sub hostOps5 (W11 m ρ c) (by results_listed hostOps5) hb

/-- The results of `hostOps6`. -/
abbrev res14 : List (Ref sig .tc) :=
  [main_cst_16, main_v86, main_v87, main_v88, main_v89]
/-- A buffer that is no result of `hostOps6` holds after it what it held before. -/
theorem keep14 (b : Ref sig .tc) (hb : b ∉ res14) :
    W14 m ρ c (Proc.devRef .tc b) = W13 m ρ c (Proc.devRef .tc b) :=
  StableHlo.after_of_writes_sub hostOps6 (W13 m ρ c) (by results_listed hostOps6) hb

/-! ## From the launch to region 0's entry: three host stretches -/

/-- A buffer none of the three opening stretches writes holds at region 0's entry what it held at launch. -/
theorem launch3 (b : Ref sig .tc) (hb : b ∉ res1 ∧ b ∉ res2 ∧ b ∉ res3) :
    W3 m ρ c (Proc.devRef .tc b) = m ((c : Thread nD τ).loc b) :=
  (keep3 m ρ c b hb.2.2).trans ((keep2 m ρ c b hb.2.1).trans ((keep1 m ρ c b hb.1).trans rfl))

/-! ## From region 0's entry on: a buffer that is no array of the regions passed and no result of the stretches passed -/

/-- No array of region 0. -/
abbrev clear4 (b : Ref sig .tc) : Prop := ∀ w, Pipeline.arrRef spec0 w ≠ b
theorem pass4 (b : Ref sig .tc) (h : clear4 b) : W4 m ρ c (Proc.devRef .tc b) = W3 m ρ c (Proc.devRef .tc b) :=
  W4_of_ne m ρ c b h
/-- … and no result of `hostOps1`. -/
abbrev clear5 (b : Ref sig .tc) : Prop := clear4 b ∧ b ∉ res5
theorem pass5 (b : Ref sig .tc) (h : clear5 b) : W5 m ρ c (Proc.devRef .tc b) = W3 m ρ c (Proc.devRef .tc b) :=
  (keep5 m ρ c b h.2).trans (pass4 m ρ c b h.1)
/-- … and no array of region 1. -/
abbrev clear6 (b : Ref sig .tc) : Prop := clear5 b ∧ ∀ w, Pipeline.arrRef spec1 w ≠ b
theorem pass6 (b : Ref sig .tc) (h : clear6 b) : W6 m ρ c (Proc.devRef .tc b) = W3 m ρ c (Proc.devRef .tc b) :=
  (W6_of_ne m ρ c b h.2).trans (pass5 m ρ c b h.1)
/-- … and no result of `hostOps2`. -/
abbrev clear7 (b : Ref sig .tc) : Prop := clear6 b ∧ b ∉ res7
theorem pass7 (b : Ref sig .tc) (h : clear7 b) : W7 m ρ c (Proc.devRef .tc b) = W3 m ρ c (Proc.devRef .tc b) :=
  (keep7 m ρ c b h.2).trans (pass6 m ρ c b h.1)
/-- … and no array of region 2. -/
abbrev clear8 (b : Ref sig .tc) : Prop := clear7 b ∧ ∀ w, Pipeline.arrRef spec2 w ≠ b
theorem pass8 (b : Ref sig .tc) (h : clear8 b) : W8 m ρ c (Proc.devRef .tc b) = W3 m ρ c (Proc.devRef .tc b) :=
  (W8_of_ne m ρ c b h.2).trans (pass7 m ρ c b h.1)
/-- … and no result of `hostOps3`. -/
abbrev clear9 (b : Ref sig .tc) : Prop := clear8 b ∧ b ∉ res9
theorem pass9 (b : Ref sig .tc) (h : clear9 b) : W9 m ρ c (Proc.devRef .tc b) = W3 m ρ c (Proc.devRef .tc b) :=
  (keep9 m ρ c b h.2).trans (pass8 m ρ c b h.1)
/-- … and no array of region 3. -/
abbrev clear10 (b : Ref sig .tc) : Prop := clear9 b ∧ ∀ w, Pipeline.arrRef spec3 w ≠ b
theorem pass10 (b : Ref sig .tc) (h : clear10 b) : W10 m ρ c (Proc.devRef .tc b) = W3 m ρ c (Proc.devRef .tc b) :=
  (W10_of_ne m ρ c b h.2).trans (pass9 m ρ c b h.1)
/-- … and no array of region 4. -/
abbrev clear11 (b : Ref sig .tc) : Prop := clear10 b ∧ ∀ w, Pipeline.arrRef spec4 w ≠ b
theorem pass11 (b : Ref sig .tc) (h : clear11 b) : W11 m ρ c (Proc.devRef .tc b) = W3 m ρ c (Proc.devRef .tc b) :=
  (W11_of_ne m ρ c b h.2).trans (pass10 m ρ c b h.1)
/-- … and no result of `hostOps5`. -/
abbrev clear12 (b : Ref sig .tc) : Prop := clear11 b ∧ b ∉ res12
theorem pass12 (b : Ref sig .tc) (h : clear12 b) : W12 m ρ c (Proc.devRef .tc b) = W3 m ρ c (Proc.devRef .tc b) :=
  (keep12 m ρ c b h.2).trans (pass11 m ρ c b h.1)
/-- … and no array of region 5. -/
abbrev clear13 (b : Ref sig .tc) : Prop := clear12 b ∧ ∀ w, Pipeline.arrRef spec5 w ≠ b
theorem pass13 (b : Ref sig .tc) (h : clear13 b) : W13 m ρ c (Proc.devRef .tc b) = W3 m ρ c (Proc.devRef .tc b) :=
  (W13_of_ne m ρ c b h.2).trans (pass12 m ρ c b h.1)
/-- … and no result of `hostOps6`. -/
abbrev clear14 (b : Ref sig .tc) : Prop := clear13 b ∧ b ∉ res14
theorem pass14 (b : Ref sig .tc) (h : clear14 b) : W14 m ρ c (Proc.devRef .tc b) = W3 m ρ c (Proc.devRef .tc b) :=
  (keep14 m ρ c b h.2).trans (pass13 m ρ c b h.1)

/-! ## The facts -/

/-- The two index vectors and the edge weights are results of the opening stretches only and arrays of no region: regions
    0, 1, 2 and the stretches between them leave them alone. -/
theorem pass_W4_main_v3 : W4 m ρ c (Proc.devRef .tc main_v3) = W3 m ρ c (Proc.devRef .tc main_v3) := pass4 m ρ c main_v3 (by decide)
theorem pass_W6_main_v3 : W6 m ρ c (Proc.devRef .tc main_v3) = W3 m ρ c (Proc.devRef .tc main_v3) := pass6 m ρ c main_v3 (by decide)
theorem pass_W8_main_v3 : W8 m ρ c (Proc.devRef .tc main_v3) = W3 m ρ c (Proc.devRef .tc main_v3) := pass8 m ρ c main_v3 (by decide)
theorem pass_W4_main_v6 : W4 m ρ c (Proc.devRef .tc main_v6) = W3 m ρ c (Proc.devRef .tc main_v6) := pass4 m ρ c main_v6 (by decide)
theorem pass_W6_main_v6 : W6 m ρ c (Proc.devRef .tc main_v6) = W3 m ρ c (Proc.devRef .tc main_v6) := pass6 m ρ c main_v6 (by decide)
theorem pass_W8_main_v6 : W8 m ρ c (Proc.devRef .tc main_v6) = W3 m ρ c (Proc.devRef .tc main_v6) := pass8 m ρ c main_v6 (by decide)
theorem pass_W4_main_v31 : W4 m ρ c (Proc.devRef .tc main_v31) = W3 m ρ c (Proc.devRef .tc main_v31) := pass4 m ρ c main_v31 (by decide)
theorem pass_W6_main_v31 : W6 m ρ c (Proc.devRef .tc main_v31) = W3 m ρ c (Proc.devRef .tc main_v31) := pass6 m ρ c main_v31 (by decide)
theorem pass_W8_main_v31 : W8 m ρ c (Proc.devRef .tc main_v31) = W3 m ρ c (Proc.devRef .tc main_v31) := pass8 m ρ c main_v31 (by decide)

/-- Each reshaped bias row is written once, before region 0, and is read (never written) by the one region that takes it:
    it reaches that region's entry unchanged. -/
theorem pass_W5_main_v32 : W5 m ρ c (Proc.devRef .tc main_v32) = W3 m ρ c (Proc.devRef .tc main_v32) := pass5 m ρ c main_v32 (by decide)
theorem pass_W7_main_v33 : W7 m ρ c (Proc.devRef .tc main_v33) = W3 m ρ c (Proc.devRef .tc main_v33) := pass7 m ρ c main_v33 (by decide)
theorem pass_W9_main_v34 : W9 m ρ c (Proc.devRef .tc main_v34) = W3 m ρ c (Proc.devRef .tc main_v34) := pass9 m ρ c main_v34 (by decide)
theorem pass_W10_main_v35 : W10 m ρ c (Proc.devRef .tc main_v35) = W3 m ρ c (Proc.devRef .tc main_v35) := pass10 m ρ c main_v35 (by decide)
theorem pass_W10_main_v36 : W10 m ρ c (Proc.devRef .tc main_v36) = W3 m ρ c (Proc.devRef .tc main_v36) := pass10 m ρ c main_v36 (by decide)
theorem pass_W14_main_v37 : W14 m ρ c (Proc.devRef .tc main_v37) = W3 m ρ c (Proc.devRef .tc main_v37) := pass14 m ρ c main_v37 (by decide)
theorem pass_W14_main_v38 : W14 m ρ c (Proc.devRef .tc main_v38) = W3 m ρ c (Proc.devRef .tc main_v38) := pass14 m ρ c main_v38 (by decide)

/-- No operation writes an argument and every region that takes one reads it: at the entry of the region that reads it
    (for the features and the first weights, region 0's entry) an argument holds its launch contents. -/
theorem pass_W3_main_arg0 : W3 m ρ c (Proc.devRef .tc main_arg0) = m ((c : Thread nD τ).loc main_arg0) := launch3 m ρ c main_arg0 (by decide)
theorem pass_W3_main_arg3 : W3 m ρ c (Proc.devRef .tc main_arg3) = m ((c : Thread nD τ).loc main_arg3) := launch3 m ρ c main_arg3 (by decide)
theorem pass_W5_main_arg5 : W5 m ρ c (Proc.devRef .tc main_arg5) = m ((c : Thread nD τ).loc main_arg5) :=
  (pass5 m ρ c main_arg5 (by decide)).trans (launch3 m ρ c main_arg5 (by decide))
theorem pass_W7_main_arg7 : W7 m ρ c (Proc.devRef .tc main_arg7) = m ((c : Thread nD τ).loc main_arg7) :=
  (pass7 m ρ c main_arg7 (by decide)).trans (launch3 m ρ c main_arg7 (by decide))
theorem pass_W10_main_arg9 : W10 m ρ c (Proc.devRef .tc main_arg9) = m ((c : Thread nD τ).loc main_arg9) :=
  (pass10 m ρ c main_arg9 (by decide)).trans (launch3 m ρ c main_arg9 (by decide))
theorem pass_W10_main_arg11 : W10 m ρ c (Proc.devRef .tc main_arg11) = m ((c : Thread nD τ).loc main_arg11) :=
  (pass10 m ρ c main_arg11 (by decide)).trans (launch3 m ρ c main_arg11 (by decide))
theorem pass_W11_main_arg2 : W11 m ρ c (Proc.devRef .tc main_arg2) = m ((c : Thread nD τ).loc main_arg2) :=
  (pass11 m ρ c main_arg2 (by decide)).trans (launch3 m ρ c main_arg2 (by decide))
theorem pass_W14_main_arg13 : W14 m ρ c (Proc.devRef .tc main_arg13) = m ((c : Thread nD τ).loc main_arg13) :=
  (pass14 m ρ c main_arg13 (by decide)).trans (launch3 m ρ c main_arg13 (by decide))
theorem pass_W14_main_arg15 : W14 m ρ c (Proc.devRef .tc main_arg15) = m ((c : Thread nD τ).loc main_arg15) :=
  (pass14 m ρ c main_arg15 (by decide)).trans (launch3 m ρ c main_arg15 (by decide))

/-- The activated features are input window 0 of region 4, which hands an input array back as it found it; the stretch
    after it writes two other buffers. -/
theorem pass_W11_main_v81 : W11 m ρ c (Proc.devRef .tc main_v81) = W10 m ρ c (Proc.devRef .tc main_v81) :=
  (W11_arr m ρ c 0).trans (((dat4 (V10 m ρ) c).arrAt_in 0 rfl _).trans (A_eq4 (V10 m ρ) c 0))
theorem pass_W12_main_v81 : W12 m ρ c (Proc.devRef .tc main_v81) = W10 m ρ c (Proc.devRef .tc main_v81) :=
  (keep12 m ρ c main_v81 (by decide)).trans (pass_W11_main_v81 m ρ c)

/-- The first head's result is written by the stretch before region 5 and is no array of regions 5 and 6 nor a result of
    the stretch between them. -/
theorem pass_W15_main_v83 : W15 m ρ c (Proc.devRef .tc main_v83) = W12 m ρ c (Proc.devRef .tc main_v83) :=
  (W15_of_ne m ρ c main_v83 (by decide)).trans
    ((keep14 m ρ c main_v83 (by decide)).trans (W13_of_ne m ρ c main_v83 (by decide)))

end Cert.KernelIdeal.Hand

end
-- ==== Proof.Bridge.lean ====
/-
  The kernel program's two results as the stage functions of its arguments. The buffer contents at the sixteen
  boundaries of @main are followed from the launch to the return: each host stretch's result is the stage function of what
  it reads, each kernel region's output array the stage function of its input arrays, and a buffer that a stretch or a
  region does not write keeps its contents. So the node features after the three convolutions are `hiddenOf` of the
  arguments, the first result is pi times the logistic head of them (a reshape of a column to a vector commutes with the
  pointwise product by a constant), and the second is the graph head of sum / max(count, 1) of the pooled features (the
  maximum with the constant 1 commutes with laying the counts out as a column).
-/
import proofs.«426142_j41875931136205_1_alg».proof.Proof.Gen.KernelIdeal.Frame
import proofs.«426142_j41875931136205_1_alg».proof.Proof.Spec
import proofs.«426142_j41875931136205_1_alg».proof.Proof.Reg0
import proofs.«426142_j41875931136205_1_alg».proof.Proof.Reg1
import proofs.«426142_j41875931136205_1_alg».proof.Proof.Reg2
import proofs.«426142_j41875931136205_1_alg».proof.Proof.Reg3
import proofs.«426142_j41875931136205_1_alg».proof.Proof.Reg4
import proofs.«426142_j41875931136205_1_alg».proof.Proof.Reg5
import proofs.«426142_j41875931136205_1_alg».proof.Proof.Reg6
import proofs.«426142_j41875931136205_1_alg».proof.Proof.Glue
import proofs.«426142_j41875931136205_1_alg».proof.Proof.Pass
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (m : (ℓ : Loc nD τ sig) → Buf (Elt Ideal) ℓ) (ρ : Dev nD → PrngReg) (c : Dev nD)

/-- The node features after the three convolutions, of the arguments. -/
abbrev hid : (⟨Cert.ReferenceIdeal.S100000x32, .f32⟩ : BufTy).Contents (Elt Ideal) :=
  Cert.Spec.hiddenOf (F := Ideal) (m ((c : Thread nD τ).loc main_arg1)) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- After region 0: the first projection. -/
theorem at_proj1 : W4 m ρ c (Proc.devRef .tc main_v39) = (Cert.Spec.proj1 (F := Ideal) (m ((c : Thread nD τ).loc main_arg0)) (m ((c : Thread nD τ).loc main_arg3))) := by
  refine (W4_arr m ρ c 2).trans ((R0.array (V3 m ρ) c).trans ?_)
  show Cert.Spec.proj1 (W3 m ρ c (Proc.devRef .tc main_arg0)) (W3 m ρ c (Proc.devRef .tc main_arg3)) = _
  rw [pass_W3_main_arg0, pass_W3_main_arg3]

/-- After the first aggregation. -/
theorem at_agg1 : W5 m ρ c (Proc.devRef .tc main_v52) = (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.proj1 (F := Ideal) (m ((c : Thread nD τ).loc main_arg0)) (m ((c : Thread nD τ).loc main_arg3)))) := by
  rw [agg1_eq, pass_W4_main_v3, pass_W4_main_v6, pass_W4_main_v31, src_eq, dst_eq, norm_eq, at_proj1]

/-- After region 1: the second projection. -/
theorem at_proj2 : W6 m ρ c (Proc.devRef .tc main_v53) = (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.proj1 (F := Ideal) (m ((c : Thread nD τ).loc main_arg0)) (m ((c : Thread nD τ).loc main_arg3)))) (Cert.Spec.rowOf (m ((c : Thread nD τ).loc main_arg4)))) (m ((c : Thread nD τ).loc main_arg5))) := by
  refine (W6_arr m ρ c 3).trans ((R1.array (V5 m ρ) c).trans ?_)
  show Cert.Spec.dense (Cert.Spec.actRow (W5 m ρ c (Proc.devRef .tc main_v52)) (W5 m ρ c (Proc.devRef .tc main_v32))) (W5 m ρ c (Proc.devRef .tc main_arg5)) = _
  rw [at_agg1, pass_W5_main_v32, b1_eq, pass_W5_main_arg5]

/-- After the second aggregation. -/
theorem at_agg2 : W7 m ρ c (Proc.devRef .tc main_v66) = (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.proj1 (F := Ideal) (m ((c : Thread nD τ).loc main_arg0)) (m ((c : Thread nD τ).loc main_arg3)))) (Cert.Spec.rowOf (m ((c : Thread nD τ).loc main_arg4)))) (m ((c : Thread nD τ).loc main_arg5)))) := by
  rw [agg2_eq, pass_W6_main_v3, pass_W6_main_v6, pass_W6_main_v31, src_eq, dst_eq, norm_eq, at_proj2]

/-- After region 2: the third projection. -/
theorem at_proj3 : W8 m ρ c (Proc.devRef .tc main_v67) = (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.proj1 (F := Ideal) (m ((c : Thread nD τ).loc main_arg0)) (m ((c : Thread nD τ).loc main_arg3)))) (Cert.Spec.rowOf (m ((c : Thread nD τ).loc main_arg4)))) (m ((c : Thread nD τ).loc main_arg5)))) (Cert.Spec.rowOf (m ((c : Thread nD τ).loc main_arg6)))) (m ((c : Thread nD τ).loc main_arg7))) := by
  refine (W8_arr m ρ c 3).trans ((R2.array (V7 m ρ) c).trans ?_)
  show Cert.Spec.dense (Cert.Spec.actRow (W7 m ρ c (Proc.devRef .tc main_v66)) (W7 m ρ c (Proc.devRef .tc main_v33))) (W7 m ρ c (Proc.devRef .tc main_arg7)) = _
  rw [at_agg2, pass_W7_main_v33, b2_eq, pass_W7_main_arg7]

/-- After the third aggregation. -/
theorem at_agg3 : W9 m ρ c (Proc.devRef .tc main_v80) = (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.dense (Cert.Spec.actRow (Cert.Spec.aggOf (Cert.Spec.srcIds (F := Ideal) (m ((c : Thread nD τ).loc main_arg1))) (Cert.Spec.dstIds (F := Ideal) (m ((c : Thread nD τ).loc main_arg1))) (Cert.Spec.normOf (Cert.Spec.srcIds (F := Ideal) (m ((c : Thread nD τ).loc main_arg1))) (Cert.Spec.dstIds (F := Ideal) (m ((c : Thread nD τ).loc main_arg1)))) (Cert.Spec.proj1 (F := Ideal) (m ((c : Thread nD τ).loc main_arg0)) (m ((c : Thread nD τ).loc main_arg3)))) (Cert.Spec.rowOf (m ((c : Thread nD τ).loc main_arg4)))) (m ((c : Thread nD τ).loc main_arg5)))) (Cert.Spec.rowOf (m ((c : Thread nD τ).loc main_arg6)))) (m ((c : Thread nD τ).loc main_arg7)))) := by
  rw [agg3_eq, pass_W8_main_v3, pass_W8_main_v6, pass_W8_main_v31, src_eq, dst_eq, norm_eq, at_proj3]

/-- After region 3: the node features. -/
theorem at_hid : W10 m ρ c (Proc.devRef .tc main_v81) = hid m c := by
  refine (W10_arr m ρ c 2).trans ((R3.array (V9 m ρ) c).trans ?_)
  show Cert.Spec.actRow (W9 m ρ c (Proc.devRef .tc main_v80)) (W9 m ρ c (Proc.devRef .tc main_v34)) = _
  rw [at_agg3, pass_W9_main_v34, b3_eq]
  rfl

/-- After region 4: pi times the logistic column. -/
theorem at_theta2d : W11 m ρ c (Proc.devRef .tc main_v82) = (mulf (broadcastInDim Cert.ReferenceIdeal.S100000x1 ![] Cert.ReferenceIdeal.Facts₀.bcast_S_S100000x1 (constant (F := Ideal) Cert.ReferenceIdeal.S_ .f32 0x40490FDB#32)) (Cert.Spec.sigCol (F := Ideal) (hid m c) (m ((c : Thread nD τ).loc main_arg9)) (Cert.Spec.rowOf (m ((c : Thread nD τ).loc main_arg10))) (m ((c : Thread nD τ).loc main_arg11)) (Cert.Spec.rowOf1 (m ((c : Thread nD τ).loc main_arg12))))) := by
  refine (W11_arr m ρ c 5).trans ((R4.array (V10 m ρ) c).trans ?_)
  show mulf _ (Cert.Spec.sigCol (W10 m ρ c (Proc.devRef .tc main_v81)) (W10 m ρ c (Proc.devRef .tc main_arg9)) (W10 m ρ c (Proc.devRef .tc main_v35)) (W10 m ρ c (Proc.devRef .tc main_arg11)) (W10 m ρ c (Proc.devRef .tc main_v36))) = _
  rw [at_hid, pass_W10_main_arg9, pass_W10_main_v35, bt1_eq, pass_W10_main_arg11, pass_W10_main_v36, bt2_eq]

/-- THE FIRST RESULT: the reshape of the column to a vector commutes with the product by the constant pi. -/
theorem at_theta : W15 m ρ c (Proc.devRef .tc main_v83) = Cert.Spec.thetaOf (Cert.Spec.sigCol (F := Ideal) (hid m c) (m ((c : Thread nD τ).loc main_arg9)) (Cert.Spec.rowOf (m ((c : Thread nD τ).loc main_arg10))) (m ((c : Thread nD τ).loc main_arg11)) (Cert.Spec.rowOf1 (m ((c : Thread nD τ).loc main_arg12)))) := by
  rw [pass_W15_main_v83, theta_eq, at_theta2d]
  funext i
  rfl

/-- The graph ids as the pooling region finds them. -/
theorem at_bcol : W12 m ρ c (Proc.devRef .tc main_v84) = (Cert.Spec.batchCol (F := Ideal) (m ((c : Thread nD τ).loc main_arg2))) := by
  rw [bcol_eq, pass_W11_main_arg2]

/-- The node features as the pooling region finds them. -/
theorem at_hid12 : W12 m ρ c (Proc.devRef .tc main_v81) = hid m c := by
  rw [pass_W12_main_v81, at_hid]

/-- After region 5: the per-graph sums. -/
theorem at_sums : W13 m ρ c (Proc.devRef .tc main_v85_0) = (Cert.Spec.poolSumCol (F := Ideal) (hid m c) (Cert.Spec.batchCol (F := Ideal) (m ((c : Thread nD τ).loc main_arg2)))) := by
  refine (W13_arr m ρ c 2).trans ((R5.sums (V12 m ρ) c).trans ?_)
  show Cert.Spec.poolSumCol (W12 m ρ c (Proc.devRef .tc main_v81)) (W12 m ρ c (Proc.devRef .tc main_v84)) = _
  rw [at_hid12, at_bcol]

/-- After region 5: the per-graph counts, as a column. -/
theorem at_counts : W13 m ρ c (Proc.devRef .tc main_v85_1) = broadcastInDim Cert.ReferenceIdeal.S128x1 ![0] Cert.ReferenceIdeal.Facts₀.bcast_S128_S128x1_0 (Cert.Spec.poolCntCol (F := Ideal) (Cert.Spec.batchCol (F := Ideal) (m ((c : Thread nD τ).loc main_arg2)))) := by
  refine (W13_arr m ρ c 3).trans ((R5.counts (V12 m ρ) c).trans ?_)
  show broadcastInDim _ _ _ (Cert.Spec.poolCntCol (W12 m ρ c (Proc.devRef .tc main_v84))) = _
  rw [at_bcol]

/-- The pooled embedding: the maximum with 1 commutes with laying the counts out as a column. -/
theorem at_gemb : W14 m ρ c (Proc.devRef .tc main_v89) = (Cert.Spec.gembOf (Cert.Spec.poolSumCol (F := Ideal) (hid m c) (Cert.Spec.batchCol (F := Ideal) (m ((c : Thread nD τ).loc main_arg2)))) (Cert.Spec.cntCol (Cert.Spec.poolCntCol (F := Ideal) (Cert.Spec.batchCol (F := Ideal) (m ((c : Thread nD τ).loc main_arg2)))))) := by
  rw [gemb_eq, at_sums, at_counts]
  funext i
  rfl

/-- THE SECOND RESULT, after region 6. -/
theorem at_bg : W15 m ρ c (Proc.devRef .tc main_v90) = Cert.Spec.bgOf (Cert.Spec.gembOf (Cert.Spec.poolSumCol (F := Ideal) (hid m c) (Cert.Spec.batchCol (F := Ideal) (m ((c : Thread nD τ).loc main_arg2)))) (Cert.Spec.cntCol (Cert.Spec.poolCntCol (F := Ideal) (Cert.Spec.batchCol (F := Ideal) (m ((c : Thread nD τ).loc main_arg2)))))) (m ((c : Thread nD τ).loc main_arg13)) (Cert.Spec.rowOf (m ((c : Thread nD τ).loc main_arg14))) (m ((c : Thread nD τ).loc main_arg15)) (Cert.Spec.rowOf2 (m ((c : Thread nD τ).loc main_arg16))) := by
  refine (W15_arr m ρ c 5).trans ((R6.array (V14 m ρ) c).trans ?_)
  show Cert.Spec.bgOf (W14 m ρ c (Proc.devRef .tc main_v89)) (W14 m ρ c (Proc.devRef .tc main_arg13)) (W14 m ρ c (Proc.devRef .tc main_v37)) (W14 m ρ c (Proc.devRef .tc main_arg15)) (W14 m ρ c (Proc.devRef .tc main_v38)) = _
  rw [at_gemb, pass_W14_main_arg13, pass_W14_main_v37, bg1_eq, pass_W14_main_arg15, pass_W14_main_v38, bg2_eq]

end Cert.KernelIdeal.Hand

end
-- ==== Proof.RefSide.lean ====
/-
  The reference program's two results, as its run states them (each one composed term of the arguments), ARE the stage
  functions of the arguments: the terms are the same text once the stage functions are unfolded.
-/
import proofs.«426142_j41875931136205_1_alg».proof.Defs
import proofs.«426142_j41875931136205_1_alg».proof.Proof.RefRun
import proofs.«426142_j41875931136205_1_alg».proof.Proof.Spec

set_option maxRecDepth 16384

noncomputable section

open Idealize.ShloMosaic Idealize.ShloMosaic.TcCoe Idealize.SL.Sem

namespace Cert.ReferenceIdeal.Hand

open Cert.ReferenceIdeal Cert.ReferenceIdeal.Gen Cert.ReferenceIdeal.ValueP

variable {F : FTy → Type} [FloatOps F] (m : (ℓ : Loc nD τ sig) → Buf (Elt F) ℓ) (c : Dev nD)

/-- The node features after the three convolutions, of the arguments. -/
abbrev hid : (⟨S100000x32, .f32⟩ : BufTy).Contents (Elt F) :=
  Cert.Spec.hiddenOf (F := F) (m ((c.tc : Thread nD τ).loc main_arg1)) (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))

/-- The first result: pi times the logistic head of the node features. -/
theorem out0_eq : res_out0 (F := F) m c = Cert.Spec.thetaOf (Cert.Spec.sigCol (hid m c) (m ((c.tc : Thread nD τ).loc main_arg9)) (Cert.Spec.rowOf (m ((c.tc : Thread nD τ).loc main_arg10))) (m ((c.tc : Thread nD τ).loc main_arg11)) (Cert.Spec.rowOf1 (m ((c.tc : Thread nD τ).loc main_arg12)))) := by
  show res_main_v103 m c = _
  unfold res_main_v103 hid Cert.Spec.thetaOf Cert.Spec.sigCol Cert.Spec.hiddenOf Cert.Spec.actRow Cert.Spec.dense Cert.Spec.aggOf Cert.Spec.normOf Cert.Spec.dinvOf Cert.Spec.degOf Cert.Spec.wrapCol Cert.Spec.idCol Cert.Spec.srcIds Cert.Spec.dstIds Cert.Spec.proj1 Cert.Spec.rowOf Cert.Spec.rowOf1 Cert.Spec.zeroNodes
  rfl

/-- The second result: the graph head of the mean-pooled node features. -/
theorem out1_eq : res_out1 (F := F) m c = Cert.Spec.bgOf (Cert.Spec.gembOf (Cert.Spec.poolSumCol (hid m c) (Cert.Spec.batchCol (m ((c.tc : Thread nD τ).loc main_arg2)))) (Cert.Spec.cntCol (Cert.Spec.poolCntCol (Cert.Spec.batchCol (m ((c.tc : Thread nD τ).loc main_arg2)))))) (m ((c.tc : Thread nD τ).loc main_arg13)) (Cert.Spec.rowOf (m ((c.tc : Thread nD τ).loc main_arg14))) (m ((c.tc : Thread nD τ).loc main_arg15)) (Cert.Spec.rowOf2 (m ((c.tc : Thread nD τ).loc main_arg16))) := by
  show res_main_v132 m c = _
  unfold res_main_v132 hid Cert.Spec.bgOf Cert.Spec.gembOf Cert.Spec.cntCol Cert.Spec.poolSumCol Cert.Spec.poolCntCol Cert.Spec.batchCol Cert.Spec.hiddenOf Cert.Spec.actRow Cert.Spec.dense Cert.Spec.aggOf Cert.Spec.normOf Cert.Spec.dinvOf Cert.Spec.degOf Cert.Spec.wrapCol Cert.Spec.idCol Cert.Spec.srcIds Cert.Spec.dstIds Cert.Spec.proj1 Cert.Spec.rowOf Cert.Spec.rowOf2 Cert.Spec.zeroNodes
  rfl

end Cert.ReferenceIdeal.Hand

end
-- ==== Proof.lean ====
/-
  A three-layer graph convolution network over 100000 nodes and 3300000 edges (self loops included) with a per-node head and
  a per-graph head: the kernel program (seven kernel regions among host gathers and scatter-adds) and the reference compute
  the same two results at the ideal instance.

  Both programs build the same edge lists and the same symmetric degree normalisation with the same host operations. A layer
  gathers the projected node features at the edges' sources, scales each edge's row by its weight and adds the rows into the
  destinations; the kernel regions between the layers compute max(a + b, 0) · W block of 10000 rows by block, which entry by
  entry is the reference's matrix product of the clamped features: the ten row blocks tile the array. The node head is
  pi / (1 + exp(-(max(h · Wt1 + bt1, 0) · Wt2 + bt2))): the kernel's logistic is that quotient at the ideal values. The graph
  head pools the node features by graph id: the kernel accumulates, block by block, the product of the 0/1 matrix
  [id(n) = g] with the features and its column sums, which is the reference's scatter-add of the rows (and of ones) into
  their graph's row, because 0 · x = 0 and 1 · x = x for every extended real and addition of extended reals is commutative and
  associative: no finiteness of the inputs is used. The quotient by max(count, 1) and the two-layer head follow.

  `frame` claims: the generated frames for the two kernel programs; the reference's run with its results dropped.
  `preserves`: the idealization rewrote nothing. `algebraic`: the kernel's run with its two results read at the last
  boundary of @main and followed back to the arguments (Bridge), the reference's run with its composed result terms
  recognised as the same stage functions (RefSide), and the agreement of the two memories on the arguments.
-/
import proofs.«426142_j41875931136205_1_alg».proof.Defs
import proofs.«426142_j41875931136205_1_alg».proof.Proof.Gen.Kernel
import proofs.«426142_j41875931136205_1_alg».proof.Proof.Gen.Kernel.Frame
import proofs.«426142_j41875931136205_1_alg».proof.Proof.Gen.KernelIdeal
import proofs.«426142_j41875931136205_1_alg».proof.Proof.Gen.KernelIdeal.Frame
import proofs.«426142_j41875931136205_1_alg».proof.Proof.Gen.ReferenceIdeal
import proofs.«426142_j41875931136205_1_alg».proof.Proof.Gen.Pre_finite_inputs
import proofs.«426142_j41875931136205_1_alg».proof.Proof.KRun
import proofs.«426142_j41875931136205_1_alg».proof.Proof.Bridge
import proofs.«426142_j41875931136205_1_alg».proof.Proof.RefRun
import proofs.«426142_j41875931136205_1_alg».proof.Proof.RefSide
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its two results dropped. -/
theorem frame_ri : Cert.frame_ReferenceIdeal := fun m ρ _ =>
  (θ_run Cert.ReferenceIdeal.defs _ _).mono (fun _ h c => (h c).2.2) (Cert.ReferenceIdeal.ValueP.run (F := Ideal) m ρ)

/-- Both programs end with their results at the same stage functions of arguments that agree. -/
theorem algebraic : Cert.algebraic_KernelIdeal_ReferenceIdeal := by
  intro m ρ m' ρ' _ hagree
  refine ⟨_, _, (θ_run Cert.KernelIdeal.defs _ _).mono (fun r h c => ⟨(h c).1.trans (Cert.KernelIdeal.Hand.at_theta m ρ c),
      (h c).2.1.trans (Cert.KernelIdeal.Hand.at_bg m ρ c), (h c).2.2⟩) (Cert.KernelIdeal.Gen.run_values m ρ), ?_⟩
  refine (θ_run Cert.ReferenceIdeal.defs _ _).mono (fun r h c => ?_) (Cert.ReferenceIdeal.ValueP.run (F := Ideal) m' ρ')
  obtain ⟨h0, h1, h2, h3, h4, h5, h6, h7, h8, h9, h10, h11, h12, h13, h14, h15, h16⟩ := hagree c
  refine ⟨(h c).1.trans ?_, (h c).2.1.trans ?_, (h c).2.2⟩
  · rw [show Cert.ReferenceIdeal.ValueP.res_main_v103 m' c = Cert.ReferenceIdeal.ValueP.res_out0 m' c from rfl, Cert.ReferenceIdeal.Hand.out0_eq]
    unfold Cert.ReferenceIdeal.Hand.hid Cert.KernelIdeal.Hand.hid
    rw [h0, h1, h3, h4, h5, h6, h7, h8, h9, h10, h11, h12]
  · rw [show Cert.ReferenceIdeal.ValueP.res_main_v132 m' c = Cert.ReferenceIdeal.ValueP.res_out1 m' c from rfl, Cert.ReferenceIdeal.Hand.out1_eq]
    unfold Cert.ReferenceIdeal.Hand.hid Cert.KernelIdeal.Hand.hid
    rw [h0, h1, h3, h4, h5, h6, h7, h8, h2, h13, h14, h15, h16]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
